-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x512 : Shape := ⟨2, ![2, 512]⟩
abbrev S1303 : Shape := ⟨1, ![1303]⟩
abbrev S1024x512 : Shape := ⟨2, ![1024, 512]⟩
abbrev S512 : Shape := ⟨1, ![512]⟩
abbrev S512x64000 : Shape := ⟨2, ![512, 64000]⟩
abbrev S64000 : Shape := ⟨1, ![64000]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64000 : S_.BroadcastsInDim S512x64000 (![] : Fin 0 → Fin S512x64000.rank)
  reducesTo_S512x64000_S_d0_1 : S512x64000.ReducesTo [0, 1] S_
  bcast_S_S64000 : S_.BroadcastsInDim S64000 (![] : Fin 0 → Fin S64000.rank)
  reducesTo_S64000_S_d0 : S64000.ReducesTo [0] S_
  bcast_S_S2x512 : S_.BroadcastsInDim S2x512 (![] : Fin 0 → Fin S2x512.rank)
  reducesTo_S2x512_S_d0_1 : S2x512.ReducesTo [0, 1] S_

variable [Facts]

def fn_part2 {F : FTy → Type} [FloatOps F] (main_arg2 : IVec S2x512 32) (main_v32 : IVec S_ 1) (main_c_12 : IVec S_ 32) : IVec S_ 1 :=
  let main_v33 : IVec S2x512 32 := broadcastInDim S2x512 ![] bcast_S_S2x512 main_c_12
  let main_v34 : IVec S2x512 1 := cmpi .slt main_arg2 main_v33
  let main_c_13 : IVec S_ 1 := constantI S_ 1 1#1
  let main_v35 : IVec S_ 1 := (fun x v => Host.reduce IntOp.andi x v reducesTo_S2x512_S_d0_1 h_S_) main_v34 main_c_13
  let main_v36 : IVec S_ 1 := andi main_v32 main_v35
  main_v36

def fn_part1 {F : FTy → Type} [FloatOps F] (main_arg2 : IVec S2x512 32) (main_arg7 : FVec F S512x64000 .f32) (main_arg8 : FVec F S64000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x64000 .f32 := Host.absf main_arg7
  let main_cst_6 : FVec F S_ .f32 := constant S_ .f32 0x7F800000#32
  let main_v20 : FVec F S512x64000 .f32 := broadcastInDim S512x64000 ![] bcast_S_S512x64000 main_cst_6
  let main_v21 : IVec S512x64000 1 := cmpf .olt main_v19 main_v20
  let main_c_7 : IVec S_ 1 := constantI S_ 1 1#1
  let main_v22 : IVec S_ 1 := (fun x v => Host.reduce IntOp.andi x v reducesTo_S512x64000_S_d0_1 h_S_) main_v21 main_c_7
  let main_v23 : IVec S_ 1 := andi main_v18 main_v22
  let main_v24 : FVec F S64000 .f32 := Host.absf main_arg8
  let main_cst_8 : FVec F S_ .f32 := constant S_ .f32 0x7F800000#32
  let main_v25 : FVec F S64000 .f32 := broadcastInDim S64000 ![] bcast_S_S64000 main_cst_8
  let main_v26 : IVec S64000 1 := cmpf .olt main_v24 main_v25
  let main_c_9 : IVec S_ 1 := constantI S_ 1 1#1
  let main_v27 : IVec S_ 1 := (fun x v => Host.reduce IntOp.andi x v reducesTo_S64000_S_d0 h_S_) main_v26 main_c_9
  let main_v28 : IVec S_ 1 := andi main_v23 main_v27
  let main_c_10 : IVec S_ 32 := constantI S_ 32 0#32
  let main_v29 : IVec S2x512 32 := broadcastInDim S2x512 ![] bcast_S_S2x512 main_c_10
  let main_v30 : IVec S2x512 1 := cmpi .sge main_arg2 main_v29
  let main_c_11 : IVec S_ 1 := constantI S_ 1 1#1
  let main_v31 : IVec S_ 1 := (fun x v => Host.reduce IntOp.andi x v reducesTo_S2x512_S_d0_1 h_S_) main_v30 main_c_11
  let main_v32 : IVec S_ 1 := andi main_v28 main_v31
  let main_c_12 : IVec S_ 32 := constantI S_ 32 32000#32
  fn_part2 (F := F) main_arg2 main_v32 main_c_12

def fn {F : FTy → Type} [FloatOps F] (main_arg0 : FVec F S2x512x512 .f32) (main_arg1 : FVec F S2x512x512 .f32) (main_arg2 : IVec S2x512 32) (main_arg3 : IVec S1303 32) (main_arg4 : IVec S1303 32) (main_arg5 : FVec F S1024x512 .f32) (main_arg6 : FVec F S512 .f32) (main_arg7 : FVec F S512x64000 .f32) (main_arg8 : FVec F S64000 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S1024x512 .f32 := Host.absf main_arg5
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg7 main_arg8 main_v13 main_v16
-- ==== Kernel.lean ====
abbrev S2x512x512 : Shape := ⟨3, ![2, 512, 512]⟩
abbrev S2x512 : Shape := ⟨2, ![2, 512]⟩
abbrev S1303 : Shape := ⟨1, ![1303]⟩
abbrev S1024x512 : Shape := ⟨2, ![1024, 512]⟩
abbrev S512 : Shape := ⟨1, ![512]⟩
abbrev S512x64000 : Shape := ⟨2, ![512, 64000]⟩
abbrev S64000 : Shape := ⟨1, ![64000]⟩
abbrev S2 : Shape := ⟨1, ![2]⟩
abbrev S_ : Shape := ⟨0, ![]⟩
abbrev S1303x1 : Shape := ⟨2, ![1303, 1]⟩
abbrev S2x1303x512 : Shape := ⟨3, ![2, 1303, 512]⟩
abbrev S2x1303x1024 : Shape := ⟨3, ![2, 1303, 1024]⟩
abbrev S2x1303 : Shape := ⟨2, ![2, 1303]⟩
abbrev S2x1303x1 : Shape := ⟨3, ![2, 1303, 1]⟩
abbrev S2x1303x2 : Shape := ⟨3, ![2, 1303, 2]⟩
abbrev S2606x1024 : Shape := ⟨2, ![2606, 1024]⟩
abbrev S2606x2 : Shape := ⟨2, ![2606, 2]⟩
abbrev S2688x1024 : Shape := ⟨2, ![2688, 1024]⟩
abbrev S2688x2 : Shape := ⟨2, ![2688, 2]⟩
abbrev S512x2x50x640 : Shape := ⟨4, ![512, 2, 50, 640]⟩
abbrev S512x50x2x640 : Shape := ⟨4, ![512, 50, 2, 640]⟩
abbrev S2x32000 : Shape := ⟨2, ![2, 32000]⟩
abbrev S1344x1024 : Shape := ⟨2, ![1344, 1024]⟩
abbrev S512x1280 : Shape := ⟨2, ![512, 1280]⟩
abbrev S2x640 : Shape := ⟨2, ![2, 640]⟩
abbrev S1344x2 : Shape := ⟨2, ![1344, 2]⟩
abbrev S1344x512 : Shape := ⟨2, ![1344, 512]⟩
abbrev S1x512 : Shape := ⟨2, ![1, 512]⟩
abbrev S1344x1280 : Shape := ⟨2, ![1344, 1280]⟩
abbrev S1280 : Shape := ⟨1, ![1280]⟩
abbrev S1x1280 : Shape := ⟨2, ![1, 1280]⟩
abbrev S1x640 : Shape := ⟨2, ![1, 640]⟩
abbrev S640 : Shape := ⟨1, ![640]⟩
abbrev S1344x640 : Shape := ⟨2, ![1344, 640]⟩
abbrev S1344x1 : Shape := ⟨2, ![1344, 1]⟩
abbrev S1344 : Shape := ⟨1, ![1344]⟩
abbrev S1x2 : Shape := ⟨2, ![1, 2]⟩

abbrev nBuf : Space → Nat
  | .hbm => 74
  | .vmem => 14
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512, .i32⟩
  | .hbm, ⟨3, _⟩ => ⟨S1303, .i32⟩
  | .hbm, ⟨4, _⟩ => ⟨S1303, .i32⟩
  | .hbm, ⟨5, _⟩ => ⟨S1024x512, .f32⟩
  | .hbm, ⟨6, _⟩ => ⟨S512, .f32⟩
  | .hbm, ⟨7, _⟩ => ⟨S512x64000, .f32⟩
  | .hbm, ⟨8, _⟩ => ⟨S64000, .f32⟩
  | .hbm, ⟨9, _⟩ => ⟨S2, .f32⟩
  | .hbm, ⟨10, _⟩ => ⟨S_, .i32⟩
  | .hbm, ⟨11, _⟩ => ⟨S1303, .i32⟩
  | .hbm, ⟨12, _⟩ => ⟨S1303, .i1⟩
  | .hbm, ⟨13, _⟩ => ⟨S_, .i32⟩
  | .hbm, ⟨14, _⟩ => ⟨S1303, .i32⟩
  | .hbm, ⟨15, _⟩ => ⟨S1303, .i32⟩
  | .hbm, ⟨16, _⟩ => ⟨S1303, .i32⟩
  | .hbm, ⟨17, _⟩ => ⟨S1303x1, .i32⟩
  | .hbm, ⟨18, _⟩ => ⟨S2x1303x512, .f32⟩
  | .hbm, ⟨19, _⟩ => ⟨S_, .i32⟩
  | .hbm, ⟨20, _⟩ => ⟨S1303, .i32⟩
  | .hbm, ⟨21, _⟩ => ⟨S1303, .i1⟩
  | .hbm, ⟨22, _⟩ => ⟨S_, .i32⟩
  | .hbm, ⟨23, _⟩ => ⟨S1303, .i32⟩
  | .hbm, ⟨24, _⟩ => ⟨S1303, .i32⟩
  | .hbm, ⟨25, _⟩ => ⟨S1303, .i32⟩
  | .hbm, ⟨26, _⟩ => ⟨S1303x1, .i32⟩
  | .hbm, ⟨27, _⟩ => ⟨S2x1303x512, .f32⟩
  | .hbm, ⟨28, _⟩ => ⟨S2x1303x1024, .f32⟩
  | .hbm, ⟨29, _⟩ => ⟨S_, .i32⟩
  | .hbm, ⟨30, _⟩ => ⟨S1303, .i32⟩
  | .hbm, ⟨31, _⟩ => ⟨S1303, .i1⟩
  | .hbm, ⟨32, _⟩ => ⟨S_, .i32⟩
  | .hbm, ⟨33, _⟩ => ⟨S1303, .i32⟩
  | .hbm, ⟨34, _⟩ => ⟨S1303, .i32⟩
  | .hbm, ⟨35, _⟩ => ⟨S1303, .i32⟩
  | .hbm, ⟨36, _⟩ => ⟨S1303x1, .i32⟩
  | .hbm, ⟨37, _⟩ => ⟨S2x1303, .i32⟩
  | .hbm, ⟨38, _⟩ => ⟨S_, .i32⟩
  | .hbm, ⟨39, _⟩ => ⟨S1303, .i32⟩
  | .hbm, ⟨40, _⟩ => ⟨S1303, .i1⟩
  | .hbm, ⟨41, _⟩ => ⟨S_, .i32⟩
  | .hbm, ⟨42, _⟩ => ⟨S1303, .i32⟩
  | .hbm, ⟨43, _⟩ => ⟨S1303, .i32⟩
  | .hbm, ⟨44, _⟩ => ⟨S1303, .i32⟩
  | .hbm, ⟨45, _⟩ => ⟨S1303x1, .i32⟩
  | .hbm, ⟨46, _⟩ => ⟨S2x1303, .i32⟩
  | .hbm, ⟨47, _⟩ => ⟨S2x1303x1, .i32⟩
  | .hbm, ⟨48, _⟩ => ⟨S2x1303x1, .i32⟩
  | .hbm, ⟨49, _⟩ => ⟨S2x1303x2, .i32⟩
  | .hbm, ⟨50, _⟩ => ⟨S2606x1024, .f32⟩
  | .hbm, ⟨51, _⟩ => ⟨S2606x1024, .bf16⟩
  | .hbm, ⟨52, _⟩ => ⟨S2606x2, .i32⟩
  | .hbm, ⟨53, _⟩ => ⟨S_, .i32⟩
  | .hbm, ⟨54, _⟩ => ⟨S_, .bf16⟩
  | .hbm, ⟨55, _⟩ => ⟨S2688x1024, .bf16⟩
  | .hbm, ⟨56, _⟩ => ⟨S_, .i32⟩
  | .hbm, ⟨57, _⟩ => ⟨S_, .i32⟩
  | .hbm, ⟨58, _⟩ => ⟨S2688x2, .i32⟩
  | .hbm, ⟨59, _⟩ => ⟨S1024x512, .bf16⟩
  | .hbm, ⟨60, _⟩ => ⟨S512x64000, .bf16⟩
  | .hbm, ⟨61, _⟩ => ⟨S512x2x50x640, .bf16⟩
  | .hbm, ⟨62, _⟩ => ⟨S512x50x2x640, .bf16⟩
  | .hbm, ⟨63, _⟩ => ⟨S512x64000, .bf16⟩
  | .hbm, ⟨64, _⟩ => ⟨S2x32000, .f32⟩
  | .hbm, ⟨65, _⟩ => ⟨S2688x2, .f32⟩
  | .hbm, ⟨66, _⟩ => ⟨S2606x2, .f32⟩
  | .hbm, ⟨67, _⟩ => ⟨S1x2, .f32⟩
  | .hbm, ⟨68, _⟩ => ⟨S2606x2, .f32⟩
  | .hbm, ⟨69, _⟩ => ⟨S2606x2, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1344x1024, .bf16⟩
  | .local _ .vmem, ⟨1, _⟩ => ⟨S1024x512, .bf16⟩
  | .local _ .vmem, ⟨2, _⟩ => ⟨S512, .f32⟩
  | .local _ .vmem, ⟨3, _⟩ => ⟨S512x1280, .bf16⟩
  | .local _ .vmem, ⟨4, _⟩ => ⟨S512x1280, .bf16⟩
  | .local _ .vmem, ⟨5, _⟩ => ⟨S2x640, .f32⟩
  | .local _ .vmem, ⟨6, _⟩ => ⟨S2x640, .f32⟩
  | .local _ .vmem, ⟨7, _⟩ => ⟨S1344x2, .i32⟩
  | .local _ .vmem, ⟨8, _⟩ => ⟨S1344x2, .f32⟩
  | .local _ .vmem, ⟨9, _⟩ => ⟨S1344x2, .f32⟩
  | .local _ .vmem, ⟨10, _⟩ => ⟨S1344x512, .bf16⟩
  | .local _ .vmem, ⟨11, _⟩ => ⟨S1344x2, .f32⟩
  | .local _ .vmem, ⟨12, _⟩ => ⟨S1344x2, .f32⟩
  | .local _ .vmem, ⟨13, _⟩ => ⟨S1344x2, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_call0_v0 : Ref sig .tc := ⟨.hbm, 54, rfl⟩
abbrev main_v35 : Ref sig .tc := ⟨.hbm, 55, rfl⟩
abbrev main_c_8 : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v90 : BitVec 1 := Scalar.cmpi .eq arg1 c49_i32
  let v91 : BitVec 32 := Scalar.extui v90
  let c0_i32_41 : BitVec 32 := 0#32
  let v92 : BitVec 1 := Scalar.cmpi .ne v91 c0_i32_41
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1344x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1344x2 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1344x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S1303 : S_.BroadcastsInDim S1303 (![] : Fin 0 → Fin S1303.rank)
  bcast_S1303_S1303x1_0 : S1303.BroadcastsInDim S1303x1 (![0] : Fin 1 → Fin S1303x1.rank)
  concatenates_S2x1303x512_S2x1303x512_S2x1303x1024_d2 : Shape.Concatenates [S2x1303x512, S2x1303x512] S2x1303x1024 2
  bcast_S2x1303_S2x1303x1_0_1 : S2x1303.BroadcastsInDim S2x1303x1 (![0, 1] : Fin 2 → Fin S2x1303x1.rank)
  concatenates_S2x1303x1_S2x1303x1_S2x1303x2_d2 : Shape.Concatenates [S2x1303x1, S2x1303x1] S2x1303x2 2
  shapeCasts_S2x1303x1024_S2606x1024 : S2x1303x1024.ShapeCasts S2606x1024
  bitsLt_bf16_f32 : FTy.bits .bf16 < FTy.bits .f32
  shapeCasts_S2x1303x2_S2606x2 : S2x1303x2.ShapeCasts S2606x2
  pads_S2606x1024_S2688x1024_0820_000 : S2606x1024.Pads (![0, 0] : Fin 2 → Nat) ![82, 0] ![0, 0] S2688x1024
  h_S_ : 0 < S_.numel
  pads_S2606x2_S2688x2_0820_000 : S2606x2.Pads (![0, 0] : Fin 2 → Nat) ![82, 0] ![0, 0] S2688x2
  shapeCasts_S512x64000_S512x2x50x640 : S512x64000.ShapeCasts S512x2x50x640
  transposes_S512x2x50x640_S512x50x2x640_0_2_1_3 : S512x2x50x640.Transposes [0, 2, 1, 3] S512x50x2x640
  shapeCasts_S512x50x2x640_S512x64000 : S512x50x2x640.ShapeCasts S512x64000
  shapeCasts_S64000_S2x32000 : S64000.ShapeCasts S2x32000
  inb_S1344x1024_S1344x1024_0_0 : ∀ a, (![0, 0] : Fin 2 → Nat) a + S1344x1024.size a ≤ S1344x1024.size a
  h_S1344x1024 : 0 < S1344x1024.numel
  shapeCasts_S1344x1024_S1344x1024 : S1344x1024.ShapeCasts S1344x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1344x512 : S1x512.Broadcasts S1344x512
  inb_S1344x512_S1344x512_0_0 : ∀ a, (![0, 0] : Fin 2 → Nat) a + S1344x512.size a ≤ S1344x512.size a
  h_S1344x512 : 0 < S1344x512.numel
  shapeCasts_S1344x512_S1344x512 : S1344x512.ShapeCasts S1344x512
  packedbf16_S1344x512_S1344x512_0_0 : (Rect.unit (s := S1344x512) ![0, 0] S1344x512.size inb_S1344x512_S1344x512_0_0).PackedRows (EltTy.packing .bf16)
  inb_S1344x2_S1344x2_0_0 : ∀ a, (![0, 0] : Fin 2 → Nat) a + S1344x2.size a ≤ S1344x2.size a
  h_S1344x2 : 0 < S1344x2.numel
  shapeCasts_S1344x2_S1344x2 : S1344x2.ShapeCasts S1344x2
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S2x640_S2x640_0_0 : ∀ a, (![0, 0] : Fin 2 → Nat) a + S2x640.size a ≤ S2x640.size a
  h_S2x640 : 0 < S2x640.numel
  shapeCasts_S2x640_S2x640 : S2x640.ShapeCasts S2x640
  shapeCasts_S2x640_S1280 : S2x640.ShapeCasts S1280
  shapeCasts_S1280_S1x1280 : S1280.ShapeCasts S1x1280
  broadcasts_S1x1280_S1344x1280 : S1x1280.Broadcasts S1344x1280
  iota_S1x640_d1_w32 : S1x640.Iotas .tc 32 [1]
  shapeCasts_S1x640_S640 : S1x640.ShapeCasts S640
  slices_S1344x1280_o0_0_S1344x640 : S1344x1280.Slices ![0, 0] S1344x640
  inb_S1344x2_S1344x1_0_0 : ∀ a, (![0, 0] : Fin 2 → Nat) a + S1344x1.size a ≤ S1344x2.size a
  h_S1344x1 : 0 < S1344x1.numel
  shapeCasts_S1344x1_S1344x1 : S1344x1.ShapeCasts S1344x1
  shapeCasts_S640_S1x640 : S640.ShapeCasts S1x640
  broadcasts_S1x640_S1344x640 : S1x640.Broadcasts S1344x640
  broadcasts_S1344x1_S1344x640 : S1344x1.Broadcasts S1344x640
  reduces_S1344x640_S1344 : S1344x640.Reduces [1] S1344
  shapeCasts_S1344_S1344x1 : S1344.ShapeCasts S1344x1
  slices_S1344x1280_o0_640_S1344x640 : S1344x1280.Slices ![0, 640] S1344x640
  inb_S1344x2_S1344x1_0_1 : ∀ a, (![0, 1] : Fin 2 → Nat) a + S1344x1.size a ≤ S1344x2.size a
  slices_S2688x2_S2606x2_0_0 : S2688x2.Slices ![0, 0] S2606x2
  bcast_S2_S1x2_1 : S2.BroadcastsInDim S1x2 (![1] : Fin 1 → Fin S1x2.rank)
  bcast_S1x2_S2606x2_0_1 : S1x2.BroadcastsInDim S2606x2 (![0, 1] : Fin 2 → Fin S2606x2.rank)
  reducesTo_S2606x2_S_d0_1 : S2606x2.ReducesTo [0, 1] S_
  gather_S2x512x512_S1303x1_S2x1303x512_02_1_n_n_1_1_21512_wf : GatherDims.WF S2x512x512 S1303x1 S2x1303x512 [0, 2] [1] [] [1] [] 1 ![2, 1, 512]
  gather_S2x512_S1303x1_S2x1303_0_1_n_n_1_1_21_wf : GatherDims.WF S2x512 S1303x1 S2x1303 [0] [1] [] [1] [] 1 ![2, 1]
  dot_S1344x1024_S1024x512_S1344x512_1_0_0_1_n_n_wf : DotDims.WF S1344x1024 S1024x512 S1344x512 [1] [0] [0] [1] [] []
  dot_S1344x512_S512x1280_S1344x1280_1_0_0_1_n_n_wf : DotDims.WF S1344x512 S512x1280 S1344x1280 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1344x1024.size a ≤ S2688x1024.size a
  hwx0_0 : ∀ i : grid0.Coords, EltTy.bits .bf16 = 32 ∨ (Rect.block (s := S2688x1024) S1344x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1280.size a ≤ S512x64000.size a
  hwx0_3 : ∀ i : grid0.Coords, EltTy.bits .bf16 = 32 ∨ (Rect.block (s := S512x64000) S512x1280.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x640.size a ≤ S2x32000.size a
  hwx0_4 : ∀ i : grid0.Coords, EltTy.bits .f32 = 32 ∨ (Rect.block (s := S2x32000) S2x640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1344x2.size a ≤ S2688x2.size a
  hwx0_5 : ∀ i : grid0.Coords, EltTy.bits .i32 = 32 ∨ (Rect.block (s := S2688x2) S1344x2.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1344x2.size a ≤ S2688x2.size a
  hwx0_6 : ∀ i : grid0.Coords, EltTy.bits .f32 = 32 ∨ (Rect.block (s := S2688x2) S1344x2.size (cc0_transform_6 i) (hinb0_6 i)).WholeWords (EltTy.packing .f32)

variable [Facts₀]

def gather_S2x512x512_S1303x1_S2x1303x512_02_1_n_n_1_1_21512 : GatherDims S2x512x512 S1303x1 S2x1303x512 where
  offsetDims := [0, 2]
  collapsedSliceDims := [1]
  operandBatchingDims := []
  startIndicesBatchingDims := []
  startIndexMap := [1]
  indexVectorDim := 1
  sliceSizes := ![2, 1, 512]
  wf := gather_S2x512x512_S1303x1_S2x1303x512_02_1_n_n_1_1_21512_wf
def gather_S2x512_S1303x1_S2x1303_0_1_n_n_1_1_21 : GatherDims S2x512 S1303x1 S2x1303 where
  offsetDims := [0]
  collapsedSliceDims := [1]
  operandBatchingDims := []
  startIndicesBatchingDims := []
  startIndexMap := [1]
  indexVectorDim := 1
  sliceSizes := ![2, 1]
  wf := gather_S2x512_S1303x1_S2x1303_0_1_n_n_1_1_21_wf
def dot_S1344x1024_S1024x512_S1344x512_1_0_0_1_n_n : DotDims S1344x1024 S1024x512 S1344x512 where
  lhsContracting := [1]
  rhsContracting := [0]
  lhsNonContracting := [0]
  rhsNonContracting := [1]
  lhsBatch := []
  rhsBatch := []
  wf := dot_S1344x1024_S1024x512_S1344x512_1_0_0_1_n_n_wf
def dot_S1344x512_S512x1280_S1344x1280_1_0_0_1_n_n : DotDims S1344x512 S512x1280 S1344x1280 where
  lhsContracting := [1]
  rhsContracting := [0]
  lhsNonContracting := [0]
  rhsNonContracting := [1]
  lhsBatch := []
  rhsBatch := []
  wf := dot_S1344x512_S512x1280_S1344x1280_1_0_0_1_n_n_wf

abbrev win0_0 : Pipeline.Window sig grid0 :=
  Pipeline.Window.ofSpec (Memref.whole main_v35) S1344x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S512x1280.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S2x640.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1344x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1344x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2x512x512 : Shape := ⟨3, ![2, 512, 512]⟩
abbrev S2x512 : Shape := ⟨2, ![2, 512]⟩
abbrev S1303 : Shape := ⟨1, ![1303]⟩
abbrev S1024x512 : Shape := ⟨2, ![1024, 512]⟩
abbrev S512 : Shape := ⟨1, ![512]⟩
abbrev S512x64000 : Shape := ⟨2, ![512, 64000]⟩
abbrev S64000 : Shape := ⟨1, ![64000]⟩
abbrev S2 : Shape := ⟨1, ![2]⟩
abbrev S_ : Shape := ⟨0, ![]⟩
abbrev S1303x1 : Shape := ⟨2, ![1303, 1]⟩
abbrev S2x1303x512 : Shape := ⟨3, ![2, 1303, 512]⟩
abbrev S2x1303x1024 : Shape := ⟨3, ![2, 1303, 1024]⟩
abbrev S1x1x512 : Shape := ⟨3, ![1, 1, 512]⟩
abbrev S2x1303x64000 : Shape := ⟨3, ![2, 1303, 64000]⟩
abbrev S1x1x64000 : Shape := ⟨3, ![1, 1, 64000]⟩
abbrev S2x1303x2x32000 : Shape := ⟨4, ![2, 1303, 2, 32000]⟩
abbrev S2x1303x2 : Shape := ⟨3, ![2, 1303, 2]⟩
abbrev S2x1303x2x1 : Shape := ⟨4, ![2, 1303, 2, 1]⟩
abbrev S2x1303 : Shape := ⟨2, ![2, 1303]⟩
abbrev S2x1303x1 : Shape := ⟨3, ![2, 1303, 1]⟩
abbrev S2x1303x2x1x1 : Shape := ⟨5, ![2, 1303, 2, 1, 1]⟩
abbrev S1 : Shape := ⟨1, ![1]⟩
abbrev S1x1x1x1x1 : Shape := ⟨5, ![1, 1, 1, 1, 1]⟩
abbrev S1x1x2 : Shape := ⟨3, ![1, 1, 2]⟩

abbrev nBuf : Space → Nat
  | .hbm => 113
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512, .i32⟩
  | .hbm, ⟨3, _⟩ => ⟨S1303, .i32⟩
  | .hbm, ⟨4, _⟩ => ⟨S1303, .i32⟩
  | .hbm, ⟨5, _⟩ => ⟨S1024x512, .f32⟩
  | .hbm, ⟨6, _⟩ => ⟨S512, .f32⟩
  | .hbm, ⟨7, _⟩ => ⟨S512x64000, .f32⟩
  | .hbm, ⟨8, _⟩ => ⟨S64000, .f32⟩
  | .hbm, ⟨9, _⟩ => ⟨S2, .f32⟩
  | .hbm, ⟨10, _⟩ => ⟨S_, .i32⟩
  | .hbm, ⟨11, _⟩ => ⟨S1303, .i32⟩
  | .hbm, ⟨12, _⟩ => ⟨S1303, .i1⟩
  | .hbm, ⟨13, _⟩ => ⟨S_, .i32⟩
  | .hbm, ⟨14, _⟩ => ⟨S1303, .i32⟩
  | .hbm, ⟨15, _⟩ => ⟨S1303, .i32⟩
  | .hbm, ⟨16, _⟩ => ⟨S1303, .i32⟩
  | .hbm, ⟨17, _⟩ => ⟨S1303x1, .i32⟩
  | .hbm, ⟨18, _⟩ => ⟨S2x1303x512, .f32⟩
  | .hbm, ⟨19, _⟩ => ⟨S_, .i32⟩
  | .hbm, ⟨20, _⟩ => ⟨S1303, .i32⟩
  | .hbm, ⟨21, _⟩ => ⟨S1303, .i1⟩
  | .hbm, ⟨22, _⟩ => ⟨S_, .i32⟩
  | .hbm, ⟨23, _⟩ => ⟨S1303, .i32⟩
  | .hbm, ⟨24, _⟩ => ⟨S1303, .i32⟩
  | .hbm, ⟨25, _⟩ => ⟨S1303, .i32⟩
  | .hbm, ⟨26, _⟩ => ⟨S1303x1, .i32⟩
  | .hbm, ⟨27, _⟩ => ⟨S2x1303x512, .f32⟩
  | .hbm, ⟨28, _⟩ => ⟨S2x1303x1024, .f32⟩
  | .hbm, ⟨29, _⟩ => ⟨S2x1303x512, .f32⟩
  | .hbm, ⟨30, _⟩ => ⟨S1x1x512, .f32⟩
  | .hbm, ⟨31, _⟩ => ⟨S2x1303x512, .f32⟩
  | .hbm, ⟨32, _⟩ => ⟨S2x1303x512, .f32⟩
  | .hbm, ⟨33, _⟩ => ⟨S_, .f32⟩
  | .hbm, ⟨34, _⟩ => ⟨S2x1303x512, .f32⟩
  | .hbm, ⟨35, _⟩ => ⟨S2x1303x512, .i1⟩
  | .hbm, ⟨36, _⟩ => ⟨S_, .f32⟩
  | .hbm, ⟨37, _⟩ => ⟨S2x1303x512, .f32⟩
  | .hbm, ⟨38, _⟩ => ⟨S2x1303x512, .f32⟩
  | .hbm, ⟨39, _⟩ => ⟨S2x1303x512, .f32⟩
  | .hbm, ⟨40, _⟩ => ⟨S2x1303x64000, .f32⟩
  | .hbm, ⟨41, _⟩ => ⟨S1x1x64000, .f32⟩
  | .hbm, ⟨42, _⟩ => ⟨S2x1303x64000, .f32⟩
  | .hbm, ⟨43, _⟩ => ⟨S2x1303x64000, .f32⟩
  | .hbm, ⟨44, _⟩ => ⟨S2x1303x2x32000, .f32⟩
  | .hbm, ⟨45, _⟩ => ⟨S_, .f32⟩
  | .hbm, ⟨46, _⟩ => ⟨S2x1303x2, .f32⟩
  | .hbm, ⟨47, _⟩ => ⟨S_, .f32⟩
  | .hbm, ⟨48, _⟩ => ⟨S2x1303x2, .f32⟩
  | .hbm, ⟨49, _⟩ => ⟨S2x1303x2, .f32⟩
  | .hbm, ⟨50, _⟩ => ⟨S2x1303x2x1, .f32⟩
  | .hbm, ⟨51, _⟩ => ⟨S2x1303x2x32000, .f32⟩
  | .hbm, ⟨52, _⟩ => ⟨S2x1303x2x32000, .f32⟩
  | .hbm, ⟨53, _⟩ => ⟨S2x1303x2x32000, .f32⟩
  | .hbm, ⟨54, _⟩ => ⟨S_, .f32⟩
  | .hbm, ⟨55, _⟩ => ⟨S2x1303x2, .f32⟩
  | .hbm, ⟨56, _⟩ => ⟨S2x1303x2x1, .f32⟩
  | .hbm, ⟨57, _⟩ => ⟨S2x1303x2x1, .f32⟩
  | .hbm, ⟨58, _⟩ => ⟨S2x1303x2x32000, .f32⟩
  | .hbm, ⟨59, _⟩ => ⟨S2x1303x2x32000, .f32⟩
  | .hbm, ⟨60, _⟩ => ⟨S_, .i32⟩
  | .hbm, ⟨61, _⟩ => ⟨S1303, .i32⟩
  | .hbm, ⟨62, _⟩ => ⟨S1303, .i1⟩
  | .hbm, ⟨63, _⟩ => ⟨S_, .i32⟩
  | .hbm, ⟨64, _⟩ => ⟨S1303, .i32⟩
  | .hbm, ⟨65, _⟩ => ⟨S1303, .i32⟩
  | .hbm, ⟨66, _⟩ => ⟨S1303, .i32⟩
  | .hbm, ⟨67, _⟩ => ⟨S1303x1, .i32⟩
  | .hbm, ⟨68, _⟩ => ⟨S2x1303, .i32⟩
  | .hbm, ⟨69, _⟩ => ⟨S_, .i32⟩
  | .hbm, ⟨70, _⟩ => ⟨S1303, .i32⟩
  | .hbm, ⟨71, _⟩ => ⟨S1303, .i1⟩
  | .hbm, ⟨72, _⟩ => ⟨S_, .i32⟩
  | .hbm, ⟨73, _⟩ => ⟨S1303, .i32⟩
  | .hbm, ⟨74, _⟩ => ⟨S1303, .i32⟩
  | .hbm, ⟨75, _⟩ => ⟨S1303, .i32⟩
  | .hbm, ⟨76, _⟩ => ⟨S1303x1, .i32⟩
  | .hbm, ⟨77, _⟩ => ⟨S2x1303, .i32⟩
  | .hbm, ⟨78, _⟩ => ⟨S2x1303x1, .i32⟩
  | .hbm, ⟨79, _⟩ => ⟨S2x1303x1, .i32⟩
  | .hbm, ⟨80, _⟩ => ⟨S2x1303x2, .i32⟩
  | .hbm, ⟨81, _⟩ => ⟨S2x1303x2x1, .i32⟩
  | .hbm, ⟨82, _⟩ => ⟨S_, .i32⟩
  | .hbm, ⟨83, _⟩ => ⟨S2x1303x2x1, .i32⟩
  | .hbm, ⟨84, _⟩ => ⟨S2x1303x2x1, .i1⟩
  | .hbm, ⟨85, _⟩ => ⟨S_, .i32⟩
  | .hbm, ⟨86, _⟩ => ⟨S2x1303x2x1, .i32⟩
  | .hbm, ⟨87, _⟩ => ⟨S2x1303x2x1, .i32⟩
  | .hbm, ⟨88, _⟩ => ⟨S2x1303x2x1, .i32⟩
  | .hbm, ⟨89, _⟩ => ⟨S2x1303x2x1x1, .i32⟩
  | .hbm, ⟨90, _⟩ => ⟨S1, .i32⟩
  | .hbm, ⟨91, _⟩ => ⟨S_, .i32⟩
  | .hbm, ⟨92, _⟩ => ⟨S2x1303x2x1x1, .i32⟩
  | .hbm, ⟨93, _⟩ => ⟨S2x1303x2x1x1, .i1⟩
  | .hbm, ⟨94, _⟩ => ⟨S1x1x1x1x1, .i32⟩
  | .hbm, ⟨95, _⟩ => ⟨S2x1303x2x1x1, .i32⟩
  | .hbm, ⟨96, _⟩ => ⟨S2x1303x2x1x1, .i1⟩
  | .hbm, ⟨97, _⟩ => ⟨S2x1303x2x1x1, .i1⟩
  | .hbm, ⟨98, _⟩ => ⟨S_, .i1⟩
  | .hbm, ⟨99, _⟩ => ⟨S2x1303x2x1, .i1⟩
  | .hbm, ⟨100, _⟩ => ⟨S2x1303x2x1, .f32⟩
  | .hbm, ⟨101, _⟩ => ⟨S_, .f32⟩
  | .hbm, ⟨102, _⟩ => ⟨S2x1303x2x1, .f32⟩
  | .hbm, ⟨103, _⟩ => ⟨S2x1303x2x1, .f32⟩
  | .hbm, ⟨104, _⟩ => ⟨S2x1303x2, .f32⟩
  | .hbm, ⟨105, _⟩ => ⟨S2x1303x2, .f32⟩
  | .hbm, ⟨106, _⟩ => ⟨S1x1x2, .f32⟩
  | .hbm, ⟨107, _⟩ => ⟨S2x1303x2, .f32⟩
  | .hbm, ⟨108, _⟩ => ⟨S2x1303x2, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_cst : Ref sig .tc := ⟨.hbm, 45, rfl⟩
abbrev main_call1_v0 : Ref sig .tc := ⟨.hbm, 46, rfl⟩
abbrev main_call1_cst_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_cst_1 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_v25 : Ref sig .tc := ⟨.hbm, 59, rfl⟩
abbrev main_c_3 : Ref sig .tc := ⟨.hbm, 60, rfl⟩
abbrev main_v26 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_5 : Ref sig .tc := ⟨.hbm, 69, rfl⟩
abbrev main_v33 : Ref sig .tc := ⟨.hbm, 70, rfl⟩
abbrev main_v34 : Ref sig .tc := ⟨.hbm, 71, rfl⟩
abbrev main_c_6 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_cst : Ref sig .tc := ⟨.hbm, 101, rfl⟩
abbrev main_call2_v14 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_7 : Ref sig .tc := ⟨.hbm, 109, rfl⟩
abbrev main_v50 : Ref sig .tc := ⟨.hbm, 110, rfl⟩
abbrev main_cst_8 : Ref sig .tc := ⟨.hbm, 111, rfl⟩
abbrev main_v51 : Ref sig .tc := ⟨.hbm, 112, rfl⟩

abbrev nD : Nat := 1
abbrev τ : Topo := Topo.v7x

variable {F : FTy → Type} [FloatOps F]

class Facts₀ : Prop where
  bcast_S_S1303 : S_.BroadcastsInDim S1303 (![] : Fin 0 → Fin S1303.rank)
  bcast_S1303_S1303x1_0 : S1303.BroadcastsInDim S1303x1 (![0] : Fin 1 → Fin S1303x1.rank)
  concatenates_S2x1303x512_S2x1303x512_S2x1303x1024_d2 : Shape.Concatenates [S2x1303x512, S2x1303x512] S2x1303x1024 2
  bcast_S512_S1x1x512_2 : S512.BroadcastsInDim S1x1x512 (![2] : Fin 1 → Fin S1x1x512.rank)
  bcast_S1x1x512_S2x1303x512_0_1_2 : S1x1x512.BroadcastsInDim S2x1303x512 (![0, 1, 2] : Fin 3 → Fin S2x1303x512.rank)
  bcast_S_S2x1303x512 : S_.BroadcastsInDim S2x1303x512 (![] : Fin 0 → Fin S2x1303x512.rank)
  bcast_S64000_S1x1x64000_2 : S64000.BroadcastsInDim S1x1x64000 (![2] : Fin 1 → Fin S1x1x64000.rank)
  bcast_S1x1x64000_S2x1303x64000_0_1_2 : S1x1x64000.BroadcastsInDim S2x1303x64000 (![0, 1, 2] : Fin 3 → Fin S2x1303x64000.rank)
  shapeCasts_S2x1303x64000_S2x1303x2x32000 : S2x1303x64000.ShapeCasts S2x1303x2x32000
  reducesTo_S2x1303x2x32000_S2x1303x2_d3 : S2x1303x2x32000.ReducesTo [3] S2x1303x2
  h_S_ : 0 < S_.numel
  bcast_S_S2x1303x2 : S_.BroadcastsInDim S2x1303x2 (![] : Fin 0 → Fin S2x1303x2.rank)
  bcast_S2x1303x2_S2x1303x2x1_0_1_2 : S2x1303x2.BroadcastsInDim S2x1303x2x1 (![0, 1, 2] : Fin 3 → Fin S2x1303x2x1.rank)
  bcast_S2x1303x2x1_S2x1303x2x32000_0_1_2_3 : S2x1303x2x1.BroadcastsInDim S2x1303x2x32000 (![0, 1, 2, 3] : Fin 4 → Fin S2x1303x2x32000.rank)
  bcast_S2x1303_S2x1303x1_0_1 : S2x1303.BroadcastsInDim S2x1303x1 (![0, 1] : Fin 2 → Fin S2x1303x1.rank)
  concatenates_S2x1303x1_S2x1303x1_S2x1303x2_d2 : Shape.Concatenates [S2x1303x1, S2x1303x1] S2x1303x2 2
  bcast_S_S2x1303x2x1 : S_.BroadcastsInDim S2x1303x2x1 (![] : Fin 0 → Fin S2x1303x2x1.rank)
  shapeCasts_S2x1303x2x1_S2x1303x2x1x1 : S2x1303x2x1.ShapeCasts S2x1303x2x1x1
  bcast_S_S2x1303x2x1x1 : S_.BroadcastsInDim S2x1303x2x1x1 (![] : Fin 0 → Fin S2x1303x2x1x1.rank)
  bcast_S1_S1x1x1x1x1_4 : S1.BroadcastsInDim S1x1x1x1x1 (![4] : Fin 1 → Fin S1x1x1x1x1.rank)
  bcast_S1x1x1x1x1_S2x1303x2x1x1_0_1_2_3_4 : S1x1x1x1x1.BroadcastsInDim S2x1303x2x1x1 (![0, 1, 2, 3, 4] : Fin 5 → Fin S2x1303x2x1x1.rank)
  reducesTo_S2x1303x2x1x1_S2x1303x2x1_d4 : S2x1303x2x1x1.ReducesTo [4] S2x1303x2x1
  shapeCasts_S2x1303x2x1_S2x1303x2 : S2x1303x2x1.ShapeCasts S2x1303x2
  bcast_S2_S1x1x2_2 : S2.BroadcastsInDim S1x1x2 (![2] : Fin 1 → Fin S1x1x2.rank)
  bcast_S1x1x2_S2x1303x2_0_1_2 : S1x1x2.BroadcastsInDim S2x1303x2 (![0, 1, 2] : Fin 3 → Fin S2x1303x2.rank)
  reducesTo_S2x1303x2_S_d0_1_2 : S2x1303x2.ReducesTo [0, 1, 2] S_
  gather_S2x512x512_S1303x1_S2x1303x512_02_1_n_n_1_1_21512_wf : GatherDims.WF S2x512x512 S1303x1 S2x1303x512 [0, 2] [1] [] [1] [] 1 ![2, 1, 512]
  dot_S2x1303x1024_S1024x512_S2x1303x512_2_0_01_1_n_n_wf : DotDims.WF S2x1303x1024 S1024x512 S2x1303x512 [2] [0] [0, 1] [1] [] []
  dot_S2x1303x512_S512x64000_S2x1303x64000_2_0_01_1_n_n_wf : DotDims.WF S2x1303x512 S512x64000 S2x1303x64000 [2] [0] [0, 1] [1] [] []
  gather_S2x512_S1303x1_S2x1303_0_1_n_n_1_1_21_wf : GatherDims.WF S2x512 S1303x1 S2x1303 [0] [1] [] [1] [] 1 ![2, 1]
  gather_S2x1303x2x32000_S2x1303x2x1x1_S2x1303x2x1_n_3_012_012_3_4_1111_wf : GatherDims.WF S2x1303x2x32000 S2x1303x2x1x1 S2x1303x2x1 [] [3] [0, 1, 2] [3] [0, 1, 2] 4 ![1, 1, 1, 1]

variable [Facts₀]

def gather_S2x512x512_S1303x1_S2x1303x512_02_1_n_n_1_1_21512 : GatherDims S2x512x512 S1303x1 S2x1303x512 where
  offsetDims := [0, 2]
  collapsedSliceDims := [1]
  operandBatchingDims := []
  startIndicesBatchingDims := []
  startIndexMap := [1]
  indexVectorDim := 1
  sliceSizes := ![2, 1, 512]
  wf := gather_S2x512x512_S1303x1_S2x1303x512_02_1_n_n_1_1_21512_wf
def dot_S2x1303x1024_S1024x512_S2x1303x512_2_0_01_1_n_n : DotDims S2x1303x1024 S1024x512 S2x1303x512 where
  lhsContracting := [2]
  rhsContracting := [0]
  lhsNonContracting := [0, 1]
  rhsNonContracting := [1]
  lhsBatch := []
  rhsBatch := []
  wf := dot_S2x1303x1024_S1024x512_S2x1303x512_2_0_01_1_n_n_wf
def dot_S2x1303x512_S512x64000_S2x1303x64000_2_0_01_1_n_n : DotDims S2x1303x512 S512x64000 S2x1303x64000 where
  lhsContracting := [2]
  rhsContracting := [0]
  lhsNonContracting := [0, 1]
  rhsNonContracting := [1]
  lhsBatch := []
  rhsBatch := []
  wf := dot_S2x1303x512_S512x64000_S2x1303x64000_2_0_01_1_n_n_wf
def gather_S2x512_S1303x1_S2x1303_0_1_n_n_1_1_21 : GatherDims S2x512 S1303x1 S2x1303 where
  offsetDims := [0]
  collapsedSliceDims := [1]
  operandBatchingDims := []
  startIndicesBatchingDims := []
  startIndexMap := [1]
  indexVectorDim := 1
  sliceSizes := ![2, 1]
  wf := gather_S2x512_S1303x1_S2x1303_0_1_n_n_1_1_21_wf
def gather_S2x1303x2x32000_S2x1303x2x1x1_S2x1303x2x1_n_3_012_012_3_4_1111 : GatherDims S2x1303x2x32000 S2x1303x2x1x1 S2x1303x2x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S2x1303x2x32000_S2x1303x2x1x1_S2x1303x2x1_n_3_012_012_3_4_1111_wf

class Facts : Prop extends Facts₀ where

variable [Facts]
-- ==== Proof.KStep.lean ====
/-
  One grid point of the kernel as a pure function of what it finds.

  The body keeps four arrays between grid points: the hidden layer `h` ([1344, 512]) and, per row and per branch
  (two columns), the running maximum `m`, the running sum of exponentials `l` and the masked sum `t`. At a point
  it multiplies `h` by the point's 1280 permuted columns of the second weight matrix (640 per branch), adds the
  bias, and updates each column of `m`, `l`, `t` from that column's old contents and the branch's 640 logits.
  `stepM`, `stepL`, `stepT` are those updates, written with the body's own named values; at the first point of a
  row block they are applied to the freshly reset arrays (`-∞`, `0`, `0`) and the freshly computed `h`, and at the
  last point the output block is `log l + m - t` of the updated arrays.
-/
import proofs.«421797_j22849226015448_2_alg».proof.Proof.Gen.KernelIdeal.Skeleton
import Idealize.ShloMosaic.Lib.ValueIdx

noncomputable section

namespace Cert.KernelIdeal.KStep

open Cert.KernelIdeal Cert.KernelIdeal.Gen Idealize.ShloMosaic Idealize.ShloMosaic.ValueIdx

variable {F : FTy → Type} [FloatOps F] [Facts]

/-- Column `b` of a two-column array, as a one-column array. -/
def col {e : EltTy} (b : Fin 2) (v : Vec F S1344x2 e) : Vec F S1344x1 e :=
  fun y => v (ix2 (n0 := 1344) (n1 := 2) ⟨(y 0).val, (y 0).isLt⟩ b)

/-- The two-column array with the given columns. -/
def ofCols {e : EltTy} (c0 c1 : Vec F S1344x1 e) : Vec F S1344x2 e :=
  fun y => if (y 1).val = 0 then c0 (ix2 (n0 := 1344) (n1 := 1) ⟨(y 0).val, (y 0).isLt⟩ 0)
    else c1 (ix2 (n0 := 1344) (n1 := 1) ⟨(y 0).val, (y 0).isLt⟩ 0)

/-- The running maximum after a point: per branch, the larger of the old one and the branch's lane maximum. -/
def stepM (h : Vec F S1344x512 .bf16) (x3 : Vec F S512x1280 .bf16) (x4 : Vec F S2x640 .f32) (m : Vec F S1344x2 .f32) :
    Vec F S1344x2 .f32 :=
  ofCols (k0_pay17 (k0_pay13 h x3 x4 (col 0 m))) (k0_pay2 (k0_pay21 (k0_pay9 h x3 x4) (col 1 m)))

/-- The running sum after a point: per branch, the old one rescaled by `exp (old max - new max)` plus the
    branch's lane sum of `exp (logit - new max)`. -/
def stepL (h : Vec F S1344x512 .bf16) (x3 : Vec F S512x1280 .bf16) (x4 : Vec F S2x640 .f32) (m l : Vec F S1344x2 .f32) :
    Vec F S1344x2 .f32 :=
  ofCols (k0_pay16 (k0_pay14 h x3 x4 (col 0 m)) (k0_pay15 h x3 x4 (col 0 m)) (col 0 l))
    (k0_pay1 (k0_pay22 (k0_pay9 h x3 x4) (col 1 m)) (k0_pay23 (k0_pay9 h x3 x4) (col 1 m)) (col 1 l))

/-- The masked sum after a point: per branch, the old one plus the logit of the lane whose class is the label. -/
def stepT (i : grid0.Coords) (h : Vec F S1344x512 .bf16) (x3 : Vec F S512x1280 .bf16) (x4 : Vec F S2x640 .f32)
    (x5 : Vec F S1344x2 .i32) (t : Vec F S1344x2 .f32) : Vec F S1344x2 .f32 :=
  ofCols (k0_pay18 (k0_pay12 i h x3 x4 (col 0 x5)) (col 0 t))
    (k0_pay3 (k0_pay20 (k0_pay9 h x3 x4) (k0_pay10 i) (col 1 x5)) (col 1 t))

end Cert.KernelIdeal.KStep

end
-- ==== Proof.KPieces.lean ====
/-
  What each control case of the kernel body leaves in the arrays it keeps between grid points, and in the output
  block: the body's stores read back as the pure step functions. At a first point (the reset arm taken) the hidden
  layer is computed from the row block and the three accumulators are the step applied to the resets `-∞`, `0`,
  `0`; at a middle point the hidden layer is untouched and the accumulators are the step applied to what the point
  before left; at a last point likewise, and the output block is `log l + m - t` of the stepped accumulators.
-/
import proofs.«421797_j22849226015448_2_alg».proof.Proof.Gen.KernelIdeal.Frame
import proofs.«421797_j22849226015448_2_alg».proof.Proof.KStep
import Idealize.ShloMosaic.Lib.Pipeline.Value

set_option maxRecDepth 16384

noncomputable section

namespace Cert.KernelIdeal.KPieces

open Cert.KernelIdeal Cert.KernelIdeal.Gen Cert.KernelIdeal.KStep Idealize.ShloMosaic Idealize.ShloMosaic.ValueIdx
open Idealize.ShloMosaic.Tactic Idealize.SL.Sem

variable {F : FTy → Type} [FloatOps F]

/-- The zero offsets of a rank-two rectangle, however spelt. -/
theorem hz2 : (![0, 0] : Fin 2 → Nat) = fun _ => 0 := funext fun a => by fin_cases a <;> rfl

/-- The zero offset of a rank-one rectangle, however spelt. -/
theorem hz1 : (![0] : Fin 1 → Nat) = fun _ => 0 := funext fun a => by fin_cases a; rfl

section Columns

variable {e : EltTy}

/-- The column rectangle at column `o` places the local row `x 0` at row `x 0`, column `o`. -/
theorem idx_colRect (o : Nat) (ho : o < 2) (inb : ∀ a, (![0, o] : Fin 2 → Nat) a + S1344x1.size a ≤ S1344x2.size a)
    (x : S1344x1.Idx) :
    (Rect.unit (s := S1344x2) ![0, o] S1344x1.size inb).idx x
      = ix2 (n0 := 1344) (n1 := 2) ⟨(x 0).val, (x 0).isLt⟩ ⟨o, ho⟩ := by
  funext a
  apply Fin.ext
  match a with
  | ⟨0, _⟩ => show 0 + 1 * (x 0).val = (x 0).val; omega
  | ⟨1, _⟩ =>
    have h1 : (x 1).val < 1 := (x 1).isLt
    show o + 1 * (x 1).val = o; omega

/-- A load of column 0 of a two-column array is its column 0. -/
theorem ld_col0 (inb : ∀ a, (![0, 0] : Fin 2 → Nat) a + S1344x1.size a ≤ S1344x2.size a) (X : Vec F S1344x2 e) :
    View.ld X (Rect.unit (s := S1344x2) ![0, 0] S1344x1.size inb) = col 0 X :=
  funext fun x => congrArg X (idx_colRect 0 (by omega) inb x)

/-- A load of column 1 of a two-column array is its column 1. -/
theorem ld_col1 (inb : ∀ a, (![0, 1] : Fin 2 → Nat) a + S1344x1.size a ≤ S1344x2.size a) (X : Vec F S1344x2 e) :
    View.ld X (Rect.unit (s := S1344x2) ![0, 1] S1344x1.size inb) = col 1 X :=
  funext fun x => congrArg X (idx_colRect 1 (by omega) inb x)

/-- An index of the two-column shape lies in the column rectangle at `o` exactly when its column is `o`. -/
theorem mem_colRect (o : Nat) (inb : ∀ a, (![0, o] : Fin 2 → Nat) a + S1344x1.size a ≤ S1344x2.size a)
    (y : S1344x2.Idx) : y ∈ (Rect.unit (s := S1344x2) ![0, o] S1344x1.size inb).set ↔ (y 1).val = o := by
  rw [Rect.mem_set_unit]
  constructor
  · intro h
    have h1 := h 1
    have e1 : (![0, o] : Fin 2 → Nat) 1 = o := rfl
    have e2 : S1344x1.size 1 = 1 := rfl
    rw [e1, e2] at h1
    omega
  · intro h a
    match a with
    | ⟨0, _⟩ =>
      have h0 : (y 0).val < 1344 := (y 0).isLt
      show 0 ≤ (y 0).val ∧ (y 0).val < 0 + 1344
      omega
    | ⟨1, _⟩ =>
      show o ≤ (y 1).val ∧ (y 1).val < o + 1
      omega

/-- Two column stores, column 0 then column 1, over anything, leave the array of those two columns. -/
theorem canon_cols (inb0 : ∀ a, (![0, 0] : Fin 2 → Nat) a + S1344x1.size a ≤ S1344x2.size a)
    (inb1 : ∀ a, (![0, 1] : Fin 2 → Nat) a + S1344x1.size a ≤ S1344x2.size a) (p0 p1 : Vec F S1344x1 e)
    (L : List (View.Piece (Elt F) S1344x2 e)) :
    View.canon ((⟨Rect.unit (s := S1344x2) ![0, 1] S1344x1.size inb1, p1⟩ : View.Piece (Elt F) S1344x2 e)
      :: ⟨Rect.unit (s := S1344x2) ![0, 0] S1344x1.size inb0, p0⟩ :: L) = ofCols p0 p1 := by
  funext y
  obtain ⟨r, b, rfl⟩ : ∃ (r : Fin 1344) (b : Fin 2), y = ix2 r b := ⟨y 0, y 1, eq_ix2 y⟩
  have e0 : (Rect.unit (s := S1344x2) ![0, 0] S1344x1.size inb0).emb (ix2 (n0 := 1344) (n1 := 1) r 0) = ix2 r 0 :=
    idx_colRect 0 (by omega) inb0 _
  have e1 : (Rect.unit (s := S1344x2) ![0, 1] S1344x1.size inb1).emb (ix2 (n0 := 1344) (n1 := 1) r 0) = ix2 r 1 :=
    idx_colRect 1 (by omega) inb1 _
  by_cases hb : b = 0
  · subst hb
    have hn : ix2 (n0 := 1344) (n1 := 2) r 0 ∉ (Rect.unit (s := S1344x2) ![0, 1] S1344x1.size inb1).set := by
      rw [mem_colRect]; show ¬ ((0 : Fin 2).val = 1); decide
    have h0 := View.canon_cons_emb (Rect.unit (s := S1344x2) ![0, 0] S1344x1.size inb0) p0 L
      (ix2 (n0 := 1344) (n1 := 1) r 0)
    rw [e0] at h0
    rw [View.canon_cons_of_not_mem
      (⟨Rect.unit (s := S1344x2) ![0, 1] S1344x1.size inb1, p1⟩ : View.Piece (Elt F) S1344x2 e) _ hn, h0]
    rfl
  · have hb1 : b = 1 := Fin.ext (by
      have h2 := b.isLt
      have h0 : b.val ≠ 0 := fun h => hb (Fin.ext h)
      show b.val = 1; omega)
    subst hb1
    have h1 := View.canon_cons_emb (Rect.unit (s := S1344x2) ![0, 1] S1344x1.size inb1) p1
      ((⟨Rect.unit (s := S1344x2) ![0, 0] S1344x1.size inb0, p0⟩ : View.Piece (Elt F) S1344x2 e) :: L)
      (ix2 (n0 := 1344) (n1 := 1) r 0)
    rw [e1] at h1
    rw [h1]
    rfl

/-- A load of column 0 of a whole array holding `X` reads column 0 of `X`. -/
theorem readAt_col0 {κ : Kind} {sp : Space} (v : View sig κ sp S1344x2 e) (f : v.ty.Contents (Elt F))
    (inb : ∀ a, (![0, 0] : Fin 2 → Nat) a + S1344x1.size a ≤ S1344x2.size a) :
    View.readAt (Elt F) v (Rect.unit (s := S1344x2) ![0, 0] ![1344, 1] inb).toLoadRect f
      = col 0 (v.read (Elt F) f) :=
  ld_col0 inb _

/-- A load of column 1 of a whole array holding `X` reads column 1 of `X`. -/
theorem readAt_col1 {κ : Kind} {sp : Space} (v : View sig κ sp S1344x2 e) (f : v.ty.Contents (Elt F))
    (inb : ∀ a, (![0, 1] : Fin 2 → Nat) a + S1344x1.size a ≤ S1344x2.size a) :
    View.readAt (Elt F) v (Rect.unit (s := S1344x2) ![0, 1] ![1344, 1] inb).toLoadRect f
      = col 1 (v.read (Elt F) f) :=
  ld_col1 inb _

/-- Column 0 read back from a store of the whole array is column 0 of what was stored. -/
theorem readCov_whole_col0 {κ : Kind} {sp : Space} (v : View sig κ sp S1344x2 e)
    (inbw : ∀ a, (![0, 0] : Fin 2 → Nat) a + S1344x2.size a ≤ S1344x2.size a)
    (inb0 : ∀ a, (![0, 0] : Fin 2 → Nat) a + S1344x1.size a ≤ S1344x2.size a) (w : Vec F S1344x2 e) :
    v.readCov [(⟨Rect.unit (s := S1344x2) ![0, 0] ![1344, 2] inbw, w⟩ : View.Piece (Elt F) S1344x2 e)]
      (Rect.unit (s := S1344x2) ![0, 0] ![1344, 1] inb0).toLoadRect = col 0 w := by
  rw [View.readCov_eq_canon', View.canon_unit_zero hz2]
  exact ld_col0 inb0 w

/-- Column 1 read back from a store of the whole array is column 1 of what was stored. -/
theorem readCov_whole_col1 {κ : Kind} {sp : Space} (v : View sig κ sp S1344x2 e)
    (inbw : ∀ a, (![0, 0] : Fin 2 → Nat) a + S1344x2.size a ≤ S1344x2.size a)
    (inb1 : ∀ a, (![0, 1] : Fin 2 → Nat) a + S1344x1.size a ≤ S1344x2.size a) (w : Vec F S1344x2 e) :
    v.readCov [(⟨Rect.unit (s := S1344x2) ![0, 0] ![1344, 2] inbw, w⟩ : View.Piece (Elt F) S1344x2 e)]
      (Rect.unit (s := S1344x2) ![0, 1] ![1344, 1] inb1).toLoadRect = col 1 w := by
  rw [View.readCov_eq_canon', View.canon_unit_zero hz2]
  exact ld_col1 inb1 w

/-- Column 1 read back after a store of the whole array and then a store of column 0 is still column 1 of the
    whole store: the column-0 store does not meet it. -/
theorem readCov_col0_whole_col1 {κ : Kind} {sp : Space} (v : View sig κ sp S1344x2 e)
    (inbw : ∀ a, (![0, 0] : Fin 2 → Nat) a + S1344x2.size a ≤ S1344x2.size a)
    (inb0 : ∀ a, (![0, 0] : Fin 2 → Nat) a + S1344x1.size a ≤ S1344x2.size a)
    (inb1 : ∀ a, (![0, 1] : Fin 2 → Nat) a + S1344x1.size a ≤ S1344x2.size a)
    (p0 : Vec F S1344x1 e) (w : Vec F S1344x2 e) :
    v.readCov [(⟨Rect.unit (s := S1344x2) ![0, 0] ![1344, 1] inb0, p0⟩ : View.Piece (Elt F) S1344x2 e),
        ⟨Rect.unit (s := S1344x2) ![0, 0] ![1344, 2] inbw, w⟩]
      (Rect.unit (s := S1344x2) ![0, 1] ![1344, 1] inb1).toLoadRect = col 1 w := by
  rw [View.readCov_cons_of_disjoint v
    (⟨Rect.unit (s := S1344x2) ![0, 0] ![1344, 1] inb0, p0⟩ : View.Piece (Elt F) S1344x2 e)
    [⟨Rect.unit (s := S1344x2) ![0, 0] ![1344, 2] inbw, w⟩]
    (Rect.unit (s := S1344x2) ![0, 1] ![1344, 1] inb1).toLoadRect
    (Rect.unit_disjoint (s := S1344x2) (inb := inb0) (inb' := inb1) (1 : Fin 2) (Or.inl (by decide)))]
  exact readCov_whole_col1 v inbw inb1 w

/-- The whole array read back after its two columns were stored is the array of those two columns. -/
theorem readCov_cols_whole {κ : Kind} {sp : Space} (v : View sig κ sp S1344x2 e)
    (inbw : ∀ a, (![0, 0] : Fin 2 → Nat) a + S1344x2.size a ≤ S1344x2.size a)
    (inb0 : ∀ a, (![0, 0] : Fin 2 → Nat) a + S1344x1.size a ≤ S1344x2.size a)
    (inb1 : ∀ a, (![0, 1] : Fin 2 → Nat) a + S1344x1.size a ≤ S1344x2.size a)
    (p0 p1 : Vec F S1344x1 e) :
    v.readCov [(⟨Rect.unit (s := S1344x2) ![0, 1] ![1344, 1] inb1, p1⟩ : View.Piece (Elt F) S1344x2 e),
        ⟨Rect.unit (s := S1344x2) ![0, 0] ![1344, 1] inb0, p0⟩]
      (Rect.unit (s := S1344x2) ![0, 0] ![1344, 2] inbw).toLoadRect = ofCols p0 p1 := by
  rw [View.readCov_eq_canon', canon_cols]
  exact View.ld_unit_zero hz2 inbw (ofCols p0 p1)

end Columns
theorem sout_A_0 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : cond0_0 i) (hc1 : ¬cond0_1 i) (x0 : Vec F S1344x1024 .bf16) (x1 : Vec F S1024x512 .bf16) (x2 : Vec F S512 .f32) (x3 : Vec F S512x1280 .bf16) (x4 : Vec F S2x640 .f32) (x5 : Vec F S1344x2 .i32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = k0_pay5 x0 x1 x2 := by
  unfold sout0_A_0
  rw [View.read_writes_junk_eq_canon]
  unfold kernelRun0_A
  dsimp only
  sl_unfold_words
  rw [View.canon_unit_zero hz2]
  simp only [View.readAt_eq_ld, harg2.read_unread, harg3.read_unread, harg4.read_unread,
    View.ld_unit_zero (S := S1344x1024) hz2, View.ld_unit_zero (S := S1024x512) hz2, View.ld_unit_zero (S := S512) hz1]

theorem sout_A_1 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : cond0_0 i) (hc1 : ¬cond0_1 i) (x0 : Vec F S1344x1024 .bf16) (x1 : Vec F S1024x512 .bf16) (x2 : Vec F S512 .f32) (x3 : Vec F S512x1280 .bf16) (x4 : Vec F S2x640 .f32) (x5 : Vec F S1344x2 .i32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = stepM (k0_pay5 x0 x1 x2) x3 x4 k0_pay6 := by
  unfold sout0_A_1
  rw [View.read_writes_junk_eq_canon]
  unfold kernelRun0_A
  dsimp only
  sl_unfold_words
  rw [canon_cols]
  unfold stepM
  simp only [readCov_whole_col0, readCov_col0_whole_col1, readAt_col0, readAt_col1, harg7.read_unread,
    View.readCov_unit_zero (S := S1344x512) _ hz2]
  simp only [View.readAt_eq_ld, harg2.read_unread, harg3.read_unread, harg4.read_unread, harg5.read_unread,
    harg6.read_unread, View.ld_unit_zero (S := S1344x1024) hz2, View.ld_unit_zero (S := S1024x512) hz2,
    View.ld_unit_zero (S := S512) hz1, View.ld_unit_zero (S := S512x1280) hz2, View.ld_unit_zero (S := S2x640) hz2]

theorem sout_A_2 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : cond0_0 i) (hc1 : ¬cond0_1 i) (x0 : Vec F S1344x1024 .bf16) (x1 : Vec F S1024x512 .bf16) (x2 : Vec F S512 .f32) (x3 : Vec F S512x1280 .bf16) (x4 : Vec F S2x640 .f32) (x5 : Vec F S1344x2 .i32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = stepL (k0_pay5 x0 x1 x2) x3 x4 k0_pay6 k0_pay7 := by
  unfold sout0_A_2
  rw [View.read_writes_junk_eq_canon]
  unfold kernelRun0_A
  dsimp only
  sl_unfold_words
  rw [canon_cols]
  unfold stepL
  simp only [readCov_whole_col0, readCov_col0_whole_col1, readAt_col0, readAt_col1, harg7.read_unread,
    View.readCov_unit_zero (S := S1344x512) _ hz2]
  simp only [View.readAt_eq_ld, harg2.read_unread, harg3.read_unread, harg4.read_unread, harg5.read_unread,
    harg6.read_unread, View.ld_unit_zero (S := S1344x1024) hz2, View.ld_unit_zero (S := S1024x512) hz2,
    View.ld_unit_zero (S := S512) hz1, View.ld_unit_zero (S := S512x1280) hz2, View.ld_unit_zero (S := S2x640) hz2]

theorem sout_A_3 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : cond0_0 i) (hc1 : ¬cond0_1 i) (x0 : Vec F S1344x1024 .bf16) (x1 : Vec F S1024x512 .bf16) (x2 : Vec F S512 .f32) (x3 : Vec F S512x1280 .bf16) (x4 : Vec F S2x640 .f32) (x5 : Vec F S1344x2 .i32) :
    sout0_A_3 c i arg2 harg2 arg3 harg3 arg4 harg4 arg5 harg5 arg6 harg6 arg7 harg7 arg8 harg8 arg9 harg9 arg10 harg10 arg11 harg11 arg12 harg12 hc0 hc1 x0 x1 x2 x3 x4 x5 = stepT i (k0_pay5 x0 x1 x2) x3 x4 x5 k0_pay8 := by
  unfold sout0_A_3
  rw [View.read_writes_junk_eq_canon]
  unfold kernelRun0_A
  dsimp only
  sl_unfold_words
  rw [canon_cols]
  unfold stepT
  simp only [readCov_whole_col0, readCov_col0_whole_col1, readAt_col0, readAt_col1, harg7.read_unread,
    View.readCov_unit_zero (S := S1344x512) _ hz2]
  simp only [View.readAt_eq_ld, harg2.read_unread, harg3.read_unread, harg4.read_unread, harg5.read_unread,
    harg6.read_unread, View.ld_unit_zero (S := S1344x1024) hz2, View.ld_unit_zero (S := S1024x512) hz2,
    View.ld_unit_zero (S := S512) hz1, View.ld_unit_zero (S := S512x1280) hz2, View.ld_unit_zero (S := S2x640) hz2]

theorem sout_B_1 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : ¬cond0_0 i) (hc1 : ¬cond0_1 i) (x0 : Vec F S1344x1024 .bf16) (x1 : Vec F S1024x512 .bf16) (x2 : Vec F S512 .f32) (x3 : Vec F S512x1280 .bf16) (x4 : Vec F S2x640 .f32) (x5 : Vec F S1344x2 .i32) (xs0 : Vec F S1344x512 .bf16) (xs1 : Vec F S1344x2 .f32) (xs2 : Vec F S1344x2 .f32) (xs3 : Vec F S1344x2 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = stepM xs0 x3 x4 xs1 := by
  unfold sout0_B_1
  rw [View.read_writes_junk_eq_canon]
  unfold kernelRun0_B
  dsimp only
  sl_unfold_words
  rw [canon_cols]
  unfold stepM
  simp only [readAt_col0, readAt_col1, harg10.read_unread]
  simp only [View.readAt_eq_ld, harg9.read_unread, harg5.read_unread, harg6.read_unread,
    View.ld_unit_zero (S := S1344x512) hz2, View.ld_unit_zero (S := S512x1280) hz2, View.ld_unit_zero (S := S2x640) hz2]

theorem sout_B_2 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : ¬cond0_0 i) (hc1 : ¬cond0_1 i) (x0 : Vec F S1344x1024 .bf16) (x1 : Vec F S1024x512 .bf16) (x2 : Vec F S512 .f32) (x3 : Vec F S512x1280 .bf16) (x4 : Vec F S2x640 .f32) (x5 : Vec F S1344x2 .i32) (xs0 : Vec F S1344x512 .bf16) (xs1 : Vec F S1344x2 .f32) (xs2 : Vec F S1344x2 .f32) (xs3 : Vec F S1344x2 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = stepL xs0 x3 x4 xs1 xs2 := by
  unfold sout0_B_2
  rw [View.read_writes_junk_eq_canon]
  unfold kernelRun0_B
  dsimp only
  sl_unfold_words
  rw [canon_cols]
  unfold stepL
  simp only [readAt_col0, readAt_col1, harg10.read_unread, harg11.read_unread]
  simp only [View.readAt_eq_ld, harg9.read_unread, harg5.read_unread, harg6.read_unread,
    View.ld_unit_zero (S := S1344x512) hz2, View.ld_unit_zero (S := S512x1280) hz2, View.ld_unit_zero (S := S2x640) hz2]

theorem sout_B_3 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : ¬cond0_0 i) (hc1 : ¬cond0_1 i) (x0 : Vec F S1344x1024 .bf16) (x1 : Vec F S1024x512 .bf16) (x2 : Vec F S512 .f32) (x3 : Vec F S512x1280 .bf16) (x4 : Vec F S2x640 .f32) (x5 : Vec F S1344x2 .i32) (xs0 : Vec F S1344x512 .bf16) (xs1 : Vec F S1344x2 .f32) (xs2 : Vec F S1344x2 .f32) (xs3 : Vec F S1344x2 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = stepT i xs0 x3 x4 x5 xs3 := by
  unfold sout0_B_3
  rw [View.read_writes_junk_eq_canon]
  unfold kernelRun0_B
  dsimp only
  sl_unfold_words
  rw [canon_cols]
  unfold stepT
  simp only [readAt_col0, readAt_col1, harg7.read_unread, harg12.read_unread]
  simp only [View.readAt_eq_ld, harg9.read_unread, harg5.read_unread, harg6.read_unread,
    View.ld_unit_zero (S := S1344x512) hz2, View.ld_unit_zero (S := S512x1280) hz2, View.ld_unit_zero (S := S2x640) hz2]

theorem sout_C_1 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : ¬cond0_0 i) (hc1 : cond0_1 i) (x0 : Vec F S1344x1024 .bf16) (x1 : Vec F S1024x512 .bf16) (x2 : Vec F S512 .f32) (x3 : Vec F S512x1280 .bf16) (x4 : Vec F S2x640 .f32) (x5 : Vec F S1344x2 .i32) (xs0 : Vec F S1344x512 .bf16) (xs1 : Vec F S1344x2 .f32) (xs2 : Vec F S1344x2 .f32) (xs3 : Vec F S1344x2 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = stepM xs0 x3 x4 xs1 := by
  unfold sout0_C_1
  rw [View.read_writes_junk_eq_canon]
  unfold kernelRun0_C
  dsimp only
  sl_unfold_words
  rw [canon_cols]
  unfold stepM
  simp only [readAt_col0, readAt_col1, harg10.read_unread]
  simp only [View.readAt_eq_ld, harg9.read_unread, harg5.read_unread, harg6.read_unread,
    View.ld_unit_zero (S := S1344x512) hz2, View.ld_unit_zero (S := S512x1280) hz2, View.ld_unit_zero (S := S2x640) hz2]

theorem sout_C_2 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : ¬cond0_0 i) (hc1 : cond0_1 i) (x0 : Vec F S1344x1024 .bf16) (x1 : Vec F S1024x512 .bf16) (x2 : Vec F S512 .f32) (x3 : Vec F S512x1280 .bf16) (x4 : Vec F S2x640 .f32) (x5 : Vec F S1344x2 .i32) (xs0 : Vec F S1344x512 .bf16) (xs1 : Vec F S1344x2 .f32) (xs2 : Vec F S1344x2 .f32) (xs3 : Vec F S1344x2 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = stepL xs0 x3 x4 xs1 xs2 := by
  unfold sout0_C_2
  rw [View.read_writes_junk_eq_canon]
  unfold kernelRun0_C
  dsimp only
  sl_unfold_words
  rw [canon_cols]
  unfold stepL
  simp only [readAt_col0, readAt_col1, harg10.read_unread, harg11.read_unread]
  simp only [View.readAt_eq_ld, harg9.read_unread, harg5.read_unread, harg6.read_unread,
    View.ld_unit_zero (S := S1344x512) hz2, View.ld_unit_zero (S := S512x1280) hz2, View.ld_unit_zero (S := S2x640) hz2]

theorem sout_C_3 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : ¬cond0_0 i) (hc1 : cond0_1 i) (x0 : Vec F S1344x1024 .bf16) (x1 : Vec F S1024x512 .bf16) (x2 : Vec F S512 .f32) (x3 : Vec F S512x1280 .bf16) (x4 : Vec F S2x640 .f32) (x5 : Vec F S1344x2 .i32) (xs0 : Vec F S1344x512 .bf16) (xs1 : Vec F S1344x2 .f32) (xs2 : Vec F S1344x2 .f32) (xs3 : Vec F S1344x2 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3 = stepT i xs0 x3 x4 x5 xs3 := by
  unfold sout0_C_3
  rw [View.read_writes_junk_eq_canon]
  unfold kernelRun0_C
  dsimp only
  sl_unfold_words
  rw [canon_cols]
  unfold stepT
  simp only [readAt_col0, readAt_col1, harg7.read_unread, harg12.read_unread]
  simp only [View.readAt_eq_ld, harg9.read_unread, harg5.read_unread, harg6.read_unread,
    View.ld_unit_zero (S := S1344x512) hz2, View.ld_unit_zero (S := S512x1280) hz2, View.ld_unit_zero (S := S2x640) hz2]

theorem out_C_6 (c : Dev nD) (i : grid0.Coords) (arg2 : Memref sig .tc .vmem S1344x1024 .bf16) (harg2 : arg2.IsWhole) (arg3 : Memref sig .tc .vmem S1024x512 .bf16) (harg3 : arg3.IsWhole) (arg4 : Memref sig .tc .vmem S512 .f32) (harg4 : arg4.IsWhole) (arg5 : Memref sig .tc .vmem S512x1280 .bf16) (harg5 : arg5.IsWhole) (arg6 : Memref sig .tc .vmem S2x640 .f32) (harg6 : arg6.IsWhole) (arg7 : Memref sig .tc .vmem S1344x2 .i32) (harg7 : arg7.IsWhole) (arg8 : Memref sig .tc .vmem S1344x2 .f32) (harg8 : arg8.IsWhole) (arg9 : Memref sig .tc .vmem S1344x512 .bf16) (harg9 : arg9.IsWhole) (arg10 : Memref sig .tc .vmem S1344x2 .f32) (harg10 : arg10.IsWhole) (arg11 : Memref sig .tc .vmem S1344x2 .f32) (harg11 : arg11.IsWhole) (arg12 : Memref sig .tc .vmem S1344x2 .f32) (harg12 : arg12.IsWhole) (hc0 : ¬cond0_0 i) (hc1 : cond0_1 i) (x0 : Vec F S1344x1024 .bf16) (x1 : Vec F S1024x512 .bf16) (x2 : Vec F S512 .f32) (x3 : Vec F S512x1280 .bf16) (x4 : Vec F S2x640 .f32) (x5 : Vec F S1344x2 .i32) (xs0 : Vec F S1344x512 .bf16) (xs1 : Vec F S1344x2 .f32) (xs2 : Vec F S1344x2 .f32) (xs3 : Vec F S1344x2 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3
      = k0_pay4 (stepL xs0 x3 x4 xs1 xs2) (stepM xs0 x3 x4 xs1) (stepT i xs0 x3 x4 x5 xs3) := by
  unfold out0_C_6
  rw [View.read_writes_junk_eq_canon]
  unfold kernelRun0_C
  dsimp only
  sl_unfold_words
  rw [View.canon_unit_zero hz2]
  simp only [readCov_cols_whole]
  unfold stepL stepM stepT
  simp only [readAt_col0, readAt_col1, harg7.read_unread, harg10.read_unread, harg11.read_unread,
    harg12.read_unread]
  simp only [View.readAt_eq_ld, harg9.read_unread, harg5.read_unread, harg6.read_unread,
    View.ld_unit_zero (S := S1344x512) hz2, View.ld_unit_zero (S := S512x1280) hz2, View.ld_unit_zero (S := S2x640) hz2]

end Cert.KernelIdeal.KPieces

end
-- ==== Proof.KOuts.lean ====
/-
  What the kept arrays hold after each grid point, in terms of the step functions: at a first point of a row block
  the hidden layer computed from the point's blocks and the accumulators stepped from their resets; at every later
  point the hidden layer of the point before and the accumulators stepped from the point before's; at a last point
  also the output block, `log l + m - t` of the stepped accumulators.
-/
import proofs.«421797_j22849226015448_2_alg».proof.Proof.KPieces

set_option maxRecDepth 16384

noncomputable section

namespace Cert.KernelIdeal.KOuts

open Cert.KernelIdeal Cert.KernelIdeal.Gen Cert.KernelIdeal.KStep Idealize.ShloMosaic Idealize.ShloMosaic.ValueIdx
open Idealize.SL.Sem

variable {F : FTy → Type} [FloatOps F]
variable (m : (ℓ : Loc nD τ sig) → Buf (Elt F) ℓ)

/-- The six input blocks of a point, each at its literal type. -/
abbrev b0 (c : Dev nD) (t : Fin cfg0.N) : Vec F S1344x1024 .bf16 := iblk m c 0 t
abbrev b1 (c : Dev nD) (t : Fin cfg0.N) : Vec F S1024x512 .bf16 := iblk m c 1 t
abbrev b2 (c : Dev nD) (t : Fin cfg0.N) : Vec F S512 .f32 := iblk m c 2 t
abbrev b3 (c : Dev nD) (t : Fin cfg0.N) : Vec F S512x1280 .bf16 := iblk m c 3 t
abbrev b4 (c : Dev nD) (t : Fin cfg0.N) : Vec F S2x640 .f32 := iblk m c 4 t
abbrev b5 (c : Dev nD) (t : Fin cfg0.N) : Vec F S1344x2 .i32 := iblk m c 5 t

/-- The kept arrays after the point before `t`. -/
abbrev prev (c : Dev nD) (t : Fin cfg0.N) := outsAt0 m c (t.val - 1) (Nat.lt_of_le_of_lt (Nat.sub_le _ _) t.isLt)

/-- The hidden layer a first point computes. -/
abbrev hA (c : Dev nD) (t : Fin cfg0.N) : Vec F S1344x512 .bf16 := k0_pay5 (b0 m c t) (b1 m c t) (b2 m c t)

section FirstPoint
variable (c : Dev nD) (t : Fin cfg0.N) (h0 : t.val % 50 = 0) (h1 : ¬t.val % 50 = 49)
include h0 h1

theorem A_h : (outsAt0 m c t.val t.isLt).2.1 = hA m c t := by
  rw [outsAt0_A m c t h0 h1]; dsimp only
  exact KPieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem A_m : (outsAt0 m c t.val t.isLt).2.2.1 = stepM (hA m c t) (b3 m c t) (b4 m c t) k0_pay6 := by
  rw [outsAt0_A m c t h0 h1]; dsimp only
  exact KPieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem A_l : (outsAt0 m c t.val t.isLt).2.2.2.1 = stepL (hA m c t) (b3 m c t) (b4 m c t) k0_pay6 k0_pay7 := by
  rw [outsAt0_A m c t h0 h1]; dsimp only
  exact KPieces.sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem A_t : (outsAt0 m c t.val t.isLt).2.2.2.2 = stepT (grid0.coords t) (hA m c t) (b3 m c t) (b4 m c t) (b5 m c t) k0_pay8 := by
  rw [outsAt0_A m c t h0 h1]; dsimp only
  exact KPieces.sout_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

end FirstPoint

section MiddlePoint
variable (c : Dev nD) (t : Fin cfg0.N) (h0 : ¬t.val % 50 = 0) (h1 : ¬t.val % 50 = 49)
include h0 h1

theorem B_h : (outsAt0 m c t.val t.isLt).2.1 = (prev m c t).2.1 := by
  rw [outsAt0_B m c t h0 h1]; dsimp only
  rfl

theorem B_m : (outsAt0 m c t.val t.isLt).2.2.1 = stepM (prev m c t).2.1 (b3 m c t) (b4 m c t) (prev m c t).2.2.1 := by
  rw [outsAt0_B m c t h0 h1]; dsimp only
  exact KPieces.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem B_l : (outsAt0 m c t.val t.isLt).2.2.2.1
    = stepL (prev m c t).2.1 (b3 m c t) (b4 m c t) (prev m c t).2.2.1 (prev m c t).2.2.2.1 := by
  rw [outsAt0_B m c t h0 h1]; dsimp only
  exact KPieces.sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem B_t : (outsAt0 m c t.val t.isLt).2.2.2.2
    = stepT (grid0.coords t) (prev m c t).2.1 (b3 m c t) (b4 m c t) (b5 m c t) (prev m c t).2.2.2.2 := by
  rw [outsAt0_B m c t h0 h1]; dsimp only
  exact KPieces.sout_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end MiddlePoint

section LastPoint
variable (c : Dev nD) (t : Fin cfg0.N) (h0 : ¬t.val % 50 = 0) (h1 : t.val % 50 = 49)
include h0 h1

theorem C_h : (outsAt0 m c t.val t.isLt).2.1 = (prev m c t).2.1 := by
  rw [outsAt0_C m c t h0 h1]; dsimp only
  rfl

theorem C_m : (outsAt0 m c t.val t.isLt).2.2.1 = stepM (prev m c t).2.1 (b3 m c t) (b4 m c t) (prev m c t).2.2.1 := by
  rw [outsAt0_C m c t h0 h1]; dsimp only
  exact KPieces.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem C_l : (outsAt0 m c t.val t.isLt).2.2.2.1
    = stepL (prev m c t).2.1 (b3 m c t) (b4 m c t) (prev m c t).2.2.1 (prev m c t).2.2.2.1 := by
  rw [outsAt0_C m c t h0 h1]; dsimp only
  exact KPieces.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem C_t : (outsAt0 m c t.val t.isLt).2.2.2.2
    = stepT (grid0.coords t) (prev m c t).2.1 (b3 m c t) (b4 m c t) (b5 m c t) (prev m c t).2.2.2.2 := by
  rw [outsAt0_C m c t h0 h1]; dsimp only
  exact KPieces.sout_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem C_out : (outsAt0 m c t.val t.isLt).1
    = k0_pay4 (stepL (prev m c t).2.1 (b3 m c t) (b4 m c t) (prev m c t).2.2.1 (prev m c t).2.2.2.1)
        (stepM (prev m c t).2.1 (b3 m c t) (b4 m c t) (prev m c t).2.2.1)
        (stepT (grid0.coords t) (prev m c t).2.1 (b3 m c t) (b4 m c t) (b5 m c t) (prev m c t).2.2.2.2) := by
  rw [outsAt0_C m c t h0 h1]; dsimp only
  exact KPieces.out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end LastPoint

end Cert.KernelIdeal.KOuts

end
-- ==== Proof.LseMath.lean ====
/-
  The log-sum-exp of a row of finite logits, accumulated tile by tile.

  For a sequence `X 0, X 1, …` of finite extended reals, `pmax X n` is the largest of the first `n` (`⊥` for none) and
  `psum X n = ∑ c < n, exp (X c - pmax X n)`. Taking `k` more values: the new maximum is the larger of the old one and
  the newcomers' maximum (`pmax_add`), and the old sum, rescaled by `exp (old max - new max)`, plus the newcomers'
  exponentials is the new sum (`psum_add`: `exp a * exp b = exp (a + b)` on the reals; from no values at all the
  rescaled term is `exp ⊥ * 0 = 0`). So the two running quantities a kernel keeps are the closed forms, and
  `log (psum) + pmax - X l` is what a two-pass log-softmax gives at the label `l`, negated (`nll_forms`).
-/
import Idealize.ShloMosaic.PureOps.Ideal
import Mathlib.Algebra.BigOperators.Fin
import Mathlib.Analysis.SpecialFunctions.Log.Basic

noncomputable section

namespace Cert.LseMath

open Idealize.ShloMosaic

/-- The largest of the first `n` values, `⊥` when `n = 0`. -/
def pmax (X : ℕ → EReal) (n : ℕ) : EReal := (Finset.range n).fold max ⊥ X

/-- The sum over the first `n` values of `exp (X c - pmax X n)`. -/
def psum (X : ℕ → EReal) (n : ℕ) : EReal := ∑ c ∈ Finset.range n, Ideal.exp (X c - pmax X n)

/-- No values: the maximum is `⊥`. -/
theorem pmax_zero (X : ℕ → EReal) : pmax X 0 = ⊥ := by
  simp [pmax]

/-- One more value: the maximum of it and the earlier maximum. -/
theorem pmax_succ (X : ℕ → EReal) (n : ℕ) : pmax X (n + 1) = max (X n) (pmax X n) := by
  unfold pmax
  rw [Finset.range_add_one, Finset.fold_insert Finset.notMem_range_self]

/-- A maximum over all of `Fin N` is the prefix maximum. -/
theorem fold_max_fin (X : ℕ → EReal) (N : ℕ) :
    (Finset.univ : Finset (Fin N)).fold max ⊥ (fun k => X k.val) = pmax X N := by
  unfold pmax
  rw [← Nat.Iio_eq_range, ← Fin.map_valEmbedding_univ, Finset.fold_map]
  rfl

/-- A sum over all of `Fin N` is the sum over `range N`. -/
theorem sum_fin (f : ℕ → EReal) (N : ℕ) : (∑ k : Fin N, f k.val) = ∑ c ∈ Finset.range N, f c :=
  Fin.sum_univ_eq_sum_range f N

/-- The maximum of a stretch of `k` values after the first `n`, joined to the maximum of the first `n`. -/
private theorem pmax_add_shift (X : ℕ → EReal) (n k : ℕ) :
    pmax X (n + k) = max (pmax X n) (pmax (fun j => X (n + j)) k) := by
  induction k with
  | zero => simp [pmax_zero]
  | succ k ih =>
    rw [← Nat.add_assoc, pmax_succ, pmax_succ, ih, max_left_comm]

/-- `k` more values: the new maximum. -/
theorem pmax_add (X : ℕ → EReal) (n k : ℕ) :
    pmax X (n + k) = max (pmax X n) ((Finset.univ : Finset (Fin k)).fold max ⊥ (fun j => X (n + j.val))) := by
  rw [fold_max_fin (fun j => X (n + j)) k]
  exact pmax_add_shift X n k

/-- A prefix maximum of values below `⊤` is below `⊤`. -/
private theorem pmax_ne_top (X : ℕ → EReal) (hX : ∀ c, X c ≠ ⊥ ∧ X c ≠ ⊤) (n : ℕ) : pmax X n ≠ ⊤ := by
  induction n with
  | zero => simp [pmax_zero]
  | succ n ih =>
    rw [pmax_succ]
    rcases max_choice (X n) (pmax X n) with h | h <;> rw [h]
    · exact (hX n).2
    · exact ih

/-- A nonempty prefix maximum of values above `⊥` is above `⊥`. -/
private theorem pmax_ne_bot (X : ℕ → EReal) (hX : ∀ c, X c ≠ ⊥ ∧ X c ≠ ⊤) (n : ℕ) (hn : 0 < n) : pmax X n ≠ ⊥ := by
  obtain ⟨m, rfl⟩ : ∃ m, n = m + 1 := ⟨n - 1, by omega⟩
  rw [pmax_succ]
  intro h
  have h1 : X m ≤ ⊥ := h ▸ le_max_left _ _
  exact (hX m).1 (le_bot_iff.mp h1)

/-- The coercion of a finite real sum is the sum of the coercions. -/
private theorem coe_sum {ι : Type*} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- Finite values are coercions of their real parts. -/
private theorem coe_toReal_of (X : ℕ → EReal) (hX : ∀ c, X c ≠ ⊥ ∧ X c ≠ ⊤) (c : ℕ) : X c = ((X c).toReal : EReal) :=
  (EReal.coe_toReal (hX c).2 (hX c).1).symm

/-- Against a real shift `m`, a finite sum of exponentials of finite values is the coercion of the real sum. -/
private theorem sum_exp_sub_coe (X : ℕ → EReal) (hX : ∀ c, X c ≠ ⊥ ∧ X c ≠ ⊤) (s : Finset ℕ) (m : ℝ) :
    (∑ c ∈ s, Ideal.exp (X c - (m : EReal))) = ((∑ c ∈ s, Real.exp ((X c).toReal - m) : ℝ) : EReal) := by
  rw [coe_sum]
  refine Finset.sum_congr rfl (fun c _ => ?_)
  conv_lhs => rw [coe_toReal_of X hX c]
  rw [← EReal.coe_sub, Ideal.exp_coe]

/-- A nonempty prefix maximum of finite values is a real number. -/
theorem pmax_real (X : ℕ → EReal) (hX : ∀ c, X c ≠ ⊥ ∧ X c ≠ ⊤) (n : ℕ) (hn : 0 < n) :
    ∃ m : ℝ, pmax X n = (m : EReal) :=
  ⟨(pmax X n).toReal, (EReal.coe_toReal (pmax_ne_top X hX n) (pmax_ne_bot X hX n hn)).symm⟩

/-- A nonempty sum of exponentials against the prefix maximum is a positive real number. -/
theorem psum_real (X : ℕ → EReal) (hX : ∀ c, X c ≠ ⊥ ∧ X c ≠ ⊤) (n : ℕ) (hn : 0 < n) :
    ∃ S : ℝ, 0 < S ∧ psum X n = (S : EReal) := by
  obtain ⟨m, hm⟩ := pmax_real X hX n hn
  refine ⟨∑ c ∈ Finset.range n, Real.exp ((X c).toReal - m), ?_, ?_⟩
  · exact Finset.sum_pos (fun c _ => Real.exp_pos _) (Finset.nonempty_range_iff.mpr (by omega))
  · unfold psum
    rw [hm]
    exact sum_exp_sub_coe X hX (Finset.range n) m

/-- `k` more values: the old sum rescaled, plus the newcomers'. -/
theorem psum_add (X : ℕ → EReal) (hX : ∀ c, X c ≠ ⊥ ∧ X c ≠ ⊤) (n k : ℕ) (hk : 0 < k) :
    psum X (n + k)
      = Ideal.exp (pmax X n - pmax X (n + k)) * psum X n + ∑ j : Fin k, Ideal.exp (X (n + j.val) - pmax X (n + k)) := by
  obtain ⟨m', hm'⟩ := pmax_real X hX (n + k) (by omega)
  have hsplit : psum X (n + k)
      = (∑ c ∈ Finset.range n, Ideal.exp (X c - pmax X (n + k)))
        + ∑ j : Fin k, Ideal.exp (X (n + j.val) - pmax X (n + k)) := by
    unfold psum
    rw [Finset.sum_range_add, sum_fin (fun j => Ideal.exp (X (n + j) - pmax X (n + k))) k]
  rw [hsplit]
  congr 1
  rcases Nat.eq_zero_or_pos n with rfl | hn
  · simp [psum]
  · obtain ⟨m, hm⟩ := pmax_real X hX n hn
    unfold psum
    rw [hm, hm', sum_exp_sub_coe X hX (Finset.range n) m', sum_exp_sub_coe X hX (Finset.range n) m,
      ← EReal.coe_sub, Ideal.exp_coe, ← EReal.coe_mul, Finset.mul_sum]
    congr 1
    refine Finset.sum_congr rfl (fun c _ => ?_)
    rw [← Real.exp_add]
    congr 1
    ring

/-- A sum masked to one position is the value there. -/
theorem masked_sum (X : ℕ → EReal) (N l : ℕ) (hl : l < N) :
    (∑ c ∈ Finset.range N, if c = l then X c else 0) = X l := by
  rw [Finset.sum_ite_eq', if_pos (Finset.mem_range.mpr hl)]

/-- `k` more values of the masked sum. -/
theorem masked_add (X : ℕ → EReal) (l n k : ℕ) :
    (∑ c ∈ Finset.range (n + k), if c = l then X c else 0)
      = (∑ c ∈ Finset.range n, if c = l then X c else 0) + ∑ j : Fin k, if n + j.val = l then X (n + j.val) else 0 := by
  rw [Finset.sum_range_add, sum_fin (fun j => if n + j = l then X (n + j) else 0) k]

/-- For a nonempty row of finite values, the maximum is a real `m`, the sum a positive real `S`, and its logarithm
    the real `log S`. -/
private theorem log_psum_real (X : ℕ → EReal) (hX : ∀ c, X c ≠ ⊥ ∧ X c ≠ ⊤) (N : ℕ) (hN : 0 < N) :
    ∃ m L : ℝ, pmax X N = (m : EReal) ∧ Ideal.log (psum X N) = (L : EReal) := by
  obtain ⟨m, hm⟩ := pmax_real X hX N hN
  obtain ⟨S, hS, hSe⟩ := psum_real X hX N hN
  exact ⟨m, Real.log S, hm, by rw [hSe, Ideal.log_coe, if_neg (not_le.mpr hS)]⟩

/-- The accumulated form `log (psum) + pmax - X l` is the negated two-pass log-softmax at `l`: the shift
    `max ⊥ (pmax X N)`, the sum started from `0`. -/
theorem nll_forms (X : ℕ → EReal) (hX : ∀ c, X c ≠ ⊥ ∧ X c ≠ ⊤) (N : ℕ) (hN : 0 < N) (l : ℕ) (hl : l < N) :
    Ideal.log (psum X N) + pmax X N - X l
      = -((X l - max ⊥ (pmax X N))
          - Ideal.log (0 + ∑ c ∈ Finset.range N, Ideal.exp (X c - max ⊥ (pmax X N)))) := by
  obtain ⟨m, L, hm, hL⟩ := log_psum_real X hX N hN
  rw [max_bot_left, zero_add]
  change _ = -((X l - pmax X N) - Ideal.log (psum X N))
  rw [hL, hm, coe_toReal_of X hX l, ← EReal.coe_add, ← EReal.coe_sub, ← EReal.coe_sub, ← EReal.coe_sub,
    ← EReal.coe_neg]
  congr 1
  ring

/-- The accumulated negative log-likelihood of finite logits is finite. -/
theorem nll_finite (X : ℕ → EReal) (hX : ∀ c, X c ≠ ⊥ ∧ X c ≠ ⊤) (N : ℕ) (hN : 0 < N) (l : ℕ) (hl : l < N) :
    Ideal.log (psum X N) + pmax X N - X l ≠ ⊥ ∧ Ideal.log (psum X N) + pmax X N - X l ≠ ⊤ := by
  obtain ⟨m, L, hm, hL⟩ := log_psum_real X hX N hN
  rw [hL, hm, coe_toReal_of X hX l, ← EReal.coe_add, ← EReal.coe_sub]
  exact ⟨EReal.coe_ne_bot _, EReal.coe_ne_top _⟩

end Cert.LseMath

end
-- ==== Proof.Spec.lean ====
/-
  The mathematical content of the certificate, stated once over plain extended reals.

  A row of 1024 gathered embedding entries goes through a linear layer and a leaky rectifier (slope the f32
  number nearest 0.01) to 512 hidden values (`hidRow`); a second linear layer gives 64000 logits (`logit`), read as two
  branches of 32000 classes each (`branch`); per branch the negative log-likelihood of a label is written in the two forms
  the two programs compute — accumulated, `log (psum) + pmax - x label` (`nllKer`), and two-pass, the negated
  log-softmax at the label (`nllRef`) —; the result is the weighted mean over the 2 × 1303 rows and the two branches,
  weights `1` and `1/4` (`mean`).
-/
import Idealize.ShloMosaic.PureOps.Ideal
import Idealize.ShloMosaic.PureOps.Ideal.Laws
import proofs.«421797_j22849226015448_2_alg».proof.Proof.LseMath

noncomputable section

namespace Cert.Spec

open Idealize.ShloMosaic Cert.LseMath

/-- The leaky rectifier on one extended real: `z` where `z ≥ 0`, else `z` scaled by the f32 number nearest `0.01`
    (the comparison, the selection and the literal exactly as both programs print them). -/
def leaky (z : EReal) : EReal :=
  Scalar.select (FloatOps.cmpf (F := Ideal) (φ := .f32) .oge z (Ideal.ofBits .f32 0x00000000#32)) z
    (Ideal.ofBits .f32 0x3C23D70A#32 * z)

/-- It is one of its two arms. -/
theorem leaky_eq (z : EReal) : leaky z = z ∨ leaky z = Ideal.ofBits .f32 0x3C23D70A#32 * z := by
  unfold leaky Scalar.select
  split
  · exact Or.inl rfl
  · exact Or.inr rfl

/-- One hidden value of a row: the row against column `d` of the first weight matrix, plus the bias, rectified. -/
def hidRow (row : Fin 1024 → EReal) (w1 : Fin 1024 → Fin 512 → EReal) (b1 : Fin 512 → EReal) (d : Fin 512) : EReal :=
  leaky ((∑ k : Fin 1024, row k * w1 k d) + b1 d)

/-- One logit of a row: the hidden values against column `c` of the second weight matrix, plus the bias. -/
def logit (h : Fin 512 → EReal) (w2 : Fin 512 → Fin 64000 → EReal) (b2 : Fin 64000 → EReal) (c : Fin 64000) : EReal :=
  (∑ k : Fin 512, h k * w2 k c) + b2 c

/-- Branch `br` of a row's 64000 logits as a sequence: class `c < 32000` is logit `32000·br + c` (zero beyond, never read). -/
def branch (x : Fin 64000 → EReal) (br : Fin 2) : ℕ → EReal :=
  fun c => if h : c < 32000 then x ⟨32000 * br.val + c, by have := br.isLt; omega⟩ else 0

/-- The negative log-likelihood as accumulated tile by tile. -/
def nllKer (X : ℕ → EReal) (l : ℕ) : EReal := Ideal.log (psum X 32000) + pmax X 32000 - X l

/-- The negative log-likelihood as the negated two-pass log-softmax at the label. -/
def nllRef (X : ℕ → EReal) (l : ℕ) : EReal :=
  -((X l - max ⊥ (pmax X 32000))
    - Ideal.log (0 + ∑ c ∈ Finset.range 32000, Ideal.exp (X c - max ⊥ (pmax X 32000))))

/-- The branch weights: `1` for the first branch, `1/4` for the second, as the f32 words both programs carry. -/
def wt (br : Fin 2) : EReal :=
  if br.val = 0 then Ideal.ofBits .f32 0x3F800000#32 else Ideal.ofBits .f32 0x3E800000#32

/-- The weighted mean over rows and branches: the sum from `0`, divided by the f32 word of `5212`. -/
def mean (f : Fin 2 → Fin 1303 → Fin 2 → EReal) : EReal :=
  Ideal.div (0 + ∑ b : Fin 2, ∑ n : Fin 1303, ∑ br : Fin 2, f b n br * wt br) (Ideal.ofBits .f32 0x45A2E000#32)

/-- The two forms agree on finite logits at a label in range. -/
theorem nllKer_eq_nllRef (X : ℕ → EReal) (hX : ∀ c, X c ≠ ⊥ ∧ X c ≠ ⊤) (l : ℕ) (hl : l < 32000) :
    nllKer X l = nllRef X l :=
  nll_forms X hX 32000 (by decide) l hl

end Cert.Spec

end
-- ==== Proof.KPay.lean ====
/-
  The kernel body's payloads, read at an index, over extended reals.

  Each payload of the fused kernel's body is a vector computed from the vectors read before it. Here every payload is
  read at one index given by coordinates. The logits tile at row r and lane q is the contraction of row r of the hidden
  block with column q of the weight tile over the 512 hidden values, plus the bias, whose two rows of 640 laid end to
  end give the 1280 lanes. The running maximum is the larger of the old one and the largest of the branch's 640 lanes;
  the rescale factor is the exponential of the old maximum minus the new one; the partial sum is the sum over the 640
  lanes of the exponential of the logit minus the new maximum; the masked sum keeps the logit of the lane whose class
  index, 640 times the second grid coordinate plus the lane, equals the label word. The hidden block is the leaky
  rectifier of a contraction over 1024 embedding entries plus a bias. The remaining payloads are one-line arithmetic.
-/
import proofs.«421797_j22849226015448_2_alg».proof.Proof.Gen.KernelIdeal.Skeleton
import proofs.«421797_j22849226015448_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Cert.KernelIdeal Cert.KernelIdeal.Gen Idealize.ShloMosaic Idealize.ShloMosaic.ValueIdx

variable [Facts]

/-! ## Layout operations on a column, read at coordinates -/

section Column
variable {α : Type}

/-- A vector of `a` entries cast to a column `[a, 1]` reads, at row `i`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rfl

end Column

/-! ## The two reductions along the lanes, read at a row -/

/-- The word of minus infinity denotes the least extended real. -/
theorem ofBits_neg_inf : Ideal.ofBits .f32 0xFF800000#32 = ⊥ := by simp [Ideal.ofBits, Ideal.ieee]

/-- The sum along the 640 lanes, read at row `r`, is the sum of the row's 640 entries. -/
theorem lane_sum (src : FVec Ideal S1344x640 .f32) (r : Fin 1344) :
    multiReduction .add [1] S1344 src 0x00000000#32 reduces_S1344x640_S1344 (.inl rfl) rfl (ix1 r)
      = ∑ j : Fin 640, src (ix2 r j) := by
  refine (Ideal.multiReduction_add_single src 0x00000000#32 reduces_S1344x640_S1344 (.inl rfl) rfl (ix1 r)).trans ?_
  refine Finset.sum_congr rfl fun k _ => congrArg src ?_
  funext a
  match a with
  | ⟨0, _⟩ => rfl
  | ⟨1, _⟩ => rfl

/-- The maximum along the 640 lanes, read at row `r`, is the fold of `max` from the least extended real over the
    row's 640 entries. -/
theorem lane_max (src : FVec Ideal S1344x640 .f32) (r : Fin 1344) :
    multiReduction .maximumf [1] S1344 src 0xFF800000#32 reduces_S1344x640_S1344 (.inl rfl) rfl (ix1 r)
      = (Finset.univ : Finset (Fin 640)).fold max ⊥ (fun j => src (ix2 r j)) := by
  refine (Ideal.multiReduction_maximumf_single src 0xFF800000#32 reduces_S1344x640_S1344 (.inl rfl) rfl (ix1 r)).trans ?_
  show (Finset.univ : Finset (Fin 640)).fold max (Ideal.ofBits .f32 0xFF800000#32)
      (fun k => src (reduces_S1344x640_S1344.lift (ix1 r) k)) = _
  rw [ofBits_neg_inf]
  refine congrArg (fun f => (Finset.univ : Finset (Fin 640)).fold max ⊥ f) (funext fun k => congrArg src ?_)
  funext a
  match a with
  | ⟨0, _⟩ => rfl
  | ⟨1, _⟩ => rfl

/-! ## Pointwise operations the index passes through -/

/-- An integer comparison at an index compares the two words there. -/
theorem cmpi_apply {s : Shape} {w : ℕ} (p : CmpIPredicate) (x y : IVec s w) (i : s.Idx) :
    cmpi p x y i = IntOp.cmpi p (x i) (y i) := rfl

/-- An exponential at an index is the exponential of the entry there. -/
theorem exp_apply {s : Shape} {φ : FTy} (x : FVec Ideal s φ) (i : s.Idx) : exp x i = Ideal.exp (x i) := rfl

/-- A logarithm at an index is the logarithm of the entry there. -/
theorem log_apply {s : Shape} {φ : FTy} (x : FVec Ideal s φ) (i : s.Idx) : log x i = Ideal.log (x i) := rfl

/-- A selection on the bit "the two words are equal" is the `if` on their equality. -/
theorem select_cmpi_eq {α : Type} {w : ℕ} (a b : BitVec w) (x y : α) :
    Scalar.select (IntOp.cmpi .eq a b) x y = if a = b then x else y := by
  by_cases h : a = b
  · rw [if_pos h]
    subst h
    simp [Scalar.select, IntOp.cmpi]
  · rw [if_neg h]
    have hb : (a == b) = false := beq_eq_false_iff_ne.mpr h
    simp [Scalar.select, IntOp.cmpi, hb]

/-! ## The two matrix products, read at an index -/

/-- Left operand of the logits product: its row coordinate is the result's row. -/
theorem lhs_logits_0 (i : S1344x1280.Idx) (q : dot_S1344x512_S512x1280_S1344x1280_1_0_0_1_n_n.contr.Idx) :
    (dot_S1344x512_S512x1280_S1344x1280_1_0_0_1_n_n.lhsIdx i q 0).val = (i 0).val := by
  unfold DotDims.lhsIdx
  rw [dif_neg (show ¬(0 : Fin S1344x512.rank) ∈ dot_S1344x512_S512x1280_S1344x1280_1_0_0_1_n_n.lhsBatch by decide),
    dif_pos (show (0 : Fin S1344x512.rank) ∈ dot_S1344x512_S512x1280_S1344x1280_1_0_0_1_n_n.lhsNonContracting by decide)]
  rfl

/-- Left operand of the logits product: its column coordinate is the contraction coordinate. -/
theorem lhs_logits_1 (i : S1344x1280.Idx) (q : dot_S1344x512_S512x1280_S1344x1280_1_0_0_1_n_n.contr.Idx) :
    (dot_S1344x512_S512x1280_S1344x1280_1_0_0_1_n_n.lhsIdx i q 1).val = (q ⟨0, by decide⟩).val :=
  dot_S1344x512_S512x1280_S1344x1280_1_0_0_1_n_n.lhsIdx_val_of_single rfl i q

/-- Right operand of the logits product: its row coordinate is the contraction coordinate. -/
theorem rhs_logits_0 (i : S1344x1280.Idx) (q : dot_S1344x512_S512x1280_S1344x1280_1_0_0_1_n_n.contr.Idx) :
    (dot_S1344x512_S512x1280_S1344x1280_1_0_0_1_n_n.rhsIdx i q 0).val = (q ⟨0, by decide⟩).val :=
  dot_S1344x512_S512x1280_S1344x1280_1_0_0_1_n_n.rhsIdx_val_of_single rfl i q

/-- Right operand of the logits product: its column coordinate is the result's lane. -/
theorem rhs_logits_1 (i : S1344x1280.Idx) (q : dot_S1344x512_S512x1280_S1344x1280_1_0_0_1_n_n.contr.Idx) :
    (dot_S1344x512_S512x1280_S1344x1280_1_0_0_1_n_n.rhsIdx i q 1).val = (i 1).val := by
  unfold DotDims.rhsIdx
  rw [dif_neg (show ¬(1 : Fin S512x1280.rank) ∈ dot_S1344x512_S512x1280_S1344x1280_1_0_0_1_n_n.rhsBatch by decide),
    dif_pos (show (1 : Fin S512x1280.rank) ∈ dot_S1344x512_S512x1280_S1344x1280_1_0_0_1_n_n.rhsNonContracting by decide)]
  rfl

/-- The logits product into a zero accumulator, read at row `r` and lane `q`: the sum over the 512 hidden values of the
    hidden block's row `r` times the weight tile's column `q`. -/
theorem matmul_logits_apply (A : FVec Ideal S1344x512 .bf16) (B : FVec Ideal S512x1280 .bf16) (r : Fin 1344) (q : Fin 1280) :
    matmul dot_S1344x512_S512x1280_S1344x1280_1_0_0_1_n_n none A B (constant (F := Ideal) S1344x1280 .f32 0x00000000#32)
        (ix2 r q)
      = ∑ k : Fin 512, A (ix2 r k) * B (ix2 k q) := by
  refine (Ideal.matmul_constant_zero_apply dot_S1344x512_S512x1280_S1344x1280_1_0_0_1_n_n none A B (ix2 r q)).trans ?_
  rw [← Equiv.sum_comp (contrEquiv1 dot_S1344x512_S512x1280_S1344x1280_1_0_0_1_n_n 512 rfl rfl).symm]
  refine Finset.sum_congr rfl fun k _ => ?_
  have hk := contrEquiv1_symm_val dot_S1344x512_S512x1280_S1344x1280_1_0_0_1_n_n 512 rfl rfl k
  have el : dot_S1344x512_S512x1280_S1344x1280_1_0_0_1_n_n.lhsIdx (ix2 r q)
      ((contrEquiv1 dot_S1344x512_S512x1280_S1344x1280_1_0_0_1_n_n 512 rfl rfl).symm k) = ix2 r k :=
    funext fun a => Fin.ext (by
      match a with
      | ⟨0, _⟩ => exact lhs_logits_0 _ _
      | ⟨1, _⟩ => exact (lhs_logits_1 _ _).trans hk)
  have er : dot_S1344x512_S512x1280_S1344x1280_1_0_0_1_n_n.rhsIdx (ix2 r q)
      ((contrEquiv1 dot_S1344x512_S512x1280_S1344x1280_1_0_0_1_n_n 512 rfl rfl).symm k) = ix2 k q :=
    funext fun a => Fin.ext (by
      match a with
      | ⟨0, _⟩ => exact (rhs_logits_0 _ _).trans hk
      | ⟨1, _⟩ => exact rhs_logits_1 _ _)
  rw [el, er]

/-- Left operand of the hidden product: its row coordinate is the result's row. -/
theorem lhs_hidden_0 (i : S1344x512.Idx) (q : dot_S1344x1024_S1024x512_S1344x512_1_0_0_1_n_n.contr.Idx) :
    (dot_S1344x1024_S1024x512_S1344x512_1_0_0_1_n_n.lhsIdx i q 0).val = (i 0).val := by
  unfold DotDims.lhsIdx
  rw [dif_neg (show ¬(0 : Fin S1344x1024.rank) ∈ dot_S1344x1024_S1024x512_S1344x512_1_0_0_1_n_n.lhsBatch by decide),
    dif_pos (show (0 : Fin S1344x1024.rank) ∈ dot_S1344x1024_S1024x512_S1344x512_1_0_0_1_n_n.lhsNonContracting by decide)]
  rfl

/-- Left operand of the hidden product: its column coordinate is the contraction coordinate. -/
theorem lhs_hidden_1 (i : S1344x512.Idx) (q : dot_S1344x1024_S1024x512_S1344x512_1_0_0_1_n_n.contr.Idx) :
    (dot_S1344x1024_S1024x512_S1344x512_1_0_0_1_n_n.lhsIdx i q 1).val = (q ⟨0, by decide⟩).val :=
  dot_S1344x1024_S1024x512_S1344x512_1_0_0_1_n_n.lhsIdx_val_of_single rfl i q

/-- Right operand of the hidden product: its row coordinate is the contraction coordinate. -/
theorem rhs_hidden_0 (i : S1344x512.Idx) (q : dot_S1344x1024_S1024x512_S1344x512_1_0_0_1_n_n.contr.Idx) :
    (dot_S1344x1024_S1024x512_S1344x512_1_0_0_1_n_n.rhsIdx i q 0).val = (q ⟨0, by decide⟩).val :=
  dot_S1344x1024_S1024x512_S1344x512_1_0_0_1_n_n.rhsIdx_val_of_single rfl i q

/-- Right operand of the hidden product: its column coordinate is the result's column. -/
theorem rhs_hidden_1 (i : S1344x512.Idx) (q : dot_S1344x1024_S1024x512_S1344x512_1_0_0_1_n_n.contr.Idx) :
    (dot_S1344x1024_S1024x512_S1344x512_1_0_0_1_n_n.rhsIdx i q 1).val = (i 1).val := by
  unfold DotDims.rhsIdx
  rw [dif_neg (show ¬(1 : Fin S1024x512.rank) ∈ dot_S1344x1024_S1024x512_S1344x512_1_0_0_1_n_n.rhsBatch by decide),
    dif_pos (show (1 : Fin S1024x512.rank) ∈ dot_S1344x1024_S1024x512_S1344x512_1_0_0_1_n_n.rhsNonContracting by decide)]
  rfl

/-- The hidden product into a zero accumulator, read at row `r` and column `d`: the sum over the 1024 embedding entries
    of the embedding block's row `r` times the first weight matrix's column `d`. -/
theorem matmul_hidden_apply (A : FVec Ideal S1344x1024 .bf16) (B : FVec Ideal S1024x512 .bf16) (r : Fin 1344) (d : Fin 512) :
    matmul dot_S1344x1024_S1024x512_S1344x512_1_0_0_1_n_n none A B (constant (F := Ideal) S1344x512 .f32 0x00000000#32)
        (ix2 r d)
      = ∑ k : Fin 1024, A (ix2 r k) * B (ix2 k d) := by
  refine (Ideal.matmul_constant_zero_apply dot_S1344x1024_S1024x512_S1344x512_1_0_0_1_n_n none A B (ix2 r d)).trans ?_
  rw [← Equiv.sum_comp (contrEquiv1 dot_S1344x1024_S1024x512_S1344x512_1_0_0_1_n_n 1024 rfl rfl).symm]
  refine Finset.sum_congr rfl fun k _ => ?_
  have hk := contrEquiv1_symm_val dot_S1344x1024_S1024x512_S1344x512_1_0_0_1_n_n 1024 rfl rfl k
  have el : dot_S1344x1024_S1024x512_S1344x512_1_0_0_1_n_n.lhsIdx (ix2 r d)
      ((contrEquiv1 dot_S1344x1024_S1024x512_S1344x512_1_0_0_1_n_n 1024 rfl rfl).symm k) = ix2 r k :=
    funext fun a => Fin.ext (by
      match a with
      | ⟨0, _⟩ => exact lhs_hidden_0 _ _
      | ⟨1, _⟩ => exact (lhs_hidden_1 _ _).trans hk)
  have er : dot_S1344x1024_S1024x512_S1344x512_1_0_0_1_n_n.rhsIdx (ix2 r d)
      ((contrEquiv1 dot_S1344x1024_S1024x512_S1344x512_1_0_0_1_n_n 1024 rfl rfl).symm k) = ix2 k d :=
    funext fun a => Fin.ext (by
      match a with
      | ⟨0, _⟩ => exact (rhs_hidden_0 _ _).trans hk
      | ⟨1, _⟩ => exact rhs_hidden_1 _ _)
  rw [el, er]

/-! ## The payloads -/

/-- The bias laid out on the 1280 lanes: two rows of 640 end to end, then one row broadcast over the 1344 rows. -/
theorem bias_apply (v7 : FVec Ideal S2x640 .f32) (r : Fin 1344) (q : Fin 1280) :
    broadcastTo S1344x1280
        (shapeCast S1x1280 (shapeCast S1280 (shapeCast S2x640 v7 shapeCasts_S2x640_S2x640) shapeCasts_S2x640_S1280)
          shapeCasts_S1280_S1x1280)
        broadcasts_S1x1280_S1344x1280 (ix2 r q)
      = v7 (ix2 ⟨q.val / 640, by omega⟩ ⟨q.val % 640, Nat.mod_lt _ (by decide)⟩) := by
  refine (broadcastTo_1b_ab_apply _ _ r q).trans ?_
  refine (shapeCast_a_1a_apply _ _ 0 q).trans ?_
  refine (shapeCast_apply _ _ (ix1 q) (ix2 ⟨q.val / 640, by omega⟩ ⟨q.val % 640, Nat.mod_lt _ (by decide)⟩) ?_).trans ?_
  · rw [Shape.rowMajor_val_two, Shape.rowMajor_val_one]
    show q.val / 640 * 640 + q.val % 640 = q.val
    omega
  · rw [shapeCast_self]

theorem pay9_apply (v3 : Vec Ideal S1344x512 .bf16) (v4 : Vec Ideal S512x1280 .bf16) (v7 : Vec Ideal S2x640 .f32)
    (r : Fin 1344) (q : Fin 1280) :
    k0_pay9 v3 v4 v7 (ix2 r q)
      = (∑ k : Fin 512, v3 (ix2 r k) * v4 (ix2 k q))
        + v7 (ix2 ⟨q.val / 640, by omega⟩ ⟨q.val % 640, Nat.mod_lt _ (by decide)⟩) := by
  unfold k0_pay9
  refine (addf_apply _ _ (ix2 r q)).trans ?_
  rw [shapeCast_self v4, matmul_logits_apply, bias_apply]

/-- The first branch's 640 lanes are lanes 0 to 639 of the logits tile. -/
theorem pay11_apply (v3 : Vec Ideal S1344x512 .bf16) (v4 : Vec Ideal S512x1280 .bf16) (v7 : Vec Ideal S2x640 .f32)
    (r : Fin 1344) (j : Fin 640) :
    k0_pay11 v3 v4 v7 (ix2 r j) = k0_pay9 v3 v4 v7 (ix2 r ⟨j.val, by omega⟩) := by
  unfold k0_pay11
  exact slice2_axis1_apply 0 _ _ r j ⟨j.val, by omega⟩ (Nat.zero_add _).symm

/-- The second branch's 640 lanes are lanes 640 to 1279 of the logits tile. -/
theorem pay19_apply (X : FVec Ideal S1344x1280 .f32) (r : Fin 1344) (j : Fin 640) :
    k0_pay19 X (ix2 r j) = X (ix2 r ⟨640 + j.val, by omega⟩) := by
  unfold k0_pay19
  exact slice2_axis1_apply 640 _ _ r j ⟨640 + j.val, by omega⟩ rfl

theorem pay13_apply (v3 : Vec Ideal S1344x512 .bf16) (v4 : Vec Ideal S512x1280 .bf16) (v7 : Vec Ideal S2x640 .f32)
    (v31 : Vec Ideal S1344x1 .f32) (r : Fin 1344) :
    k0_pay13 v3 v4 v7 v31 (ix2 r 0)
      = max (v31 (ix2 r 0))
          ((Finset.univ : Finset (Fin 640)).fold max ⊥ (fun j => k0_pay9 v3 v4 v7 (ix2 r ⟨j.val, by omega⟩))) := by
  unfold k0_pay13
  refine (maximumf_apply _ _ (ix2 r 0)).trans ?_
  rw [shapeCast_a_a1_apply, lane_max]
  simp only [pay11_apply]

theorem pay21_apply (X : FVec Ideal S1344x1280 .f32) (v67 : Vec Ideal S1344x1 .f32) (r : Fin 1344) :
    k0_pay21 X v67 (ix2 r 0)
      = max (v67 (ix2 r 0))
          ((Finset.univ : Finset (Fin 640)).fold max ⊥ (fun j => X (ix2 r ⟨640 + j.val, by omega⟩))) := by
  unfold k0_pay21
  refine (maximumf_apply _ _ (ix2 r 0)).trans ?_
  rw [shapeCast_a_a1_apply, lane_max]
  simp only [pay19_apply]

theorem pay14_apply (v3 : Vec Ideal S1344x512 .bf16) (v4 : Vec Ideal S512x1280 .bf16) (v7 : Vec Ideal S2x640 .f32)
    (v31 : Vec Ideal S1344x1 .f32) (r : Fin 1344) :
    k0_pay14 v3 v4 v7 v31 (ix2 r 0) = Ideal.exp (v31 (ix2 r 0) - k0_pay13 v3 v4 v7 v31 (ix2 r 0)) := by
  unfold k0_pay14
  rfl

theorem pay22_apply (X : FVec Ideal S1344x1280 .f32) (v67 : Vec Ideal S1344x1 .f32) (r : Fin 1344) :
    k0_pay22 X v67 (ix2 r 0) = Ideal.exp (v67 (ix2 r 0) - k0_pay21 X v67 (ix2 r 0)) := by
  unfold k0_pay22
  rfl

theorem pay15_apply (v3 : Vec Ideal S1344x512 .bf16) (v4 : Vec Ideal S512x1280 .bf16) (v7 : Vec Ideal S2x640 .f32)
    (v31 : Vec Ideal S1344x1 .f32) (r : Fin 1344) :
    k0_pay15 v3 v4 v7 v31 (ix1 r)
      = ∑ j : Fin 640, Ideal.exp (k0_pay9 v3 v4 v7 (ix2 r ⟨j.val, by omega⟩) - k0_pay13 v3 v4 v7 v31 (ix2 r 0)) := by
  unfold k0_pay15
  refine (lane_sum _ r).trans ?_
  refine Finset.sum_congr rfl fun j _ => ?_
  rw [exp_apply, subf_apply, pay11_apply, broadcastTo_a1_ab_apply]

theorem pay23_apply (X : FVec Ideal S1344x1280 .f32) (v67 : Vec Ideal S1344x1 .f32) (r : Fin 1344) :
    k0_pay23 X v67 (ix2 r 0)
      = ∑ j : Fin 640, Ideal.exp (X (ix2 r ⟨640 + j.val, by omega⟩) - k0_pay21 X v67 (ix2 r 0)) := by
  unfold k0_pay23
  refine (shapeCast_a_a1_apply _ _ r 0).trans ?_
  refine (lane_sum _ r).trans ?_
  refine Finset.sum_congr rfl fun j _ => ?_
  rw [exp_apply, subf_apply, pay19_apply, broadcastTo_a1_ab_apply]

theorem pay16_apply (v34 : FVec Ideal S1344x1 .f32) (v38 : FVec Ideal S1344 .f32) (v40 : Vec Ideal S1344x1 .f32)
    (r : Fin 1344) :
    k0_pay16 v34 v38 v40 (ix2 r 0) = v34 (ix2 r 0) * v40 (ix2 r 0) + v38 (ix1 r) := by
  unfold k0_pay16
  rw [shapeCast_self]
  refine (addf_apply _ _ (ix2 r 0)).trans ?_
  rw [shapeCast_a_a1_apply]
  rfl

theorem pay1_apply (v70 v75 : FVec Ideal S1344x1 .f32) (v76 : Vec Ideal S1344x1 .f32) (r : Fin 1344) :
    k0_pay1 v70 v75 v76 (ix2 r 0) = v70 (ix2 r 0) * v76 (ix2 r 0) + v75 (ix2 r 0) := by
  unfold k0_pay1
  rw [shapeCast_self]
  rfl

theorem pay17_eq (v32 : FVec Ideal S1344x1 .f32) : k0_pay17 v32 = v32 := by
  unfold k0_pay17
  exact shapeCast_self _ _

theorem pay2_eq (v68 : FVec Ideal S1344x1 .f32) : k0_pay2 v68 = v68 := by
  unfold k0_pay2
  exact shapeCast_self _ _

theorem pay18_apply (v28 : FVec Ideal S1344x1 .f32) (v49 : Vec Ideal S1344x1 .f32) (r : Fin 1344) :
    k0_pay18 v28 v49 (ix2 r 0) = v49 (ix2 r 0) + v28 (ix2 r 0) := by
  unfold k0_pay18
  rw [shapeCast_self]
  rfl

theorem pay3_apply (v64 : FVec Ideal S1344x1 .f32) (v85 : Vec Ideal S1344x1 .f32) (r : Fin 1344) :
    k0_pay3 v64 v85 (ix2 r 0) = v85 (ix2 r 0) + v64 (ix2 r 0) := by
  unfold k0_pay3
  rw [shapeCast_self]
  rfl

theorem pay10_apply (i : grid0.Coords) (j : Fin 640) :
    k0_pay10 i (ix1 j) = BitVec.ofNat 32 (i 1).val * 640#32 + BitVec.ofNat 32 j.val := by
  unfold k0_pay10
  show IntOp.addi (Scalar.muli (BitVec.ofNat 32 (i 1).val) 640#32)
      (shapeCast S640 (iota .tc S1x640 32 [1] iota_S1x640_d1_w32) shapeCasts_S1x640_S640 (ix1 j)) = _
  rw [shapeCast_1a_a_apply, iota_single_apply]
  rfl

theorem pay12_apply (i : grid0.Coords) (v3 : Vec Ideal S1344x512 .bf16) (v4 : Vec Ideal S512x1280 .bf16)
    (v7 : Vec Ideal S2x640 .f32) (v19 : Vec Ideal S1344x1 .i32) (r : Fin 1344) :
    k0_pay12 i v3 v4 v7 v19 (ix2 r 0)
      = ∑ j : Fin 640, if k0_pay10 i (ix1 j) = v19 (ix2 r 0) then k0_pay9 v3 v4 v7 (ix2 r ⟨j.val, by omega⟩) else 0 := by
  unfold k0_pay12
  refine (shapeCast_a_a1_apply _ _ r 0).trans ?_
  refine (lane_sum _ r).trans ?_
  refine Finset.sum_congr rfl fun j _ => ?_
  rw [select_apply, cmpi_apply, broadcastTo_1b_ab_apply, shapeCast_a_1a_apply, broadcastTo_a1_ab_apply,
    shapeCast_self v19, pay11_apply, broadcast_apply]
  show Scalar.select _ _ (Ideal.ofBits .f32 0x00000000#32) = _
  rw [Ideal.ofBits_zero_f32]
  exact select_cmpi_eq _ _ _ _

theorem pay20_apply (X : FVec Ideal S1344x1280 .f32) (v17 : IVec S640 32) (v55 : Vec Ideal S1344x1 .i32) (r : Fin 1344) :
    k0_pay20 X v17 v55 (ix2 r 0)
      = ∑ j : Fin 640, if v17 (ix1 j) = v55 (ix2 r 0) then X (ix2 r ⟨640 + j.val, by omega⟩) else 0 := by
  unfold k0_pay20
  refine (shapeCast_a_a1_apply _ _ r 0).trans ?_
  refine (lane_sum _ r).trans ?_
  refine Finset.sum_congr rfl fun j _ => ?_
  rw [select_apply, cmpi_apply, broadcastTo_1b_ab_apply, shapeCast_a_1a_apply, broadcastTo_a1_ab_apply,
    shapeCast_self v55, pay19_apply, broadcast_apply]
  show Scalar.select _ _ (Ideal.ofBits .f32 0x00000000#32) = _
  rw [Ideal.ofBits_zero_f32]
  exact select_cmpi_eq _ _ _ _

theorem pay4_apply (v93 v95 v97 : Vec Ideal S1344x2 .f32) (y : S1344x2.Idx) :
    k0_pay4 v93 v95 v97 y = Ideal.log (v93 y) + v95 y - v97 y := by
  unfold k0_pay4
  rfl

theorem pay5_apply (v93 : Vec Ideal S1344x1024 .bf16) (v95 : Vec Ideal S1024x512 .bf16) (v98 : Vec Ideal S512 .f32)
    (r : Fin 1344) (d : Fin 512) :
    k0_pay5 v93 v95 v98 (ix2 r d)
      = Cert.Spec.leaky ((∑ k : Fin 1024, v93 (ix2 r k) * v95 (ix2 k d)) + v98 (ix1 d)) := by
  unfold k0_pay5
  simp only [shapeCast_self]
  have hz : addf
        (matmul (φ₁ := .bf16) (φ₂ := .bf16) dot_S1344x1024_S1024x512_S1344x512_1_0_0_1_n_n none v93 v95
          (constant (F := Ideal) S1344x512 .f32 0x00000000#32))
        (broadcastTo S1344x512 (shapeCast S1x512 v98 shapeCasts_S512_S1x512) broadcasts_S1x512_S1344x512) (ix2 r d)
      = (∑ k : Fin 1024, v93 (ix2 r k) * v95 (ix2 k d)) + v98 (ix1 d) := by
    refine (addf_apply _ _ (ix2 r d)).trans ?_
    rw [matmul_hidden_apply, broadcastTo_1b_ab_apply, shapeCast_a_1a_apply]
  exact congrArg Cert.Spec.leaky hz

theorem pay6_apply (y : S1344x2.Idx) : k0_pay6 (F := Ideal) y = ⊥ := by
  unfold k0_pay6
  rw [shapeCast_self]
  exact ofBits_neg_inf

theorem pay7_apply (y : S1344x2.Idx) : k0_pay7 (F := Ideal) y = 0 := by
  unfold k0_pay7
  rw [shapeCast_self]
  exact Ideal.ofBits_zero_f32

theorem pay8_apply (y : S1344x2.Idx) : k0_pay8 (F := Ideal) y = 0 := by
  unfold k0_pay8
  rw [shapeCast_self]
  exact Ideal.ofBits_zero_f32

end Cert.KernelIdeal.KPay

end
-- ==== Proof.KStepInv.lean ====
/-
  One grid point keeps the closed forms.

  Fix a row and a branch, and let `X` be the branch's sequence of logits. Suppose that before the point at tile `v`
  the row's entries of the three accumulators are the closed forms over the first `640·v` classes — the prefix
  maximum, the prefix sum of exponentials shifted by it, and the sum masked to the label's class — and that the
  point's 640 logits of the branch are `X (640·v), …, X (640·v + 639)`. Then after the point they are the closed
  forms over the first `640·(v + 1)` classes: the maximum by `max`'s associativity, the sum by
  `exp a · exp b = exp (a + b)` on the reals, the masked sum by splitting the range.
-/
import proofs.«421797_j22849226015448_2_alg».proof.Proof.KStep
import proofs.«421797_j22849226015448_2_alg».proof.Proof.KPay
import proofs.«421797_j22849226015448_2_alg».proof.Proof.Spec

noncomputable section

namespace Cert.KernelIdeal.KStepInv

open Cert.KernelIdeal Cert.KernelIdeal.Gen Cert.KernelIdeal.KStep Cert.KernelIdeal.KPay Cert.LseMath
open Idealize.ShloMosaic Idealize.ShloMosaic.ValueIdx

/-- The sum of the first `n` values masked to the classes whose 32-bit word is `lw`. -/
def msum (X : ℕ → EReal) (lw : BitVec 32) (n : ℕ) : EReal :=
  ∑ c ∈ Finset.range n, if BitVec.ofNat 32 c = lw then X c else 0

theorem msum_zero (X : ℕ → EReal) (lw : BitVec 32) : msum X lw 0 = 0 := by
  simp [msum]

/-- `k` more classes of the masked sum. -/
theorem msum_add (X : ℕ → EReal) (lw : BitVec 32) (n k : ℕ) :
    msum X lw (n + k) = msum X lw n + ∑ j : Fin k, if BitVec.ofNat 32 (n + j.val) = lw then X (n + j.val) else 0 := by
  unfold msum
  rw [Finset.sum_range_add]
  congr 1
  exact Finset.sum_range _

/-- The class word of lane `j` at tile `v`: `v · 640 + j` computed on 32-bit words is the word of `640·v + j`. -/
theorem lane_word (v j : ℕ) : BitVec.ofNat 32 v * 640#32 + BitVec.ofNat 32 j = BitVec.ofNat 32 (640 * v + j) := by
  rw [show (640#32 : BitVec 32) = BitVec.ofNat 32 640 from rfl, ← BitVec.ofNat_mul, ← BitVec.ofNat_add, Nat.mul_comm]

variable [Facts]

/-- Column 0 (the first branch) through one point. -/
theorem step_col0 (i : grid0.Coords) (v : ℕ) (hi : (i 1).val = v)
    (hS : Vec Ideal S1344x512 .bf16) (x3 : Vec Ideal S512x1280 .bf16) (x4 : Vec Ideal S2x640 .f32) (x5 : Vec Ideal S1344x2 .i32)
    (mO lO tO : Vec Ideal S1344x2 .f32) (X : ℕ → EReal) (hX : ∀ c, X c ≠ ⊥ ∧ X c ≠ ⊤) (lw : BitVec 32) (r : Fin 1344)
    (htile : ∀ j : Fin 640, k0_pay9 hS x3 x4 (ix2 r ⟨j.val, by omega⟩) = X (640 * v + j.val))
    (hlw : x5 (ix2 r 0) = lw)
    (hm : mO (ix2 r 0) = pmax X (640 * v)) (hl : lO (ix2 r 0) = psum X (640 * v)) (ht : tO (ix2 r 0) = msum X lw (640 * v)) :
    stepM hS x3 x4 mO (ix2 r 0) = pmax X (640 * (v + 1))
    ∧ stepL hS x3 x4 mO lO (ix2 r 0) = psum X (640 * (v + 1))
    ∧ stepT i hS x3 x4 x5 tO (ix2 r 0) = msum X lw (640 * (v + 1)) := by
  have hmul : 640 * (v + 1) = 640 * v + 640 := by ring
  have hfold : (fun j : Fin 640 => k0_pay9 hS x3 x4 (ix2 r ⟨j.val, by omega⟩)) = fun j : Fin 640 => X (640 * v + j.val) :=
    funext htile
  have hM : k0_pay13 hS x3 x4 (col 0 mO) (ix2 r 0) = pmax X (640 * (v + 1)) := by
    rw [pay13_apply, hfold, hmul, pmax_add]
    exact congrArg (fun z => max z _) hm
  refine ⟨?_, ?_, ?_⟩
  · show k0_pay17 (k0_pay13 hS x3 x4 (col 0 mO)) (ix2 r 0) = _
    rw [pay17_eq]; exact hM
  · show k0_pay16 (k0_pay14 hS x3 x4 (col 0 mO)) (k0_pay15 hS x3 x4 (col 0 mO)) (col 0 lO) (ix2 r 0) = _
    rw [pay16_apply, pay14_apply, pay15_apply, hM]
    simp only [htile]
    rw [hmul, psum_add X hX (640 * v) 640 (by decide), ← hmul]
    show Ideal.exp (mO (ix2 r 0) - _) * lO (ix2 r 0) + _ = _
    rw [hm, hl]
  · show k0_pay18 (k0_pay12 i hS x3 x4 (col 0 x5)) (col 0 tO) (ix2 r 0) = _
    rw [pay18_apply, pay12_apply]
    simp only [htile, pay10_apply, hi, lane_word]
    rw [hmul, msum_add]
    show tO (ix2 r 0) + (∑ j : Fin 640, if _ = x5 (ix2 r 0) then _ else 0) = _
    rw [ht, hlw]

/-- Column 1 (the second branch) through one point: the same, over the tile's lanes `640 + j`. -/
theorem step_col1 (i : grid0.Coords) (v : ℕ) (hi : (i 1).val = v)
    (hS : Vec Ideal S1344x512 .bf16) (x3 : Vec Ideal S512x1280 .bf16) (x4 : Vec Ideal S2x640 .f32) (x5 : Vec Ideal S1344x2 .i32)
    (mO lO tO : Vec Ideal S1344x2 .f32) (X : ℕ → EReal) (hX : ∀ c, X c ≠ ⊥ ∧ X c ≠ ⊤) (lw : BitVec 32) (r : Fin 1344)
    (htile : ∀ j : Fin 640, k0_pay9 hS x3 x4 (ix2 r ⟨640 + j.val, by omega⟩) = X (640 * v + j.val))
    (hlw : x5 (ix2 r 1) = lw)
    (hm : mO (ix2 r 1) = pmax X (640 * v)) (hl : lO (ix2 r 1) = psum X (640 * v)) (ht : tO (ix2 r 1) = msum X lw (640 * v)) :
    stepM hS x3 x4 mO (ix2 r 1) = pmax X (640 * (v + 1))
    ∧ stepL hS x3 x4 mO lO (ix2 r 1) = psum X (640 * (v + 1))
    ∧ stepT i hS x3 x4 x5 tO (ix2 r 1) = msum X lw (640 * (v + 1)) := by
  have hmul : 640 * (v + 1) = 640 * v + 640 := by ring
  have hfold : (fun j : Fin 640 => k0_pay9 hS x3 x4 (ix2 r ⟨640 + j.val, by omega⟩)) = fun j : Fin 640 => X (640 * v + j.val) :=
    funext htile
  have hM : k0_pay21 (k0_pay9 hS x3 x4) (col 1 mO) (ix2 r 0) = pmax X (640 * (v + 1)) := by
    rw [pay21_apply, hfold, hmul, pmax_add]
    exact congrArg (fun z => max z _) hm
  refine ⟨?_, ?_, ?_⟩
  · show k0_pay2 (k0_pay21 (k0_pay9 hS x3 x4) (col 1 mO)) (ix2 r 0) = _
    rw [pay2_eq]; exact hM
  · show k0_pay1 (k0_pay22 (k0_pay9 hS x3 x4) (col 1 mO)) (k0_pay23 (k0_pay9 hS x3 x4) (col 1 mO)) (col 1 lO) (ix2 r 0) = _
    rw [pay1_apply, pay22_apply, pay23_apply, hM]
    simp only [htile]
    rw [hmul, psum_add X hX (640 * v) 640 (by decide), ← hmul]
    show Ideal.exp (mO (ix2 r 1) - _) * lO (ix2 r 1) + _ = _
    rw [hm, hl]
  · show k0_pay3 (k0_pay20 (k0_pay9 hS x3 x4) (k0_pay10 i) (col 1 x5)) (col 1 tO) (ix2 r 0) = _
    rw [pay3_apply, pay20_apply]
    simp only [htile, pay10_apply, hi, lane_word]
    rw [hmul, msum_add]
    show tO (ix2 r 1) + (∑ j : Fin 640, if _ = x5 (ix2 r 1) then _ else 0) = _
    rw [ht, hlw]

end Cert.KernelIdeal.KStepInv

end
-- ==== Proof.KHost.lean ====
/-
  The host part of the kernel program, read entry by entry.

  Before its one fused region the program gathers two embedding tables by two index vectors (a negative index
  counted from the end), joins the gathered rows side by side, and flattens the two sequences into one list of
  2606 rows, which it pads with 82 zero rows to 2688; the labels are gathered, joined and padded the same way with
  the pad value minus one. The first weight matrix is passed as it is, the second with its 64000 columns regrouped
  (two branches of fifty tiles of 640 columns become fifty tiles of two branches of 640 columns), the second bias as
  two rows of 32000. Each format change is the identity on extended reals. This module names the gathered
  arrays as functions of the argument arrays and states, for every point of the 2 by 50 grid, each input
  block of the region as those functions read at explicit rows and columns.
-/
import proofs.«421797_j22849226015448_2_alg».proof.Proof.Gen.KernelIdeal.Frame.Runs
import Idealize.ShloMosaic.Lib.ValueIdx
import Idealize.ShloMosaic.Lib.Pipeline.Value
import Idealize.ShloMosaic.Lib.StableHlo.Run
import Idealize.ShloMosaic.Lib.KernelVsHost

noncomputable section

namespace Cert.KernelIdeal.KHost

open Cert.KernelIdeal Cert.KernelIdeal.Gen Idealize.ShloMosaic Idealize.ShloMosaic.ValueIdx
open Idealize.ShloMosaic.TcCoe Idealize.SL.Sem

section Defs
variable {F : FTy → Type} [FloatOps F] [Facts]

/-- The gathered embedding rows: for each of the two sequences and each of the 1303 positions, the row of the first
    table at the first index vector's entry followed by the row of the second table at the second index vector's
    entry, 1024 numbers in all; an index below zero counts from the end of the 512 rows. -/
def fb (a0 a1 : FVec F S2x512x512 .f32) (a3 a4 : IVec S1303 32) : FVec F S2x1303x1024 .f32 :=
  let c : IVec S_ 32 := constantI S_ 32 0#32
  let v0 : IVec S1303 32 := broadcastInDim S1303 ![] Facts₀.bcast_S_S1303 c
  let v1 : IVec S1303 1 := cmpi .slt a3 v0
  let c_0 : IVec S_ 32 := constantI S_ 32 512#32
  let v2 : IVec S1303 32 := broadcastInDim S1303 ![] Facts₀.bcast_S_S1303 c_0
  let v3 : IVec S1303 32 := addi a3 v2
  let v4 : IVec S1303 32 := select v1 v3 a3
  let v5 : IVec S1303x1 32 := broadcastInDim S1303x1 ![0] Facts₀.bcast_S1303_S1303x1_0 v4
  let v6 : FVec F S2x1303x512 .f32 := Host.gather gather_S2x512x512_S1303x1_S2x1303x512_02_1_n_n_1_1_21512 a0 v5
  let c_1 : IVec S_ 32 := constantI S_ 32 0#32
  let v7 : IVec S1303 32 := broadcastInDim S1303 ![] Facts₀.bcast_S_S1303 c_1
  let v8 : IVec S1303 1 := cmpi .slt a4 v7
  let c_2 : IVec S_ 32 := constantI S_ 32 512#32
  let v9 : IVec S1303 32 := broadcastInDim S1303 ![] Facts₀.bcast_S_S1303 c_2
  let v10 : IVec S1303 32 := addi a4 v9
  let v11 : IVec S1303 32 := select v8 v10 a4
  let v12 : IVec S1303x1 32 := broadcastInDim S1303x1 ![0] Facts₀.bcast_S1303_S1303x1_0 v11
  let v13 : FVec F S2x1303x512 .f32 := Host.gather gather_S2x512x512_S1303x1_S2x1303x512_02_1_n_n_1_1_21512 a1 v12
  concatenate S2x1303x1024 2 [⟨S2x1303x512, v6⟩, ⟨S2x1303x512, v13⟩] Facts₀.concatenates_S2x1303x512_S2x1303x512_S2x1303x1024_d2

/-- The gathered labels: for each of the two sequences and each of the 1303 positions, the label table at the first
    index vector's entry and at the second index vector's entry, side by side. -/
def lbl (a2 : IVec S2x512 32) (a3 a4 : IVec S1303 32) : IVec S2x1303x2 32 :=
  let c_3 : IVec S_ 32 := constantI S_ 32 0#32
  let v15 : IVec S1303 32 := broadcastInDim S1303 ![] Facts₀.bcast_S_S1303 c_3
  let v16 : IVec S1303 1 := cmpi .slt a3 v15
  let c_4 : IVec S_ 32 := constantI S_ 32 512#32
  let v17 : IVec S1303 32 := broadcastInDim S1303 ![] Facts₀.bcast_S_S1303 c_4
  let v18 : IVec S1303 32 := addi a3 v17
  let v19 : IVec S1303 32 := select v16 v18 a3
  let v20 : IVec S1303x1 32 := broadcastInDim S1303x1 ![0] Facts₀.bcast_S1303_S1303x1_0 v19
  let v21 : IVec S2x1303 32 := Host.gather gather_S2x512_S1303x1_S2x1303_0_1_n_n_1_1_21 a2 v20
  let c_5 : IVec S_ 32 := constantI S_ 32 0#32
  let v22 : IVec S1303 32 := broadcastInDim S1303 ![] Facts₀.bcast_S_S1303 c_5
  let v23 : IVec S1303 1 := cmpi .slt a4 v22
  let c_6 : IVec S_ 32 := constantI S_ 32 512#32
  let v24 : IVec S1303 32 := broadcastInDim S1303 ![] Facts₀.bcast_S_S1303 c_6
  let v25 : IVec S1303 32 := addi a4 v24
  let v26 : IVec S1303 32 := select v23 v25 a4
  let v27 : IVec S1303x1 32 := broadcastInDim S1303x1 ![0] Facts₀.bcast_S1303_S1303x1_0 v26
  let v28 : IVec S2x1303 32 := Host.gather gather_S2x512_S1303x1_S2x1303_0_1_n_n_1_1_21 a2 v27
  let v29 : IVec S2x1303x1 32 := broadcastInDim S2x1303x1 ![0, 1] Facts₀.bcast_S2x1303_S2x1303x1_0_1 v21
  let v30 : IVec S2x1303x1 32 := broadcastInDim S2x1303x1 ![0, 1] Facts₀.bcast_S2x1303_S2x1303x1_0_1 v28
  concatenate S2x1303x2 2 [⟨S2x1303x1, v29⟩, ⟨S2x1303x1, v30⟩] Facts₀.concatenates_S2x1303x1_S2x1303x1_S2x1303x2_d2

end Defs

section Grid

/-- Which block each input window reads at each point of the grid: point t has coordinates (t / 50, t % 50); the rows and
    the labels move with the first coordinate, the second weight matrix and the second bias with the second, the first
    weight matrix and the first bias stay. -/
theorem idx_facts : ∀ t : Fin cfg0.N,
    win0_0.index t (0 : Fin 2) = t.val / 50 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = t.val % 50
    ∧ win0_4.index t (0 : Fin 2) = 0 ∧ win0_4.index t (1 : Fin 2) = t.val % 50
    ∧ win0_5.index t (0 : Fin 2) = t.val / 50 ∧ win0_5.index t (1 : Fin 2) = 0 :=
  (by decide +kernel : ∀ t : Fin grid0.N,
    win0_0.index t (0 : Fin 2) = t.val / 50 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = t.val % 50
    ∧ win0_4.index t (0 : Fin 2) = 0 ∧ win0_4.index t (1 : Fin 2) = t.val % 50
    ∧ win0_5.index t (0 : Fin 2) = t.val / 50 ∧ win0_5.index t (1 : Fin 2) = 0)

/-- A point of the grid is below 100. -/
theorem t_lt (t : Fin cfg0.N) : t.val < 100 := t.isLt.trans_eq N_0

end Grid

section Layout
variable [Facts]

/-- Row R of the padded rows: row (R / 1303, R % 1303) of the gathered rows while R < 2606 (the flattening is row-major
    and the format change is the identity), zero after. -/
theorem padRows_apply (x : FVec Ideal S2x1303x1024 .f32) (R : Nat) (hR : R < 2688) (k : Fin 1024) :
    pad S2688x1024 ![0, 0] ![82, 0] ![0, 0]
        (truncf .bf16 (shapeCast S2606x1024 x Facts₀.shapeCasts_S2x1303x1024_S2606x1024) Facts₀.bitsLt_bf16_f32 : FVec Ideal S2606x1024 .bf16)
        (sitofp (F := Ideal) .bf16 (constantI S_ 32 0#32) : FVec Ideal S_ .bf16)
        Facts₀.pads_S2606x1024_S2688x1024_0820_000 Facts₀.h_S_ (ix2 (⟨R, hR⟩ : Fin 2688) k)
      = if h : R < 2606 then x (ix3 (⟨R / 1303, by omega⟩ : Fin 2) (⟨R % 1303, Nat.mod_lt _ (by decide)⟩ : Fin 1303) k) else (0 : EReal) := by
  by_cases h : R < 2606
  · rw [dif_pos h]
    refine (pad_apply_of_inside _ _ _ _ _ _ _ (ix2 (⟨R, hR⟩ : Fin 2688) k) (ix2 (⟨R, h⟩ : Fin 2606) k) (fun a => ?_)).trans ?_
    · match a with
      | ⟨0, _⟩ => show R = 0 + R * (0 + 1); omega
      | ⟨1, _⟩ => show k.val = 0 + k.val * (0 + 1); omega
    · rw [truncf_apply]
      refine shapeCast_apply _ _ _ _ ?_
      rw [Shape.rowMajor_val_three, Shape.rowMajor_val_two]
      show (R / 1303 * 1303 + R % 1303) * 1024 + k.val = R * 1024 + k.val
      omega
  · rw [dif_neg h]
    refine (pad_apply_of_not_inside _ _ _ _ _ _ _ (ix2 (⟨R, hR⟩ : Fin 2688) k) (0 : Fin 2) ?_).trans ?_
    · show ¬(0 ≤ R ∧ (R - 0) % (0 + 1) = 0 ∧ (R - 0) / (0 + 1) < 2606)
      omega
    · show (((0#32 : BitVec 32).toInt : ℝ) : EReal) = 0
      simp

/-- Row R of the padded labels: row (R / 1303, R % 1303) of the gathered labels while R < 2606, minus one after. -/
theorem padLabels_apply (x : IVec S2x1303x2 32) (R : Nat) (hR : R < 2688) (b : Fin 2) :
    pad S2688x2 ![0, 0] ![82, 0] ![0, 0]
        (shapeCast S2606x2 x Facts₀.shapeCasts_S2x1303x2_S2606x2 : IVec S2606x2 32)
        (constantI S_ 32 4294967295#32 : IVec S_ 32)
        Facts₀.pads_S2606x2_S2688x2_0820_000 Facts₀.h_S_ (ix2 (⟨R, hR⟩ : Fin 2688) b)
      = if h : R < 2606 then x (ix3 (⟨R / 1303, by omega⟩ : Fin 2) (⟨R % 1303, Nat.mod_lt _ (by decide)⟩ : Fin 1303) b) else (4294967295#32 : BitVec 32) := by
  by_cases h : R < 2606
  · rw [dif_pos h]
    refine (pad_apply_of_inside _ _ _ _ _ _ _ (ix2 (⟨R, hR⟩ : Fin 2688) b) (ix2 (⟨R, h⟩ : Fin 2606) b) (fun a => ?_)).trans ?_
    · match a with
      | ⟨0, _⟩ => show R = 0 + R * (0 + 1); omega
      | ⟨1, _⟩ => show b.val = 0 + b.val * (0 + 1); omega
    · refine shapeCast_apply _ _ _ _ ?_
      rw [Shape.rowMajor_val_three, Shape.rowMajor_val_two]
      show (R / 1303 * 1303 + R % 1303) * 2 + b.val = R * 2 + b.val
      omega
  · rw [dif_neg h]
    refine (pad_apply_of_not_inside _ _ _ _ _ _ _ (ix2 (⟨R, hR⟩ : Fin 2688) b) (0 : Fin 2) ?_).trans rfl
    show ¬(0 ≤ R ∧ (R - 0) % (0 + 1) = 0 ∧ (R - 0) / (0 + 1) < 2606)
    omega

/-- Column 1280 v + 640 b + j of the regrouped second weight matrix is column 32000 b + 640 v + j of the matrix: the
    columns are read as (branch, tile, lane), the first two swapped, and read back as columns. -/
theorem permCols_apply (x : FVec Ideal S512x64000 .f32) (k : Fin 512) (v : Fin 50) (b : Fin 2) (j : Fin 640) :
    (shapeCast S512x64000
        (transpose S512x50x2x640 [0, 2, 1, 3]
          (shapeCast S512x2x50x640 (truncf .bf16 x Facts₀.bitsLt_bf16_f32 : FVec Ideal S512x64000 .bf16)
            Facts₀.shapeCasts_S512x64000_S512x2x50x640)
          Facts₀.transposes_S512x2x50x640_S512x50x2x640_0_2_1_3)
        Facts₀.shapeCasts_S512x50x2x640_S512x64000 : FVec Ideal S512x64000 .bf16)
      (ix2 k (⟨1280 * v.val + 640 * b.val + j.val, by omega⟩ : Fin 64000))
      = x (ix2 k (⟨32000 * b.val + 640 * v.val + j.val, by omega⟩ : Fin 64000)) := by
  refine (shapeCast_apply _ _ _ (ix4 k v b j) ?_).trans ?_
  · rw [Shape.rowMajor_val_four, Shape.rowMajor_val_two]
    show ((k.val * 50 + v.val) * 2 + b.val) * 640 + j.val = k.val * 64000 + (1280 * v.val + 640 * b.val + j.val)
    omega
  refine (transpose_apply _ _ _ (ix4 k v b j) (ix4 k b v j) (fun a => ?_)).trans ?_
  · match a with
    | ⟨0, _⟩ => rfl
    | ⟨1, _⟩ => rfl
    | ⟨2, _⟩ => rfl
    | ⟨3, _⟩ => rfl
  refine (shapeCast_apply _ _ _ (ix2 k (⟨32000 * b.val + 640 * v.val + j.val, by omega⟩ : Fin 64000)) ?_).trans ?_
  · rw [Shape.rowMajor_val_four, Shape.rowMajor_val_two]
    show k.val * 64000 + (32000 * b.val + 640 * v.val + j.val) = ((k.val * 2 + b.val) * 50 + v.val) * 640 + j.val
    omega
  rw [truncf_apply]

/-- Entry (b, q) of the second bias as two rows of 32000 is entry 32000 b + q of the bias. -/
theorem biasRows_apply (x : FVec Ideal S64000 .f32) (b : Fin 2) (q : Fin 32000) :
    (shapeCast S2x32000 x Facts₀.shapeCasts_S64000_S2x32000 : FVec Ideal S2x32000 .f32) (ix2 b q)
      = x (ix1 (⟨32000 * b.val + q.val, by omega⟩ : Fin 64000)) := by
  refine shapeCast_apply _ _ _ _ ?_
  rw [Shape.rowMajor_val_one, Shape.rowMajor_val_two]
  show 32000 * b.val + q.val = b.val * 32000 + q.val
  omega

end Layout

section Arrays
variable [Facts]
variable (m : (ℓ : Loc nD τ sig) → Buf (Elt Ideal) ℓ)

/-- The padded rows as the region finds them: the gathered rows flattened to 2606 rows, their format changed, and 82
    rows of the pad value appended. -/
theorem V35_eq (c : Dev nD) :
    (V m c main_v35 : S2688x1024.Idx → EReal) =
      pad S2688x1024 ![0, 0] ![82, 0] ![0, 0]
        (truncf .bf16 (shapeCast S2606x1024
          (fb (F := Ideal) (m ((c : Thread nD τ).loc main_arg0)) (m ((c : Thread nD τ).loc main_arg1))
            (m ((c : Thread nD τ).loc main_arg3)) (m ((c : Thread nD τ).loc main_arg4)))
          Facts₀.shapeCasts_S2x1303x1024_S2606x1024) Facts₀.bitsLt_bf16_f32 : FVec Ideal S2606x1024 .bf16)
        (sitofp (F := Ideal) .bf16 (constantI S_ 32 0#32) : FVec Ideal S_ .bf16)
        Facts₀.pads_S2606x1024_S2688x1024_0820_000 Facts₀.h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The padded labels as the region finds them: the gathered labels flattened to 2606 rows and 82 rows of minus one
    appended. -/
theorem V36_eq (c : Dev nD) :
    (V m c main_v36 : S2688x2.Idx → BitVec 32) =
      pad S2688x2 ![0, 0] ![82, 0] ![0, 0]
        (shapeCast S2606x2
          (lbl (m ((c : Thread nD τ).loc main_arg2)) (m ((c : Thread nD τ).loc main_arg3)) (m ((c : Thread nD τ).loc main_arg4)))
          Facts₀.shapeCasts_S2x1303x2_S2606x2 : IVec S2606x2 32)
        (constantI S_ 32 4294967295#32 : IVec S_ 32)
        Facts₀.pads_S2606x2_S2688x2_0820_000 Facts₀.h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The first weight matrix as the region finds it: the argument with its format changed. -/
theorem V37_eq (c : Dev nD) :
    (V m c main_v37 : S1024x512.Idx → EReal) =
      (truncf .bf16 (m ((c : Thread nD τ).loc main_arg5) : FVec Ideal S1024x512 .f32) Facts₀.bitsLt_bf16_f32 : FVec Ideal S1024x512 .bf16) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The second weight matrix as the region finds it: the argument with its format changed and its columns regrouped. -/
theorem V41_eq (c : Dev nD) :
    (V m c main_v41 : S512x64000.Idx → EReal) =
      (shapeCast S512x64000
        (transpose S512x50x2x640 [0, 2, 1, 3]
          (shapeCast S512x2x50x640 (truncf .bf16 (m ((c : Thread nD τ).loc main_arg7) : FVec Ideal S512x64000 .f32) Facts₀.bitsLt_bf16_f32 : FVec Ideal S512x64000 .bf16)
            Facts₀.shapeCasts_S512x64000_S512x2x50x640)
          Facts₀.transposes_S512x2x50x640_S512x50x2x640_0_2_1_3)
        Facts₀.shapeCasts_S512x50x2x640_S512x64000 : FVec Ideal S512x64000 .bf16) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- The second bias as the region finds it: the argument as two rows of 32000. -/
theorem V42_eq (c : Dev nD) :
    (V m c main_v42 : S2x32000.Idx → EReal) =
      (shapeCast S2x32000 (m ((c : Thread nD τ).loc main_arg8) : FVec Ideal S64000 .f32) Facts₀.shapeCasts_S64000_S2x32000 : FVec Ideal S2x32000 .f32) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

end Arrays

section Blocks
variable [Facts]
variable (m : (ℓ : Loc nD τ sig) → Buf (Elt Ideal) ℓ)

/-- The block of the padded rows the region reads at point t. -/
abbrev blk0 (c : Dev nD) (t : Fin cfg0.N) : Vec Ideal S1344x1024 .bf16 := iblk m c 0 t
/-- The block of the first weight matrix the region reads at point t: all of it. -/
abbrev blk1 (c : Dev nD) (t : Fin cfg0.N) : Vec Ideal S1024x512 .bf16 := iblk m c 1 t
/-- The block of the first bias the region reads at point t: all of it. -/
abbrev blk2 (c : Dev nD) (t : Fin cfg0.N) : Vec Ideal S512 .f32 := iblk m c 2 t
/-- The block of the regrouped second weight matrix the region reads at point t. -/
abbrev blk3 (c : Dev nD) (t : Fin cfg0.N) : Vec Ideal S512x1280 .bf16 := iblk m c 3 t
/-- The block of the second bias the region reads at point t. -/
abbrev blk4 (c : Dev nD) (t : Fin cfg0.N) : Vec Ideal S2x640 .f32 := iblk m c 4 t
/-- The block of the padded labels the region reads at point t. -/
abbrev blk5 (c : Dev nD) (t : Fin cfg0.N) : Vec Ideal S1344x2 .i32 := iblk m c 5 t

/-- Row r of the rows' block at point t is row 1344 (t / 50) + r of the padded rows. -/
theorem blk0_read (c : Dev nD) (t : Fin cfg0.N) (r : Fin 1344) (k : Fin 1024) (hR : 1344 * (t.val / 50) + r.val < 2688) :
    blk0 m c t (ix2 r k) = (V m c main_v35 : S2688x1024.Idx → EReal) (ix2 (⟨1344 * (t.val / 50) + r.val, hR⟩ : Fin 2688) k) := by
  obtain ⟨e0, e1, -⟩ := idx_facts t
  show (V m c main_v35 : S2688x1024.Idx → EReal) (((cfg0.win 0).blk t).view.emb (ix2 r k)) = _
  congr 1
  funext a
  apply Fin.ext
  match a with
  | ⟨0, _⟩ => show win0_0.index t (0 : Fin 2) * 1344 + 1 * r.val = 1344 * (t.val / 50) + r.val; rw [e0]; omega
  | ⟨1, _⟩ => show win0_0.index t (1 : Fin 2) * 1024 + 1 * k.val = k.val; rw [e1]; omega

/-- The first weight matrix's block at any point is the whole matrix. -/
theorem blk1_read (c : Dev nD) (t : Fin cfg0.N) (k : Fin 1024) (d : Fin 512) :
    blk1 m c t (ix2 k d) = (V m c main_v37 : S1024x512.Idx → EReal) (ix2 k d) := by
  obtain ⟨-, -, e0, e1, -⟩ := idx_facts t
  show (V m c main_v37 : S1024x512.Idx → EReal) (((cfg0.win 1).blk t).view.emb (ix2 k d)) = _
  congr 1
  funext a
  apply Fin.ext
  match a with
  | ⟨0, _⟩ => show win0_1.index t (0 : Fin 2) * 1024 + 1 * k.val = k.val; rw [e0]; omega
  | ⟨1, _⟩ => show win0_1.index t (1 : Fin 2) * 512 + 1 * d.val = d.val; rw [e1]; omega

/-- The first bias's block at any point is the whole bias. -/
theorem blk2_read (c : Dev nD) (t : Fin cfg0.N) (d : Fin 512) :
    blk2 m c t (ix1 d) = (V m c main_arg6 : S512.Idx → EReal) (ix1 d) := by
  obtain ⟨-, -, -, -, e0, -⟩ := idx_facts t
  show (V m c main_arg6 : S512.Idx → EReal) (((cfg0.win 2).blk t).view.emb (ix1 d)) = _
  congr 1
  funext a
  apply Fin.ext
  match a with
  | ⟨0, _⟩ => show win0_2.index t (0 : Fin 1) * 512 + 1 * d.val = d.val; rw [e0]; omega

/-- Column q of the second weight matrix's block at point t is column 1280 (t % 50) + q of the regrouped matrix. -/
theorem blk3_read (c : Dev nD) (t : Fin cfg0.N) (k : Fin 512) (q : Fin 1280) (hq : 1280 * (t.val % 50) + q.val < 64000) :
    blk3 m c t (ix2 k q) = (V m c main_v41 : S512x64000.Idx → EReal) (ix2 k (⟨1280 * (t.val % 50) + q.val, hq⟩ : Fin 64000)) := by
  obtain ⟨-, -, -, -, -, e0, e1, -⟩ := idx_facts t
  show (V m c main_v41 : S512x64000.Idx → EReal) (((cfg0.win 3).blk t).view.emb (ix2 k q)) = _
  congr 1
  funext a
  apply Fin.ext
  match a with
  | ⟨0, _⟩ => show win0_3.index t (0 : Fin 2) * 512 + 1 * k.val = k.val; rw [e0]; omega
  | ⟨1, _⟩ => show win0_3.index t (1 : Fin 2) * 1280 + 1 * q.val = 1280 * (t.val % 50) + q.val; rw [e1]; omega

/-- Column j of the second bias's block at point t is column 640 (t % 50) + j of the bias as two rows. -/
theorem blk4_read (c : Dev nD) (t : Fin cfg0.N) (b : Fin 2) (j : Fin 640) (hq : 640 * (t.val % 50) + j.val < 32000) :
    blk4 m c t (ix2 b j) = (V m c main_v42 : S2x32000.Idx → EReal) (ix2 b (⟨640 * (t.val % 50) + j.val, hq⟩ : Fin 32000)) := by
  obtain ⟨-, -, -, -, -, -, -, e0, e1, -⟩ := idx_facts t
  show (V m c main_v42 : S2x32000.Idx → EReal) (((cfg0.win 4).blk t).view.emb (ix2 b j)) = _
  congr 1
  funext a
  apply Fin.ext
  match a with
  | ⟨0, _⟩ => show win0_4.index t (0 : Fin 2) * 2 + 1 * b.val = b.val; rw [e0]; omega
  | ⟨1, _⟩ => show win0_4.index t (1 : Fin 2) * 640 + 1 * j.val = 640 * (t.val % 50) + j.val; rw [e1]; omega

/-- Row r of the labels' block at point t is row 1344 (t / 50) + r of the padded labels. -/
theorem blk5_read (c : Dev nD) (t : Fin cfg0.N) (r : Fin 1344) (b : Fin 2) (hR : 1344 * (t.val / 50) + r.val < 2688) :
    blk5 m c t (ix2 r b) = (V m c main_v36 : S2688x2.Idx → BitVec 32) (ix2 (⟨1344 * (t.val / 50) + r.val, hR⟩ : Fin 2688) b) := by
  obtain ⟨-, -, -, -, -, -, -, -, -, e0, e1⟩ := idx_facts t
  show (V m c main_v36 : S2688x2.Idx → BitVec 32) (((cfg0.win 5).blk t).view.emb (ix2 r b)) = _
  congr 1
  funext a
  apply Fin.ext
  match a with
  | ⟨0, _⟩ => show win0_5.index t (0 : Fin 2) * 1344 + 1 * r.val = 1344 * (t.val / 50) + r.val; rw [e0]; omega
  | ⟨1, _⟩ => show win0_5.index t (1 : Fin 2) * 2 + 1 * b.val = b.val; rw [e1]; omega

/-- The rows' block at point t, entry by entry: row 1344 (t / 50) + r of the flattened gathered rows, zero past row 2605. -/
theorem blk0_eq (c : Dev nD) (t : Fin cfg0.N) (r : Fin 1344) (k : Fin 1024) :
    blk0 m c t (ix2 r k) =
      if h : 1344 * (t.val / 50) + r.val < 2606 then
        fb (F := Ideal) (m ((c : Thread nD τ).loc main_arg0)) (m ((c : Thread nD τ).loc main_arg1))
          (m ((c : Thread nD τ).loc main_arg3)) (m ((c : Thread nD τ).loc main_arg4))
          (ix3 (⟨(1344 * (t.val / 50) + r.val) / 1303, by omega⟩ : Fin 2)
            (⟨(1344 * (t.val / 50) + r.val) % 1303, Nat.mod_lt _ (by decide)⟩ : Fin 1303) k)
      else (0 : EReal) := by
  have hR : 1344 * (t.val / 50) + r.val < 2688 := by have := t_lt t; omega
  rw [blk0_read m c t r k hR, V35_eq]
  exact padRows_apply _ _ hR k

/-- The first weight matrix's block at any point is the argument. -/
theorem blk1_eq (c : Dev nD) (t : Fin cfg0.N) (k : Fin 1024) (d : Fin 512) :
    blk1 m c t (ix2 k d) = (m ((c : Thread nD τ).loc main_arg5) : S1024x512.Idx → EReal) (ix2 k d) := by
  rw [blk1_read, V37_eq, truncf_apply]

/-- The first bias's block at any point is the argument. -/
theorem blk2_eq (c : Dev nD) (t : Fin cfg0.N) (d : Fin 512) :
    blk2 m c t (ix1 d) = (m ((c : Thread nD τ).loc main_arg6) : S512.Idx → EReal) (ix1 d) := by
  rw [blk2_read, V_main_arg6]

/-- The second weight matrix's block at point t, entry by entry: its column 640 b + j is column
    32000 b + 640 (t % 50) + j of the argument. -/
theorem blk3_eq (c : Dev nD) (t : Fin cfg0.N) (k : Fin 512) (b : Fin 2) (j : Fin 640) :
    blk3 m c t (ix2 k (⟨640 * b.val + j.val, by omega⟩ : Fin 1280)) =
      (m ((c : Thread nD τ).loc main_arg7) : S512x64000.Idx → EReal)
        (ix2 k (⟨32000 * b.val + 640 * (t.val % 50) + j.val, by have := Nat.mod_lt t.val (show 0 < 50 by decide); omega⟩ : Fin 64000)) := by
  have hv : t.val % 50 < 50 := Nat.mod_lt _ (by decide)
  rw [blk3_read m c t k _ (by show 1280 * (t.val % 50) + (640 * b.val + j.val) < 64000; omega), V41_eq]
  exact (congrArg _ (congrArg (ix2 k) (Fin.ext (by show 1280 * (t.val % 50) + (640 * b.val + j.val) = 1280 * (t.val % 50) + 640 * b.val + j.val; omega)))).trans
    (permCols_apply _ k (⟨t.val % 50, hv⟩ : Fin 50) b j)

/-- The second bias's block at point t, entry by entry: entry (b, j) is entry 32000 b + 640 (t % 50) + j of the argument. -/
theorem blk4_eq (c : Dev nD) (t : Fin cfg0.N) (b : Fin 2) (j : Fin 640) :
    blk4 m c t (ix2 b j) =
      (m ((c : Thread nD τ).loc main_arg8) : S64000.Idx → EReal)
        (ix1 (⟨32000 * b.val + 640 * (t.val % 50) + j.val, by have := Nat.mod_lt t.val (show 0 < 50 by decide); omega⟩ : Fin 64000)) := by
  have hv : t.val % 50 < 50 := Nat.mod_lt _ (by decide)
  rw [blk4_read m c t b j (by omega), V42_eq]
  exact (biasRows_apply _ b _).trans (congrArg _ (congrArg ix1 (Fin.ext (by show 32000 * b.val + (640 * (t.val % 50) + j.val) = 32000 * b.val + 640 * (t.val % 50) + j.val; omega))))

/-- The labels' block at point t, entry by entry: row 1344 (t / 50) + r of the flattened gathered labels, minus one past
    row 2605. -/
theorem blk5_eq (c : Dev nD) (t : Fin cfg0.N) (r : Fin 1344) (b : Fin 2) :
    blk5 m c t (ix2 r b) =
      if h : 1344 * (t.val / 50) + r.val < 2606 then
        lbl (m ((c : Thread nD τ).loc main_arg2)) (m ((c : Thread nD τ).loc main_arg3)) (m ((c : Thread nD τ).loc main_arg4))
          (ix3 (⟨(1344 * (t.val / 50) + r.val) / 1303, by omega⟩ : Fin 2)
            (⟨(1344 * (t.val / 50) + r.val) % 1303, Nat.mod_lt _ (by decide)⟩ : Fin 1303) b)
      else (4294967295#32 : BitVec 32) := by
  have hR : 1344 * (t.val / 50) + r.val < 2688 := by have := t_lt t; omega
  rw [blk5_read m c t r b hR, V36_eq]
  exact padLabels_apply _ _ hR b

end Blocks

end Cert.KernelIdeal.KHost

end
-- ==== Proof.SpecFin.lean ====
/-
  Finiteness through the specification: sums and products of real numbers are real numbers, the leaky rectifier
  of a real is a real, so a row's hidden values, its logits and each branch's sequence of logits are real whenever
  the row, the two weight matrices and the two biases are.
-/
import proofs.«421797_j22849226015448_2_alg».proof.Proof.Spec

noncomputable section

namespace Cert.Spec

open Idealize.ShloMosaic

/-- A finite extended real is the coercion of a real number. -/
private theorem fin_coe {x : EReal} (hx : x ≠ ⊥ ∧ x ≠ ⊤) : ∃ r : ℝ, x = (r : EReal) :=
  ⟨x.toReal, (EReal.coe_toReal hx.2 hx.1).symm⟩

/-- The coercion of a real number is finite. -/
private theorem coe_fin (r : ℝ) : (r : EReal) ≠ ⊥ ∧ (r : EReal) ≠ ⊤ :=
  ⟨EReal.coe_ne_bot r, EReal.coe_ne_top r⟩

theorem fin_zero : (0 : EReal) ≠ ⊥ ∧ (0 : EReal) ≠ ⊤ := by
  exact coe_fin 0

theorem fin_add {x y : EReal} (hx : x ≠ ⊥ ∧ x ≠ ⊤) (hy : y ≠ ⊥ ∧ y ≠ ⊤) : x + y ≠ ⊥ ∧ x + y ≠ ⊤ := by
  obtain ⟨a, rfl⟩ := fin_coe hx
  obtain ⟨b, rfl⟩ := fin_coe hy
  rw [← EReal.coe_add]
  exact coe_fin _

theorem fin_mul {x y : EReal} (hx : x ≠ ⊥ ∧ x ≠ ⊤) (hy : y ≠ ⊥ ∧ y ≠ ⊤) : x * y ≠ ⊥ ∧ x * y ≠ ⊤ := by
  obtain ⟨a, rfl⟩ := fin_coe hx
  obtain ⟨b, rfl⟩ := fin_coe hy
  rw [← EReal.coe_mul]
  exact coe_fin _

theorem fin_sum {ι : Type*} (s : Finset ι) (f : ι → EReal) (h : ∀ i ∈ s, f i ≠ ⊥ ∧ f i ≠ ⊤) :
    (∑ i ∈ s, f i) ≠ ⊥ ∧ (∑ i ∈ s, f i) ≠ ⊤ := by
  classical
  induction s using Finset.induction_on with
  | empty =>
    rw [Finset.sum_empty]
    exact fin_zero
  | insert a s ha ih =>
    rw [Finset.sum_insert ha]
    exact fin_add (h a (Finset.mem_insert_self a s)) (ih (fun i hi => h i (Finset.mem_insert_of_mem hi)))

/-- The rectifier's slope, the f32 word `0x3C23D70A`, is a normal number (exponent field `120`), hence real. -/
private theorem slope_fin :
    Ideal.ofBits .f32 0x3C23D70A#32 ≠ ⊥ ∧ Ideal.ofBits .f32 0x3C23D70A#32 ≠ ⊤ := by
  constructor <;> simp [Ideal.ofBits, Ideal.ieee, -EReal.coe_mul]

theorem leaky_fin {z : EReal} (hz : z ≠ ⊥ ∧ z ≠ ⊤) : leaky z ≠ ⊥ ∧ leaky z ≠ ⊤ := by
  rcases leaky_eq z with h | h <;> rw [h]
  · exact hz
  · exact fin_mul slope_fin hz

theorem hidRow_fin (row : Fin 1024 → EReal) (w1 : Fin 1024 → Fin 512 → EReal) (b1 : Fin 512 → EReal)
    (hrow : ∀ k, row k ≠ ⊥ ∧ row k ≠ ⊤) (hw1 : ∀ k d, w1 k d ≠ ⊥ ∧ w1 k d ≠ ⊤) (hb1 : ∀ d, b1 d ≠ ⊥ ∧ b1 d ≠ ⊤) (d : Fin 512) :
    hidRow row w1 b1 d ≠ ⊥ ∧ hidRow row w1 b1 d ≠ ⊤ := by
  unfold hidRow
  exact leaky_fin (fin_add (fin_sum _ _ (fun k _ => fin_mul (hrow k) (hw1 k d))) (hb1 d))

theorem logit_fin (h : Fin 512 → EReal) (w2 : Fin 512 → Fin 64000 → EReal) (b2 : Fin 64000 → EReal)
    (hh : ∀ k, h k ≠ ⊥ ∧ h k ≠ ⊤) (hw2 : ∀ k c, w2 k c ≠ ⊥ ∧ w2 k c ≠ ⊤) (hb2 : ∀ c, b2 c ≠ ⊥ ∧ b2 c ≠ ⊤) (c : Fin 64000) :
    logit h w2 b2 c ≠ ⊥ ∧ logit h w2 b2 c ≠ ⊤ := by
  unfold logit
  exact fin_add (fin_sum _ _ (fun k _ => fin_mul (hh k) (hw2 k c))) (hb2 c)

theorem branch_fin (x : Fin 64000 → EReal) (hx : ∀ c, x c ≠ ⊥ ∧ x c ≠ ⊤) (br : Fin 2) (c : ℕ) :
    branch x br c ≠ ⊥ ∧ branch x br c ≠ ⊤ := by
  unfold branch
  split
  · exact hx _
  · exact fin_zero

end Cert.Spec

end
-- ==== Proof.KInv.lean ====
/-
  The kept arrays hold the closed forms after every grid point.

  Row `r` of row block `t / 50` is row `R = 1344·(t / 50) + r` of the padded input. After the point at tile `v = t % 50`
  the hidden-layer array holds the row's hidden values, and for each branch the three accumulators hold the prefix
  maximum, the prefix sum of shifted exponentials and the label-masked sum of the branch's first `640·(v + 1)` logits.
  By induction on the point: a first point computes the hidden layer from the row block and steps the accumulators
  from their resets, which are the closed forms over no classes; a later point keeps the hidden layer and steps the
  accumulators of the point before.
-/
import proofs.«421797_j22849226015448_2_alg».proof.Proof.KOuts
import proofs.«421797_j22849226015448_2_alg».proof.Proof.KStepInv
import proofs.«421797_j22849226015448_2_alg».proof.Proof.KHost
import proofs.«421797_j22849226015448_2_alg».proof.Proof.SpecFin

set_option maxRecDepth 16384

noncomputable section

namespace Cert.KernelIdeal.KInv

open Cert.KernelIdeal Cert.KernelIdeal.Gen Cert.KernelIdeal.KStep Cert.KernelIdeal.KStepInv Cert.KernelIdeal.KOuts
open Cert.KernelIdeal.KHost Cert.KernelIdeal.KPay Cert.LseMath
open Idealize.ShloMosaic Idealize.ShloMosaic.ValueIdx Idealize.ShloMosaic.TcCoe Idealize.SL.Sem

variable (m : (ℓ : Loc nD τ sig) → Buf (Elt Ideal) ℓ) (c : Dev nD)

/-- The nine argument arrays on core `c`. -/
abbrev a0 : FVec Ideal S2x512x512 .f32 := m ((c : Thread nD τ).loc main_arg0)
abbrev a1 : FVec Ideal S2x512x512 .f32 := m ((c : Thread nD τ).loc main_arg1)
abbrev a2 : IVec S2x512 32 := m ((c : Thread nD τ).loc main_arg2)
abbrev a3 : IVec S1303 32 := m ((c : Thread nD τ).loc main_arg3)
abbrev a4 : IVec S1303 32 := m ((c : Thread nD τ).loc main_arg4)
abbrev a5 : FVec Ideal S1024x512 .f32 := m ((c : Thread nD τ).loc main_arg5)
abbrev a6 : FVec Ideal S512 .f32 := m ((c : Thread nD τ).loc main_arg6)
abbrev a7 : FVec Ideal S512x64000 .f32 := m ((c : Thread nD τ).loc main_arg7)
abbrev a8 : FVec Ideal S64000 .f32 := m ((c : Thread nD τ).loc main_arg8)

/-- Padded input row `R`: the gathered row while `R < 2606`, zeros after. -/
def rowIn (R : ℕ) (k : Fin 1024) : EReal :=
  if h : R < 2606 then
    KHost.fb (F := Ideal) (a0 m c) (a1 m c) (a3 m c) (a4 m c)
      (ix3 (⟨R / 1303, by omega⟩ : Fin 2) (⟨R % 1303, Nat.mod_lt _ (by decide)⟩ : Fin 1303) k)
  else 0

def w1f (k : Fin 1024) (d : Fin 512) : EReal := a5 m c (ix2 k d)
def b1f (d : Fin 512) : EReal := a6 m c (ix1 d)
def w2f (k : Fin 512) (q : Fin 64000) : EReal := a7 m c (ix2 k q)
def b2f (q : Fin 64000) : EReal := a8 m c (ix1 q)

/-- The hidden values of padded row `R`. -/
def Hrow (R : ℕ) : Fin 512 → EReal := Cert.Spec.hidRow (rowIn m c R) (w1f m c) (b1f m c)

/-- Branch `br`'s logits of padded row `R`, as a sequence. -/
def Xseq (R : ℕ) (br : Fin 2) : ℕ → EReal :=
  Cert.Spec.branch (Cert.Spec.logit (Hrow m c R) (w2f m c) (b2f m c)) br

/-- The label word of padded row `R`, branch `br`: the gathered label while `R < 2606`, the pad word after. -/
def LW (R : ℕ) (br : Fin 2) : BitVec 32 :=
  if h : R < 2606 then
    KHost.lbl (a2 m c) (a3 m c) (a4 m c)
      (ix3 (⟨R / 1303, by omega⟩ : Fin 2) (⟨R % 1303, Nat.mod_lt _ (by decide)⟩ : Fin 1303) br)
  else 4294967295#32

/-- The second grid coordinate of point `t` is `t % 50`. -/
theorem coord1 : ∀ t : Fin cfg0.N, (grid0.coords t 1).val = t.val % 50 :=
  (by decide +kernel : ∀ t : Fin grid0.N, (grid0.coords t 1).val = t.val % 50)

section Finite
variable (hfb : ∀ i, KHost.fb (F := Ideal) (a0 m c) (a1 m c) (a3 m c) (a4 m c) i ≠ ⊥
    ∧ KHost.fb (F := Ideal) (a0 m c) (a1 m c) (a3 m c) (a4 m c) i ≠ ⊤)
  (h5 : ∀ i, a5 m c i ≠ ⊥ ∧ a5 m c i ≠ ⊤) (h6 : ∀ i, a6 m c i ≠ ⊥ ∧ a6 m c i ≠ ⊤)
  (h7 : ∀ i, a7 m c i ≠ ⊥ ∧ a7 m c i ≠ ⊤) (h8 : ∀ i, a8 m c i ≠ ⊥ ∧ a8 m c i ≠ ⊤)
include hfb h5 h6 h7 h8

/-- Every logit of every padded row is a real number. -/
theorem Xseq_fin (R : ℕ) (br : Fin 2) (q : ℕ) : Xseq m c R br q ≠ ⊥ ∧ Xseq m c R br q ≠ ⊤ := by
  unfold Xseq
  refine Cert.Spec.branch_fin _ (fun q' => Cert.Spec.logit_fin _ _ _ (fun k => ?_) (fun k q'' => h7 _) (fun q'' => h8 _) q') br q
  unfold Hrow
  refine Cert.Spec.hidRow_fin _ _ _ (fun k' => ?_) (fun k' d => h5 _) (fun d => h6 _) k
  unfold rowIn
  split
  · exact hfb _
  · exact Cert.Spec.fin_zero

end Finite

/-- The point's logits of row `r`, branch `br`: classes `640·v, …, 640·v + 639` of the branch's sequence
    (the hidden values against the block's permuted columns, plus the block of the bias). -/
theorem tile (t : Fin cfg0.N) (hS : Vec Ideal S1344x512 .bf16) (r : Fin 1344)
    (hH : ∀ d, hS (ix2 r d) = Hrow m c (1344 * (t.val / 50) + r.val) d) (br : Fin 2) (j : Fin 640) :
    k0_pay9 hS (blk3 m c t) (blk4 m c t) (ix2 r (⟨640 * br.val + j.val, by omega⟩ : Fin 1280))
      = Xseq m c (1344 * (t.val / 50) + r.val) br (640 * (t.val % 50) + j.val) := by
  have hv : t.val % 50 < 50 := Nat.mod_lt _ (by decide)
  have hbr := br.isLt
  have hj := j.isLt
  have hq : 640 * (t.val % 50) + j.val < 32000 := by omega
  have ea : ∀ h, (⟨(640 * br.val + j.val) / 640, h⟩ : Fin 2) = br := fun h => Fin.ext (by simp only []; omega)
  have eb : ∀ h, (⟨(640 * br.val + j.val) % 640, h⟩ : Fin 640) = j := fun h => Fin.ext (by simp only []; omega)
  rw [pay9_apply]
  simp only [ea, eb]
  unfold Xseq Cert.Spec.branch
  rw [dif_pos hq]
  unfold Cert.Spec.logit
  congr 1
  · refine Finset.sum_congr rfl fun k _ => ?_
    rw [hH k, blk3_eq]
    unfold w2f a7
    simp only [Nat.add_assoc]
  · rw [blk4_eq]
    unfold b2f a8
    simp only [Nat.add_assoc]

end Cert.KernelIdeal.KInv

end
-- ==== Proof.KInvMain.lean ====
/-
  The induction over the grid points: after the point at tile `v` of row block `i`, row `r`'s entries of the kept
  arrays are the hidden values of padded row `1344·i + r` and, per branch, the closed forms over the first
  `640·(v + 1)` classes; at the last tile the output block's entry is `log (psum) + pmax - (masked sum)` over all
  32000 classes.
-/
import proofs.«421797_j22849226015448_2_alg».proof.Proof.KInv

set_option maxRecDepth 16384

noncomputable section

namespace Cert.KernelIdeal.KInv

open Cert.KernelIdeal Cert.KernelIdeal.Gen Cert.KernelIdeal.KStep Cert.KernelIdeal.KStepInv Cert.KernelIdeal.KOuts
open Cert.KernelIdeal.KHost Cert.KernelIdeal.KPay Cert.LseMath
open Idealize.ShloMosaic Idealize.ShloMosaic.ValueIdx Idealize.ShloMosaic.TcCoe Idealize.SL.Sem

variable (m : (ℓ : Loc nD τ sig) → Buf (Elt Ideal) ℓ) (c : Dev nD)

/-- What the closed forms say of row `r` at point `n`. -/
def RowInv (n : ℕ) (hS : Vec Ideal S1344x512 .bf16) (mS lS tS : Vec Ideal S1344x2 .f32) (r : Fin 1344) : Prop :=
  (∀ d : Fin 512, hS (ix2 r d) = Hrow m c (1344 * (n / 50) + r.val) d)
  ∧ ∀ br : Fin 2,
      mS (ix2 r br) = pmax (Xseq m c (1344 * (n / 50) + r.val) br) (640 * (n % 50 + 1))
      ∧ lS (ix2 r br) = psum (Xseq m c (1344 * (n / 50) + r.val) br) (640 * (n % 50 + 1))
      ∧ tS (ix2 r br) = msum (Xseq m c (1344 * (n / 50) + r.val) br) (LW m c (1344 * (n / 50) + r.val) br) (640 * (n % 50 + 1))

/-- The first tile's lanes of branch 0 / branch 1 in the form the column lemmas take. -/
theorem tile0 (t : Fin cfg0.N) (hS : Vec Ideal S1344x512 .bf16) (r : Fin 1344)
    (hH : ∀ d, hS (ix2 r d) = Hrow m c (1344 * (t.val / 50) + r.val) d) (j : Fin 640) :
    k0_pay9 hS (blk3 m c t) (blk4 m c t) (ix2 r (⟨j.val, by omega⟩ : Fin 1280))
      = Xseq m c (1344 * (t.val / 50) + r.val) 0 (640 * (t.val % 50) + j.val) := by
  have e : (⟨j.val, by omega⟩ : Fin 1280) = ⟨640 * (0 : Fin 2).val + j.val, by have := j.isLt; simp only [Fin.val_zero]; omega⟩ :=
    Fin.ext (by simp)
  rw [e]; exact tile m c t hS r hH 0 j

theorem tile1 (t : Fin cfg0.N) (hS : Vec Ideal S1344x512 .bf16) (r : Fin 1344)
    (hH : ∀ d, hS (ix2 r d) = Hrow m c (1344 * (t.val / 50) + r.val) d) (j : Fin 640) :
    k0_pay9 hS (blk3 m c t) (blk4 m c t) (ix2 r (⟨640 + j.val, by omega⟩ : Fin 1280))
      = Xseq m c (1344 * (t.val / 50) + r.val) 1 (640 * (t.val % 50) + j.val) := by
  have e : (⟨640 + j.val, by omega⟩ : Fin 1280) = ⟨640 * (1 : Fin 2).val + j.val, by have := j.isLt; simp only [Fin.val_one]; omega⟩ :=
    Fin.ext (by simp)
  rw [e]; exact tile m c t hS r hH 1 j

/-- The label word the point reads for row `r`, branch `br`. -/
theorem lbl_word (t : Fin cfg0.N) (r : Fin 1344) (br : Fin 2) :
    blk5 m c t (ix2 r br) = LW m c (1344 * (t.val / 50) + r.val) br := by
  rw [blk5_eq]; rfl

theorem fin2_cases (br : Fin 2) : br = 0 ∨ br = 1 := by
  rcases br with ⟨_ | _ | n, h⟩
  · exact Or.inl rfl
  · exact Or.inr rfl
  · exact absurd h (by omega)

section Main
variable (hfb : ∀ i, KHost.fb (F := Ideal) (a0 m c) (a1 m c) (a3 m c) (a4 m c) i ≠ ⊥
    ∧ KHost.fb (F := Ideal) (a0 m c) (a1 m c) (a3 m c) (a4 m c) i ≠ ⊤)
  (h5 : ∀ i, a5 m c i ≠ ⊥ ∧ a5 m c i ≠ ⊤) (h6 : ∀ i, a6 m c i ≠ ⊥ ∧ a6 m c i ≠ ⊤)
  (h7 : ∀ i, a7 m c i ≠ ⊥ ∧ a7 m c i ≠ ⊤) (h8 : ∀ i, a8 m c i ≠ ⊥ ∧ a8 m c i ≠ ⊤)
include hfb h5 h6 h7 h8

/-- One point, from accumulators that hold the closed forms over the first `640·v` classes (`v` the point's tile)
    and a hidden-layer array that holds the rows' hidden values. -/
theorem step_row (t : Fin cfg0.N) (hS : Vec Ideal S1344x512 .bf16) (mO lO tO : Vec Ideal S1344x2 .f32) (r : Fin 1344)
    (hH : ∀ d, hS (ix2 r d) = Hrow m c (1344 * (t.val / 50) + r.val) d)
    (hO : ∀ br : Fin 2,
      mO (ix2 r br) = pmax (Xseq m c (1344 * (t.val / 50) + r.val) br) (640 * (t.val % 50))
      ∧ lO (ix2 r br) = psum (Xseq m c (1344 * (t.val / 50) + r.val) br) (640 * (t.val % 50))
      ∧ tO (ix2 r br) = msum (Xseq m c (1344 * (t.val / 50) + r.val) br) (LW m c (1344 * (t.val / 50) + r.val) br) (640 * (t.val % 50))) :
    RowInv m c t.val hS (stepM hS (blk3 m c t) (blk4 m c t) mO) (stepL hS (blk3 m c t) (blk4 m c t) mO lO)
      (stepT (grid0.coords t) hS (blk3 m c t) (blk4 m c t) (blk5 m c t) tO) r := by
  refine ⟨hH, fun br => ?_⟩
  have hX := fun br' => Xseq_fin m c hfb h5 h6 h7 h8 (1344 * (t.val / 50) + r.val) br'
  rcases fin2_cases br with rfl | rfl
  · exact step_col0 (grid0.coords t) (t.val % 50) (coord1 t) hS (blk3 m c t) (blk4 m c t) (blk5 m c t) mO lO tO
      (Xseq m c (1344 * (t.val / 50) + r.val) 0) (hX 0) (LW m c (1344 * (t.val / 50) + r.val) 0) r
      (tile0 m c t hS r hH) (lbl_word m c t r 0) (hO 0).1 (hO 0).2.1 (hO 0).2.2
  · exact step_col1 (grid0.coords t) (t.val % 50) (coord1 t) hS (blk3 m c t) (blk4 m c t) (blk5 m c t) mO lO tO
      (Xseq m c (1344 * (t.val / 50) + r.val) 1) (hX 1) (LW m c (1344 * (t.val / 50) + r.val) 1) r
      (tile1 m c t hS r hH) (lbl_word m c t r 1) (hO 1).1 (hO 1).2.1 (hO 1).2.2

/-- The hidden layer a first point computes is the rows' hidden values. -/
theorem hidden_first (t : Fin cfg0.N) (r : Fin 1344) (d : Fin 512) :
    hA m c t (ix2 r d) = Hrow m c (1344 * (t.val / 50) + r.val) d := by
  show k0_pay5 (blk0 m c t) (blk1 m c t) (blk2 m c t) (ix2 r d) = _
  rw [pay5_apply]
  have hs : (∑ k : Fin 1024, blk0 m c t (ix2 r k) * blk1 m c t (ix2 k d))
      = ∑ k : Fin 1024, rowIn m c (1344 * (t.val / 50) + r.val) k * w1f m c k d :=
    Finset.sum_congr rfl fun k _ => by rw [blk0_eq, blk1_eq]; rfl
  have hb : blk2 m c t (ix1 d) = b1f m c d := by rw [blk2_eq]; rfl
  rw [hs, hb]
  rfl

/-- THE INVARIANT: after every point, every row of the kept arrays holds the closed forms. -/
theorem inv : ∀ (n : ℕ) (hn : n < cfg0.N) (r : Fin 1344),
    RowInv m c n (outsAt0 m c n hn).2.1 (outsAt0 m c n hn).2.2.1 (outsAt0 m c n hn).2.2.2.1 (outsAt0 m c n hn).2.2.2.2 r := by
  intro n
  induction n with
  | zero =>
    intro hn r
    have h0 : (⟨0, hn⟩ : Fin cfg0.N).val % 50 = 0 := rfl
    have h1 : ¬(⟨0, hn⟩ : Fin cfg0.N).val % 50 = 49 := by show ¬(0 % 50 = 49); decide
    rw [A_h m c ⟨0, hn⟩ h0 h1, A_m m c ⟨0, hn⟩ h0 h1, A_l m c ⟨0, hn⟩ h0 h1, A_t m c ⟨0, hn⟩ h0 h1]
    refine step_row m c hfb h5 h6 h7 h8 ⟨0, hn⟩ _ (k0_pay6 (F := Ideal)) (k0_pay7 (F := Ideal)) (k0_pay8 (F := Ideal)) r (hidden_first m c hfb h5 h6 h7 h8 ⟨0, hn⟩ r) (fun br => ?_)
    refine ⟨?_, ?_, ?_⟩
    · rw [pay6_apply]; exact (pmax_zero _).symm
    · rw [pay7_apply]; simp [psum]
    · rw [pay8_apply]; exact (msum_zero _ _).symm
  | succ k ih =>
    intro hn r
    have hk : k < cfg0.N := Nat.lt_of_succ_lt hn
    by_cases h0 : (k + 1) % 50 = 0
    · have h1 : ¬(k + 1) % 50 = 49 := by omega
      rw [A_h m c ⟨k + 1, hn⟩ h0 h1, A_m m c ⟨k + 1, hn⟩ h0 h1, A_l m c ⟨k + 1, hn⟩ h0 h1, A_t m c ⟨k + 1, hn⟩ h0 h1]
      refine step_row m c hfb h5 h6 h7 h8 ⟨k + 1, hn⟩ _ (k0_pay6 (F := Ideal)) (k0_pay7 (F := Ideal)) (k0_pay8 (F := Ideal)) r (hidden_first m c hfb h5 h6 h7 h8 ⟨k + 1, hn⟩ r) (fun br => ?_)
      have e : 640 * ((⟨k + 1, hn⟩ : Fin cfg0.N).val % 50) = 0 := by
        show 640 * ((k + 1) % 50) = 0
        rw [h0]
      rw [e]
      refine ⟨?_, ?_, ?_⟩
      · rw [pay6_apply]; exact (pmax_zero _).symm
      · rw [pay7_apply]; simp [psum]
      · rw [pay8_apply]; exact (msum_zero _ _).symm
    · have hprev := ih hk r
      have ediv : k / 50 = (k + 1) / 50 := by omega
      have emod : k % 50 + 1 = (k + 1) % 50 := by omega
      unfold RowInv at hprev
      rw [ediv, emod] at hprev
      by_cases h1 : (k + 1) % 50 = 49
      · rw [C_h m c ⟨k + 1, hn⟩ h0 h1, C_m m c ⟨k + 1, hn⟩ h0 h1, C_l m c ⟨k + 1, hn⟩ h0 h1, C_t m c ⟨k + 1, hn⟩ h0 h1]
        exact step_row m c hfb h5 h6 h7 h8 ⟨k + 1, hn⟩ _ _ _ _ r hprev.1 hprev.2
      · rw [B_h m c ⟨k + 1, hn⟩ h0 h1, B_m m c ⟨k + 1, hn⟩ h0 h1, B_l m c ⟨k + 1, hn⟩ h0 h1, B_t m c ⟨k + 1, hn⟩ h0 h1]
        exact step_row m c hfb h5 h6 h7 h8 ⟨k + 1, hn⟩ _ _ _ _ r hprev.1 hprev.2

end Main

end Cert.KernelIdeal.KInv

end
-- ==== Proof.KFinal.lean ====
/-
  The output array after the region. Each of the two row blocks is written back once, after its last tile, and
  what is written is, at row `r` and branch `br`, `log (psum) + pmax - (masked sum)` of the branch's 32000 logits of
  padded row `1344·(row block) + r`: the invariant at the last tile. The two blocks tile the [2688, 2] array, so the
  array ends holding that closed form everywhere.
-/
import proofs.«421797_j22849226015448_2_alg».proof.Proof.KInvMain

set_option maxRecDepth 16384

noncomputable section

namespace Cert.KernelIdeal.KFinal

open Cert.KernelIdeal Cert.KernelIdeal.Gen Cert.KernelIdeal.KStep Cert.KernelIdeal.KStepInv Cert.KernelIdeal.KOuts
open Cert.KernelIdeal.KHost Cert.KernelIdeal.KPay Cert.KernelIdeal.KInv Cert.LseMath
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

/-- The closed form at padded row `R`, branch `br`. -/
def nllAt (R : ℕ) (br : Fin 2) : EReal :=
  Ideal.log (psum (Xseq m c R br) 32000) + pmax (Xseq m c R br) 32000 - msum (Xseq m c R br) (LW m c R br) 32000

/-- The closed form of the whole output array. -/
def Gout (i : S2688x2.Idx) : EReal := nllAt m c (i 0).val ⟨(i 1).val, (i 1).isLt⟩

/-- Window 6's block index at point `t`: the row block, column block 0. -/
theorem idx6 : ∀ t : Fin cfg0.N, win0_6.index t (0 : Fin 2) = t.val / 50 ∧ win0_6.index t (1 : Fin 2) = 0 :=
  (by decide +kernel : ∀ t : Fin grid0.N, win0_6.index t (0 : Fin 2) = t.val / 50 ∧ win0_6.index t (1 : Fin 2) = 0)

/-- An index of the output array is in point `t`'s block iff each coordinate is in the block's range. -/
theorem mem_blk (t : Fin cfg0.N) (i : S2688x2.Idx) :
    i ∈ ((cfg0.win 6).blk t).view.set ↔ ∀ a : Fin 2, win0_6.index t a * S1344x2.size a ≤ (i a).val ∧ (i a).val < win0_6.index t a * S1344x2.size a + S1344x2.size a := by
  show i ∈ ((View.whole main_v43).slice (win0_6.rect t)).set ↔ _
  rw [View.set_slice_whole, Rect.mem_set_unit]
  exact Iff.rfl

/-- The last point of row block `q`. -/
def lastPt (q : ℕ) (hq : q < 2) : Fin cfg0.N := ⟨50 * q + 49, lt_of_lt_of_eq (by omega : 50 * q + 49 < 100) N_0.symm⟩

/-- Every row of the output array is in the block its row block's last point writes back. -/
theorem cover (i : S2688x2.Idx) : ∃ t : Fin cfg0.N, (cfg0.win 6).flush t = true ∧ i ∈ ((cfg0.win 6).blk t).view.set := by
  have hi0 : (i 0).val < 2688 := (i 0).isLt
  have hi1 : (i 1).val < 2 := (i 1).isLt
  have hq : (i 0).val / 1344 < 2 := by omega
  have hv : (lastPt ((i 0).val / 1344) hq).val = 50 * ((i 0).val / 1344) + 49 := rfl
  refine ⟨lastPt ((i 0).val / 1344) hq, (flush0_6 _).mpr (by rw [hv]; omega), ?_⟩
  rw [mem_blk]
  obtain ⟨e0, e1⟩ := idx6 (lastPt ((i 0).val / 1344) hq)
  rw [hv] at e0
  intro a
  match a with
  | ⟨0, _⟩ =>
    show win0_6.index (lastPt ((i 0).val / 1344) hq) (0 : Fin 2) * 1344 ≤ (i 0).val
      ∧ (i 0).val < win0_6.index (lastPt ((i 0).val / 1344) hq) (0 : Fin 2) * 1344 + 1344
    omega
  | ⟨1, _⟩ =>
    show win0_6.index (lastPt ((i 0).val / 1344) hq) (1 : Fin 2) * 2 ≤ (i 1).val
      ∧ (i 1).val < win0_6.index (lastPt ((i 0).val / 1344) hq) (1 : Fin 2) * 2 + 2
    omega

section Main
variable (hfb : ∀ i, KHost.fb (F := Ideal) (a0 m c) (a1 m c) (a3 m c) (a4 m c) i ≠ ⊥
    ∧ KHost.fb (F := Ideal) (a0 m c) (a1 m c) (a3 m c) (a4 m c) i ≠ ⊤)
  (h5 : ∀ i, a5 m c i ≠ ⊥ ∧ a5 m c i ≠ ⊤) (h6 : ∀ i, a6 m c i ≠ ⊥ ∧ a6 m c i ≠ ⊤)
  (h7 : ∀ i, a7 m c i ≠ ⊥ ∧ a7 m c i ≠ ⊤) (h8 : ∀ i, a8 m c i ≠ ⊥ ∧ a8 m c i ≠ ⊤)
include hfb h5 h6 h7 h8

/-- The output block at a last point, entry by entry. -/
theorem out_entry (t : Fin cfg0.N) (h1 : t.val % 50 = 49) (r : Fin 1344) (br : Fin 2) :
    (outsAt0 m c t.val t.isLt).1 (ix2 r br) = nllAt m c (1344 * (t.val / 50) + r.val) br := by
  have h0 : ¬t.val % 50 = 0 := by omega
  have hI := inv m c hfb h5 h6 h7 h8 t.val t.isLt r
  rw [C_h m c t h0 h1, C_m m c t h0 h1, C_l m c t h0 h1, C_t m c t h0 h1] at hI
  obtain ⟨hm, hl, ht⟩ := hI.2 br
  rw [C_out m c t h0 h1, pay4_apply, hl, hm, ht, h1]
  rfl

/-- WHAT A LAST POINT WRITES BACK is its block of the closed form. -/
theorem flushed_eq (t : Fin cfg0.N) (h1 : t.val % 50 = 49) :
    (dats m 0 c).flushed 6 t = ((cfg0.win 6).blk t).view.read (Elt Ideal) (Gout m c) := by
  show (cfg0.win 6).cut (grid0.coords t) ((dats m 0 c).after 6 t) = _
  rw [after0_6]
  obtain ⟨e0, e1⟩ := idx6 t
  funext j
  show (outsAt0 m c t.val t.isLt).1 j = Gout m c (((cfg0.win 6).blk t).view.emb j)
  have hj0 : (j 0).val < 1344 := (j 0).isLt
  have hj1 : (j 1).val < 2 := (j 1).isLt
  have hj : j = ix2 (⟨(j 0).val, hj0⟩ : Fin 1344) (⟨(j 1).val, hj1⟩ : Fin 2) := by
    funext a; match a with | ⟨0, _⟩ => rfl | ⟨1, _⟩ => rfl
  have he : ((cfg0.win 6).blk t).view.emb j
      = ix2 (⟨1344 * (t.val / 50) + (j 0).val, by have := KHost.t_lt t; omega⟩ : Fin 2688) (⟨(j 1).val, hj1⟩ : Fin 2) := by
    funext a; apply Fin.ext
    match a with
    | ⟨0, _⟩ => show win0_6.index t (0 : Fin 2) * 1344 + 1 * (j 0).val = 1344 * (t.val / 50) + (j 0).val; omega
    | ⟨1, _⟩ => show win0_6.index t (1 : Fin 2) * 2 + 1 * (j 1).val = (j 1).val; omega
  rw [he]
  conv_lhs => rw [hj]
  exact out_entry m c hfb h5 h6 h7 h8 t h1 ⟨(j 0).val, hj0⟩ ⟨(j 1).val, hj1⟩

/-- THE OUTPUT ARRAY after the region is the closed form. -/
theorem final : (dats m 0 c).arrAt 6 cfg0.N = Gout m c :=
  (dats m 0 c).arrAt_eq_of_cover 6 (Gout m c) (fun t hf => flushed_eq m c hfb h5 h6 h7 h8 t ((flush0_6 t).mp hf)) cover

end Main

end Cert.KernelIdeal.KFinal

end
-- ==== Proof.KTail.lean ====
/-
  The host tail of the kernel program.

  After its one fused region the program keeps the first 2606 of the 2688 rows of the region's two-column output,
  multiplies column 0 by one and column 1 by one quarter (the two branch weights, carried as a constant table of two
  numbers and broadcast along the rows), adds up all 2606 by 2 products starting from zero, and divides the total by
  5212. This module reads those operations on extended reals: given what the region's output holds at row
  1303 b + n, column br, the result is the weighted mean of those entries over the two sequences b, the 1303
  positions n and the two branches br. It also restates the run of the whole program with that result named next
  to the unchanged argument arrays.
-/
import proofs.«421797_j22849226015448_2_alg».proof.Proof.Gen.KernelIdeal.Frame
import proofs.«421797_j22849226015448_2_alg».proof.Proof.Spec
import Idealize.ShloMosaic.Lib.ValueIdx
import Idealize.ShloMosaic.Lib.Pipeline.Value
import Idealize.ShloMosaic.Lib.StableHlo.Run
import Idealize.ShloMosaic.PureOps.Ideal.Laws
import Mathlib.Algebra.BigOperators.Group.Finset.Defs
import Mathlib.Data.Fintype.BigOperators

noncomputable section

namespace Cert.KernelIdeal.KTail

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (ρ : Dev nD → PrngReg)

section Arithmetic

/-- A row of the flattened list of 2606 rows is a pair of a sequence `b` and a position `n`: row `1303 b + n`. -/
def rowEquiv : Fin 2 × Fin 1303 ≃ Fin 2606 where
  toFun p := ⟨1303 * p.1.val + p.2.val, by have := p.1.isLt; have := p.2.isLt; omega⟩
  invFun R := (⟨R.val / 1303, by have := R.isLt; omega⟩, ⟨R.val % 1303, by omega⟩)
  left_inv p := by
    obtain ⟨⟨b, hb⟩, ⟨n, hn⟩⟩ := p
    refine Prod.ext (Fin.ext ?_) (Fin.ext ?_)
    · show (1303 * b + n) / 1303 = b
      omega
    · show (1303 * b + n) % 1303 = n
      omega
  right_inv R := Fin.ext (by
    show 1303 * (R.val / 1303) + R.val % 1303 = R.val
    omega)

/-- A sum over the 2606 rows is the sum over the two sequences of the sums over the 1303 positions. -/
theorem sum_rows {M : Type*} [AddCommMonoid M] (f : Fin 2606 → M) :
    ∑ R, f R = ∑ b : Fin 2, ∑ n : Fin 1303, f ⟨1303 * b.val + n.val, by have := b.isLt; have := n.isLt; omega⟩ := by
  rw [← Equiv.sum_comp rowEquiv f, Fintype.sum_prod_type]
  rfl

/-- The sliced output times the broadcast weights, at row `R` and branch `br`: the output's entry there times the
    branch's weight. -/
theorem cell (out : FVec Ideal S2688x2 .f32) (cst : FVec Ideal S2 .f32) (hcst : ∀ br : Fin 2, cst (ix1 br) = Cert.Spec.wt br)
    (R : Fin 2606) (br : Fin 2) :
    mulf (extractStridedSlice S2606x2 ![0, 0] out slices_S2688x2_S2606x2_0_0)
        (broadcastInDim S2606x2 ![0, 1] bcast_S1x2_S2606x2_0_1 (broadcastInDim S1x2 ![1] bcast_S2_S1x2_1 cst)) (ix2 R br)
      = out (ix2 (⟨R.val, by have := R.isLt; omega⟩ : Fin 2688) br) * Cert.Spec.wt br := by
  rw [mulf_apply]
  have e1 : extractStridedSlice S2606x2 ![0, 0] out slices_S2688x2_S2606x2_0_0 (ix2 R br)
      = out (ix2 (⟨R.val, by have := R.isLt; omega⟩ : Fin 2688) br) :=
    extractStridedSlice_apply ![0, 0] out slices_S2688x2_S2606x2_0_0 (ix2 R br) _ (fun a => by
      match a with
      | ⟨0, _⟩ => show R.val = 0 + R.val; omega
      | ⟨1, _⟩ => show br.val = 0 + br.val; omega)
  have e2 : broadcastInDim S2606x2 ![0, 1] bcast_S1x2_S2606x2_0_1 (broadcastInDim S1x2 ![1] bcast_S2_S1x2_1 cst) (ix2 R br)
      = broadcastInDim S1x2 ![1] bcast_S2_S1x2_1 cst (ix2 (0 : Fin 1) br) :=
    broadcastInDim_apply ![0, 1] bcast_S1x2_S2606x2_0_1 _ (ix2 R br) (ix2 (0 : Fin 1) br) (fun a => by
      match a with
      | ⟨0, _⟩ => show (0 : ℕ) = if (1 : ℕ) = 1 then 0 else R.val; rw [if_pos rfl]
      | ⟨1, _⟩ => show br.val = if (2 : ℕ) = 1 then 0 else br.val; rw [if_neg (by decide)])
  have e3 : broadcastInDim S1x2 ![1] bcast_S2_S1x2_1 cst (ix2 (0 : Fin 1) br) = cst (ix1 br) :=
    broadcastInDim_apply ![1] bcast_S2_S1x2_1 cst (ix2 (0 : Fin 1) br) (ix1 br) (fun a => by
      match a with
      | ⟨0, _⟩ => show br.val = if (2 : ℕ) = 1 then 0 else br.val; rw [if_neg (by decide)])
  rw [e1, e2, e3, hcst]

end Arithmetic

section Value

/-- The four operations on extended reals: if the region's output holds `g b n br` at row `1303 b + n`, column `br`,
    and the table of two numbers holds the two branch weights, then slicing to 2606 rows, weighting, adding everything
    up from zero and dividing by 5212 gives the weighted mean of `g`. The rows past 2606 are never read. -/
theorem tail_fn (out : FVec Ideal S2688x2 .f32) (cst : FVec Ideal S2 .f32) (g : Fin 2 → Fin 1303 → Fin 2 → EReal)
    (hout : ∀ (b : Fin 2) (n : Fin 1303) (br : Fin 2),
      out (ix2 (⟨1303 * b.val + n.val, by omega⟩ : Fin 2688) br) = g b n br)
    (hcst : ∀ br : Fin 2, cst (ix1 br) = Cert.Spec.wt br) :
    Host.divf
      (Host.reduceAdd
        (mulf (extractStridedSlice S2606x2 ![0, 0] out slices_S2688x2_S2606x2_0_0)
          (broadcastInDim S2606x2 ![0, 1] bcast_S1x2_S2606x2_0_1 (broadcastInDim S1x2 ![1] bcast_S2_S1x2_1 cst)))
        (constant (F := Ideal) S_ .f32 0x00000000#32) reducesTo_S2606x2_S_d0_1 h_S_)
      (constant (F := Ideal) S_ .f32 0x45A2E000#32) = fun _ => Cert.Spec.mean g := by
  funext j
  -- the total: zero plus the sum over sequences, positions and branches of the weighted entries
  have hsum : Host.reduceAdd
        (mulf (extractStridedSlice S2606x2 ![0, 0] out slices_S2688x2_S2606x2_0_0)
          (broadcastInDim S2606x2 ![0, 1] bcast_S1x2_S2606x2_0_1 (broadcastInDim S1x2 ![1] bcast_S2_S1x2_1 cst)))
        (constant (F := Ideal) S_ .f32 0x00000000#32) reducesTo_S2606x2_S_d0_1 h_S_ j
      = 0 + ∑ b : Fin 2, ∑ n : Fin 1303, ∑ br : Fin 2, g b n br * Cert.Spec.wt br := by
    unfold Host.reduceAdd
    rw [Ideal.hostReduceAdd_def, Ideal.hostReduceAdd_total reducesTo_S2606x2_S_d0_1 (fun b => b.elim0), constant_apply,
      Ideal.ofBits_zero_f32, sum_idx2, sum_rows]
    refine congrArg (fun s : EReal => 0 + s) ?_
    refine Finset.sum_congr rfl fun b _ => Finset.sum_congr rfl fun n _ => Finset.sum_congr rfl fun br _ => ?_
    exact (cell out cst hcst _ br).trans (congrArg (fun x : EReal => x * Cert.Spec.wt br) (hout b n br))
  show Ideal.div _ _ = _
  rw [hsum, constant_apply]
  rfl

end Value

section Table

/-- The table of two numbers is written by the program's first operation and by no later one before the region, so
    it holds the constant's two words when the region is entered. -/
theorem V0_cst (c : Dev nD) :
    (V0 m c (Proc.devRef .tc main_cst) : S2.Idx → EReal) = fun i => FloatOps.ofBits (F := Ideal) .f32 (lit0 (S2.rowMajor i)) := by
  show StableHlo.after (List.flatten [hostOps0, hostOps0_1, hostOps0_2, hostOps0_3, hostOps0_4]) (fun b => m (c, b))
      (Proc.devRef .tc main_cst) = _
  simp only [Gen.hostOps0, Gen.hostOps0_1, Gen.hostOps0_2, Gen.hostOps0_3, Gen.hostOps0_4, List.flatten_cons, List.flatten_nil,
    List.append_nil, List.cons_append, List.nil_append]
  rw [StableHlo.after_cons]
  refine (StableHlo.after_of_forall_not_mem (b := Proc.devRef .tc main_cst) _ _ (List.forall_iff_forall_mem.mp ?_)).trans ?_
  · simp only [List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)
  · exact StableHlo.nullary_result _ _ _ _

/-- Its two entries are the two branch weights: one, and one quarter. -/
theorem cst_wt (br : Fin 2) : (FloatOps.ofBits (F := Ideal) .f32 (lit0 (S2.rowMajor (ix1 br))) : EReal) = Cert.Spec.wt br := by
  have hx : S2.rowMajor (ix1 br) = br := Fin.ext (Shape.rowMajor_val_one (ix1 br))
  rw [hx]
  unfold Cert.Spec.wt
  rcases br with ⟨_ | _ | k, h⟩
  · rw [if_pos rfl]
    show Ideal.ofBits .f32 (lit0 ⟨0, h⟩) = Ideal.ofBits .f32 0x3F800000#32
    exact congrArg (Ideal.ofBits .f32) rfl
  · rw [if_neg (by show ¬(0 + 1 = 0); omega)]
    show Ideal.ofBits .f32 (lit0 ⟨1, h⟩) = Ideal.ofBits .f32 0x3E800000#32
    exact congrArg (Ideal.ofBits .f32) rfl
  · exact absurd h (by omega)

end Table

section Run

/-- The frame run with the result named. -/
theorem run_value : θ_run (defs (F := Ideal)) (onTc (τ := τ) (main (F := Ideal))) ⟨m, fun _ => 0, ρ⟩ (fun r => ∀ c : Dev nD,
      r.2.mem ((c.tc : Thread nD τ).loc main_v49) = Pipeline.afterTail₀ cfgs (dats m) 0 (V0 m) [hostOps1] c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c).2 main_v49 (Pipeline.mem_restRefs_of main_v49 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 2).trans (((dats m 0 c).arrAt_in 2 rfl _).trans ((A_eq m c 2).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

/-- THE TAIL'S VALUE: if the output array after the region holds `g b n br` at row `1303·b + n`, column `br`, the
    program's result is the weighted mean of `g`. -/
theorem tail_mean (c : Dev nD) (g : Fin 2 → Fin 1303 → Fin 2 → EReal)
    (hG : ∀ (b : Fin 2) (n : Fin 1303) (br : Fin 2),
      ((dats m 0 c).arrAt 6 cfg0.N : S2688x2.Idx → EReal) (ix2 (⟨1303 * b.val + n.val, by omega⟩ : Fin 2688) br) = g b n br) :
    Pipeline.afterTail₀ cfgs (dats m) 0 (V0 m) [hostOps1] c main_v49 = fun _ => Cert.Spec.mean g := by
  have e43 : Pipeline.withArrays (cfgs 0).spec c (V0 m c) (fun w => (dats m 0 c).arrAt w (cfgs 0).N) (Proc.devRef .tc main_v43)
      = (dats m 0 c).arrAt 6 cfg0.N :=
    Pipeline.withArrays_arr spec0 launch0.win.arr_inj c _ _ 6
  have ecst : Pipeline.withArrays (cfgs 0).spec c (V0 m c) (fun w => (dats m 0 c).arrAt w (cfgs 0).N) (Proc.devRef .tc main_cst)
      = V0 m c (Proc.devRef .tc main_cst) :=
    Pipeline.withArrays_of_ne _ c (V0 m c) _ main_cst (by exact (by decide : ∀ w, Pipeline.arrRef spec0 w ≠ main_cst))
  unfold Pipeline.afterTail₀
  simp only [List.flatten_cons, List.flatten_nil, List.append_nil]
  show StableHlo.after hostOps1 _ (Proc.devRef .tc main_v49) = _
  simp only [Gen.hostOps1]
  after_results
  rw [e43, ecst, V0_cst]
  exact tail_fn _ _ g hG (fun br => cst_wt br)

end Run

end Cert.KernelIdeal.KTail

end
-- ==== Proof.KValue.lean ====
/-
  The kernel program's result in the specification's terms: the weighted mean, over the 2 × 1303 rows and the two
  branches, of the accumulated negative log-likelihood of the row's branch at the row's label. Padded row
  `1303·b + n` is gathered row `(b, n)`; a label word in `[0, 32000)` masks exactly its own class, so the masked sum
  over all 32000 classes is the logit at the label.
-/
import proofs.«421797_j22849226015448_2_alg».proof.Proof.KFinal
import proofs.«421797_j22849226015448_2_alg».proof.Proof.KTail

set_option maxRecDepth 16384

noncomputable section

namespace Cert.KernelIdeal.KValue

open Cert.KernelIdeal Cert.KernelIdeal.Gen Cert.KernelIdeal.KStepInv
open Cert.KernelIdeal.KHost Cert.KernelIdeal.KInv Cert.KernelIdeal.KFinal Cert.LseMath
open Idealize.ShloMosaic Idealize.ShloMosaic.ValueIdx Idealize.ShloMosaic.TcCoe Idealize.SL.Sem

/-- A label word that is a class index masks exactly that class. -/
theorem msum_eq (X : ℕ → EReal) (lw : BitVec 32) (N : ℕ) (hN : N ≤ 2 ^ 32) (hl : lw.toNat < N) :
    msum X lw N = X lw.toNat := by
  unfold msum
  rw [Finset.sum_eq_single lw.toNat]
  · rw [if_pos (BitVec.eq_of_toNat_eq (by rw [BitVec.toNat_ofNat]; exact Nat.mod_eq_of_lt lw.isLt))]
  · intro q hq hne
    rw [if_neg]
    intro h
    apply hne
    have hq' : q < N := Finset.mem_range.mp hq
    rw [← h, BitVec.toNat_ofNat, Nat.mod_eq_of_lt (by omega)]
  · intro h
    exact absurd (Finset.mem_range.mpr hl) h

/-- A word whose signed value is in `[0, 32000)` has that unsigned value. -/
theorem toNat_lt_of_toInt (w : BitVec 32) (h : 0 ≤ w.toInt ∧ w.toInt < 32000) : w.toNat < 32000 := by
  have hw := w.isLt
  obtain ⟨h0, h1⟩ := h
  unfold BitVec.toInt at h0 h1
  split at h0 <;> omega

variable (m : (ℓ : Loc nD τ sig) → Buf (Elt Ideal) ℓ) (c : Dev nD)

/-- Padded row `1303·b + n` is gathered row `(b, n)`. -/
theorem rowIn_eq (b : Fin 2) (n : Fin 1303) :
    rowIn m c (1303 * b.val + n.val)
      = fun k => KHost.fb (F := Ideal) (a0 m c) (a1 m c) (a3 m c) (a4 m c) (ix3 b n k) := by
  have hb := b.isLt
  have hn := n.isLt
  funext k
  unfold rowIn
  rw [dif_pos (by omega)]
  have e1 : (⟨(1303 * b.val + n.val) / 1303, by omega⟩ : Fin 2) = b := Fin.ext (by simp only []; omega)
  have e2 : (⟨(1303 * b.val + n.val) % 1303, Nat.mod_lt _ (by decide)⟩ : Fin 1303) = n := Fin.ext (by simp only []; omega)
  rw [e1, e2]

/-- Its label word likewise. -/
theorem LW_eq (b : Fin 2) (n : Fin 1303) (br : Fin 2) :
    LW m c (1303 * b.val + n.val) br = KHost.lbl (a2 m c) (a3 m c) (a4 m c) (ix3 b n br) := by
  have hb := b.isLt
  have hn := n.isLt
  unfold LW
  rw [dif_pos (by omega)]
  have e1 : (⟨(1303 * b.val + n.val) / 1303, by omega⟩ : Fin 2) = b := Fin.ext (by simp only []; omega)
  have e2 : (⟨(1303 * b.val + n.val) % 1303, Nat.mod_lt _ (by decide)⟩ : Fin 1303) = n := Fin.ext (by simp only []; omega)
  rw [e1, e2]

section Main
variable (hfb : ∀ i, KHost.fb (F := Ideal) (a0 m c) (a1 m c) (a3 m c) (a4 m c) i ≠ ⊥
    ∧ KHost.fb (F := Ideal) (a0 m c) (a1 m c) (a3 m c) (a4 m c) i ≠ ⊤)
  (h5 : ∀ i, a5 m c i ≠ ⊥ ∧ a5 m c i ≠ ⊤) (h6 : ∀ i, a6 m c i ≠ ⊥ ∧ a6 m c i ≠ ⊤)
  (h7 : ∀ i, a7 m c i ≠ ⊥ ∧ a7 m c i ≠ ⊤) (h8 : ∀ i, a8 m c i ≠ ⊥ ∧ a8 m c i ≠ ⊤)
  (hlbl : ∀ i, 0 ≤ (KHost.lbl (a2 m c) (a3 m c) (a4 m c) i).toInt ∧ (KHost.lbl (a2 m c) (a3 m c) (a4 m c) i).toInt < 32000)
include hfb h5 h6 h7 h8 hlbl

/-- THE KERNEL PROGRAM'S RESULT: the weighted mean of the accumulated negative log-likelihoods. -/
theorem kernel_value :
    Pipeline.afterTail₀ cfgs (dats m) 0 (V0 m) [hostOps1] c main_v49
      = fun _ => Cert.Spec.mean (fun b n br => Cert.Spec.nllKer
          (Cert.Spec.branch (Cert.Spec.logit
            (Cert.Spec.hidRow (fun k => KHost.fb (F := Ideal) (a0 m c) (a1 m c) (a3 m c) (a4 m c) (ix3 b n k)) (w1f m c) (b1f m c))
            (w2f m c) (b2f m c)) br)
          (KHost.lbl (a2 m c) (a3 m c) (a4 m c) (ix3 b n br)).toNat) := by
  refine KTail.tail_mean m c _ (fun b n br => ?_)
  rw [final m c hfb h5 h6 h7 h8]
  show nllAt m c (1303 * b.val + n.val) br = _
  have hl := toNat_lt_of_toInt _ (hlbl (ix3 b n br))
  unfold nllAt Cert.Spec.nllKer
  rw [LW_eq, msum_eq _ _ 32000 (by norm_num) hl]
  unfold Xseq Hrow
  rw [rowIn_eq]

end Main

end Cert.KernelIdeal.KValue

end
-- ==== Proof.RefStages.lean ====
/-
  The reference program's value, as pure functions of the argument arrays.

  Each definition below is the composition of a run of consecutive operations of the reference
  program: every value of that run is one binding, under the value's own name, equal to its
  operation applied to the bindings of its operands. The arguments are the contents of the nine
  argument arrays, and `result` is the scalar the program returns.

  In words: two index vectors (negative entries wrapped by the row count 512) pick rows out of the
  two feature arrays and out of the label table; the picked feature rows are laid side by side,
  passed through an affine map and a leaky rectifier (slope 0x3C23D70A below zero), then through a
  second affine map whose 64000 outputs are read as two groups of 32000; each group is
  log-normalised (subtract the maximum, subtract the logarithm of the sum of exponentials); the entry
  at each label is taken (an out-of-range label yields the quiet not-a-number 0x7FC00000), negated,
  weighted by 1 for the first group and one quarter for the second, summed, and divided by 5212.
-/
import proofs.«421797_j22849226015448_2_alg».proof.ReferenceIdeal

noncomputable section

namespace Cert.ReferenceIdeal.RefStages

open Idealize.ShloMosaic Cert.ReferenceIdeal
open Facts₀ Facts

variable {F : FTy → Type} [FloatOps F] [Facts]

/-- Values %0 … %14: each index vector is compared with zero, 512 is added to it, and the sum is
    kept where the index was negative; the wrapped indices, as a column, pick 1303 rows of each
    feature array; the two picked arrays are joined along the last axis. -/
def fb (a0 a1 : FVec F S2x512x512 .f32) (a3 a4 : IVec S1303 32) : FVec F S2x1303x1024 .f32 :=
  let c : IVec S_ 32 := constantI S_ 32 0#32
  let v0 : IVec S1303 32 := broadcastInDim S1303 ![] bcast_S_S1303 c
  let v1 : IVec S1303 1 := cmpi .slt a3 v0
  let c_0 : IVec S_ 32 := constantI S_ 32 512#32
  let v2 : IVec S1303 32 := broadcastInDim S1303 ![] bcast_S_S1303 c_0
  let v3 : IVec S1303 32 := addi a3 v2
  let v4 : IVec S1303 32 := select v1 v3 a3
  let v5 : IVec S1303x1 32 := broadcastInDim S1303x1 ![0] bcast_S1303_S1303x1_0 v4
  let v6 : FVec F S2x1303x512 .f32 := Host.gather gather_S2x512x512_S1303x1_S2x1303x512_02_1_n_n_1_1_21512 a0 v5
  let c_1 : IVec S_ 32 := constantI S_ 32 0#32
  let v7 : IVec S1303 32 := broadcastInDim S1303 ![] bcast_S_S1303 c_1
  let v8 : IVec S1303 1 := cmpi .slt a4 v7
  let c_2 : IVec S_ 32 := constantI S_ 32 512#32
  let v9 : IVec S1303 32 := broadcastInDim S1303 ![] bcast_S_S1303 c_2
  let v10 : IVec S1303 32 := addi a4 v9
  let v11 : IVec S1303 32 := select v8 v10 a4
  let v12 : IVec S1303x1 32 := broadcastInDim S1303x1 ![0] bcast_S1303_S1303x1_0 v11
  let v13 : FVec F S2x1303x512 .f32 := Host.gather gather_S2x512x512_S1303x1_S2x1303x512_02_1_n_n_1_1_21512 a1 v12
  let v14 : FVec F S2x1303x1024 .f32 :=
    concatenate S2x1303x1024 2 [⟨S2x1303x512, v6⟩, ⟨S2x1303x512, v13⟩] concatenates_S2x1303x512_S2x1303x512_S2x1303x1024_d2
  v14

/-- Values %26 … %42: the same two wrapped index columns pick 1303 columns of the label table;
    each picked array gains a trailing axis of length one, and the two are joined along it. -/
def lbl (a2 : IVec S2x512 32) (a3 a4 : IVec S1303 32) : IVec S2x1303x2 32 :=
  let c_3 : IVec S_ 32 := constantI S_ 32 0#32
  let v26 : IVec S1303 32 := broadcastInDim S1303 ![] bcast_S_S1303 c_3
  let v27 : IVec S1303 1 := cmpi .slt a3 v26
  let c_4 : IVec S_ 32 := constantI S_ 32 512#32
  let v28 : IVec S1303 32 := broadcastInDim S1303 ![] bcast_S_S1303 c_4
  let v29 : IVec S1303 32 := addi a3 v28
  let v30 : IVec S1303 32 := select v27 v29 a3
  let v31 : IVec S1303x1 32 := broadcastInDim S1303x1 ![0] bcast_S1303_S1303x1_0 v30
  let v32 : IVec S2x1303 32 := Host.gather gather_S2x512_S1303x1_S2x1303_0_1_n_n_1_1_21 a2 v31
  let c_5 : IVec S_ 32 := constantI S_ 32 0#32
  let v33 : IVec S1303 32 := broadcastInDim S1303 ![] bcast_S_S1303 c_5
  let v34 : IVec S1303 1 := cmpi .slt a4 v33
  let c_6 : IVec S_ 32 := constantI S_ 32 512#32
  let v35 : IVec S1303 32 := broadcastInDim S1303 ![] bcast_S_S1303 c_6
  let v36 : IVec S1303 32 := addi a4 v35
  let v37 : IVec S1303 32 := select v34 v36 a4
  let v38 : IVec S1303x1 32 := broadcastInDim S1303x1 ![0] bcast_S1303_S1303x1_0 v37
  let v39 : IVec S2x1303 32 := Host.gather gather_S2x512_S1303x1_S2x1303_0_1_n_n_1_1_21 a2 v38
  let v40 : IVec S2x1303x1 32 := broadcastInDim S2x1303x1 ![0, 1] bcast_S2x1303_S2x1303x1_0_1 v32
  let v41 : IVec S2x1303x1 32 := broadcastInDim S2x1303x1 ![0, 1] bcast_S2x1303_S2x1303x1_0_1 v39
  let v42 : IVec S2x1303x2 32 :=
    concatenate S2x1303x2 2 [⟨S2x1303x1, v40⟩, ⟨S2x1303x1, v41⟩] concatenates_S2x1303x1_S2x1303x1_S2x1303x2_d2
  v42

/-- Values %15 … %19: the contraction of the joined features with the first weight matrix over
    the last axis, plus the bias along that axis; then the leaky rectifier's body: where the sum
    is at least zero it is kept, elsewhere it is multiplied by the constant 0x3C23D70A. -/
def hid (x : FVec F S2x1303x1024 .f32) (a5 : FVec F S1024x512 .f32) (a6 : FVec F S512 .f32) : FVec F S2x1303x512 .f32 :=
  let v15 : FVec F S2x1303x512 .f32 := Host.dotGeneral dot_S2x1303x1024_S1024x512_S2x1303x512_2_0_01_1_n_n none x a5
  let v16 : FVec F S1x1x512 .f32 := broadcastInDim S1x1x512 ![2] bcast_S512_S1x1x512_2 a6
  let v17 : FVec F S2x1303x512 .f32 := broadcastInDim S2x1303x512 ![0, 1, 2] bcast_S1x1x512_S2x1303x512_0_1_2 v16
  let v18 : FVec F S2x1303x512 .f32 := addf v15 v17
  let call0_cst : FVec F S_ .f32 := constant S_ .f32 0x00000000#32
  let call0_v0 : FVec F S2x1303x512 .f32 := broadcastInDim S2x1303x512 ![] bcast_S_S2x1303x512 call0_cst
  let call0_v1 : IVec S2x1303x512 1 := cmpf .oge v18 call0_v0
  let call0_cst_0 : FVec F S_ .f32 := constant S_ .f32 0x3C23D70A#32
  let call0_v2 : FVec F S2x1303x512 .f32 := broadcastInDim S2x1303x512 ![] bcast_S_S2x1303x512 call0_cst_0
  let call0_v3 : FVec F S2x1303x512 .f32 := mulf call0_v2 v18
  let v19 : FVec F S2x1303x512 .f32 := select call0_v1 v18 call0_v3
  v19

/-- Values %20 … %24: the contraction with the second weight matrix, plus its bias, read at the
    shape that splits the 64000 outputs into two groups of 32000. -/
def logits (h : FVec F S2x1303x512 .f32) (a7 : FVec F S512x64000 .f32) (a8 : FVec F S64000 .f32) : FVec F S2x1303x2x32000 .f32 :=
  let v20 : FVec F S2x1303x64000 .f32 := Host.dotGeneral dot_S2x1303x512_S512x64000_S2x1303x64000_2_0_01_1_n_n none h a7
  let v21 : FVec F S1x1x64000 .f32 := broadcastInDim S1x1x64000 ![2] bcast_S64000_S1x1x64000_2 a8
  let v22 : FVec F S2x1303x64000 .f32 := broadcastInDim S2x1303x64000 ![0, 1, 2] bcast_S1x1x64000_S2x1303x64000_0_1_2 v21
  let v23 : FVec F S2x1303x64000 .f32 := addf v20 v22
  let v24 : FVec F S2x1303x2x32000 .f32 := shapeCast S2x1303x2x32000 v23 shapeCasts_S2x1303x64000_S2x1303x2x32000
  v24

/-- The log-normalisation's body, values %0 … %11 of it: the maximum over the last axis (from
    minus infinity, and once more against minus infinity), spread back and subtracted; the
    exponential; its sum over the last axis from zero; the logarithm of that sum, spread back and
    subtracted from the shifted input. -/
def logSoftmax (x : FVec F S2x1303x2x32000 .f32) : FVec F S2x1303x2x32000 .f32 :=
  let cst : FVec F S_ .f32 := constant S_ .f32 0xFF800000#32
  let v0 : FVec F S2x1303x2 .f32 := Host.reduce FloatOps.maximumf x cst reducesTo_S2x1303x2x32000_S2x1303x2_d3 h_S_
  let cst_0 : FVec F S_ .f32 := constant S_ .f32 0xFF800000#32
  let v1 : FVec F S2x1303x2 .f32 := broadcastInDim S2x1303x2 ![] bcast_S_S2x1303x2 cst_0
  let v2 : FVec F S2x1303x2 .f32 := maximumf v1 v0
  let v3 : FVec F S2x1303x2x1 .f32 := broadcastInDim S2x1303x2x1 ![0, 1, 2] bcast_S2x1303x2_S2x1303x2x1_0_1_2 v2
  let v4 : FVec F S2x1303x2x32000 .f32 := broadcastInDim S2x1303x2x32000 ![0, 1, 2, 3] bcast_S2x1303x2x1_S2x1303x2x32000_0_1_2_3 v3
  let v5 : FVec F S2x1303x2x32000 .f32 := subf x v4
  let v6 : FVec F S2x1303x2x32000 .f32 := Host.exp v5
  let cst_1 : FVec F S_ .f32 := constant S_ .f32 0x00000000#32
  let v7 : FVec F S2x1303x2 .f32 := Host.reduceAdd v6 cst_1 reducesTo_S2x1303x2x32000_S2x1303x2_d3 h_S_
  let v8 : FVec F S2x1303x2x1 .f32 := broadcastInDim S2x1303x2x1 ![0, 1, 2] bcast_S2x1303x2_S2x1303x2x1_0_1_2 v7
  let v9 : FVec F S2x1303x2x1 .f32 := Host.log v8
  let v10 : FVec F S2x1303x2x32000 .f32 := broadcastInDim S2x1303x2x32000 ![0, 1, 2, 3] bcast_S2x1303x2x1_S2x1303x2x32000_0_1_2_3 v9
  let v11 : FVec F S2x1303x2x32000 .f32 := subf v5 v10
  v11

/-- Value %43, the body of the selection along the last axis, and value %45: the labels gain a
    trailing axis; a negative label has 32000 added; the label is in range when it is at least 0 and
    at most 31999; the entry of the last axis at the label is read (the read clamps the label), and
    kept where the label is in range, the constant 0x7FC00000 taking its place elsewhere; the
    trailing axis of length one is dropped. -/
def takeLabel (lp : FVec F S2x1303x2x32000 .f32) (l : IVec S2x1303x2 32) : FVec F S2x1303x2 .f32 :=
  let v43 : IVec S2x1303x2x1 32 := broadcastInDim S2x1303x2x1 ![0, 1, 2] bcast_S2x1303x2_S2x1303x2x1_0_1_2 l
  let call2_c : IVec S_ 32 := constantI S_ 32 0#32
  let call2_v0 : IVec S2x1303x2x1 32 := broadcastInDim S2x1303x2x1 ![] bcast_S_S2x1303x2x1 call2_c
  let call2_v1 : IVec S2x1303x2x1 1 := cmpi .slt v43 call2_v0
  let call2_c_0 : IVec S_ 32 := constantI S_ 32 32000#32
  let call2_v2 : IVec S2x1303x2x1 32 := broadcastInDim S2x1303x2x1 ![] bcast_S_S2x1303x2x1 call2_c_0
  let call2_v3 : IVec S2x1303x2x1 32 := addi v43 call2_v2
  let call2_v4 : IVec S2x1303x2x1 32 := select call2_v1 call2_v3 v43
  let call2_v5 : IVec S2x1303x2x1x1 32 := shapeCast S2x1303x2x1x1 call2_v4 shapeCasts_S2x1303x2x1_S2x1303x2x1x1
  let call2_c_1 : IVec S1 32 := constantI S1 32 31999#32
  let call2_c_2 : IVec S_ 32 := constantI S_ 32 0#32
  let call2_v6 : IVec S2x1303x2x1x1 32 := broadcastInDim S2x1303x2x1x1 ![] bcast_S_S2x1303x2x1x1 call2_c_2
  let call2_v7 : IVec S2x1303x2x1x1 1 := cmpi .sge call2_v5 call2_v6
  let call2_v8 : IVec S1x1x1x1x1 32 := broadcastInDim S1x1x1x1x1 ![4] bcast_S1_S1x1x1x1x1_4 call2_c_1
  let call2_v9 : IVec S2x1303x2x1x1 32 := broadcastInDim S2x1303x2x1x1 ![0, 1, 2, 3, 4] bcast_S1x1x1x1x1_S2x1303x2x1x1_0_1_2_3_4 call2_v8
  let call2_v10 : IVec S2x1303x2x1x1 1 := cmpi .sle call2_v5 call2_v9
  let call2_v11 : IVec S2x1303x2x1x1 1 := andi call2_v7 call2_v10
  let call2_c_3 : IVec S_ 1 := constantI S_ 1 1#1
  let call2_v12 : IVec S2x1303x2x1 1 := Host.reduce IntOp.andi call2_v11 call2_c_3 reducesTo_S2x1303x2x1x1_S2x1303x2x1_d4 h_S_
  let call2_v13 : FVec F S2x1303x2x1 .f32 := Host.gather gather_S2x1303x2x32000_S2x1303x2x1x1_S2x1303x2x1_n_3_012_012_3_4_1111 lp call2_v5
  let call2_cst : FVec F S_ .f32 := constant S_ .f32 0x7FC00000#32
  let call2_v14 : FVec F S2x1303x2x1 .f32 := broadcastInDim S2x1303x2x1 ![] bcast_S_S2x1303x2x1 call2_cst
  let v44 : FVec F S2x1303x2x1 .f32 := select call2_v12 call2_v13 call2_v14
  let v45 : FVec F S2x1303x2 .f32 := shapeCast S2x1303x2 v44 shapeCasts_S2x1303x2x1_S2x1303x2
  v45

/-- Values %46 … %51: the negation; the table of the two weights (1 and one quarter, as their bit
    patterns) spread along the last axis; the product; the sum of all entries from zero; the
    quotient by the constant 0x45A2E000 (5212). -/
def weightedMean (t : FVec F S2x1303x2 .f32) : FVec F S_ .f32 :=
  let cst : FVec F S2 .f32 := fun i => FloatOps.ofBits .f32 (lit0 (S2.rowMajor i))
  let v46 : FVec F S2x1303x2 .f32 := Host.negf t
  let v47 : FVec F S1x1x2 .f32 := broadcastInDim S1x1x2 ![2] bcast_S2_S1x1x2_2 cst
  let v48 : FVec F S2x1303x2 .f32 := broadcastInDim S2x1303x2 ![0, 1, 2] bcast_S1x1x2_S2x1303x2_0_1_2 v47
  let v49 : FVec F S2x1303x2 .f32 := mulf v46 v48
  let cst_7 : FVec F S_ .f32 := constant S_ .f32 0x00000000#32
  let v50 : FVec F S_ .f32 := Host.reduceAdd v49 cst_7 reducesTo_S2x1303x2_S_d0_1_2 h_S_
  let cst_8 : FVec F S_ .f32 := constant S_ .f32 0x45A2E000#32
  let v51 : FVec F S_ .f32 := Host.divf v50 cst_8
  v51

/-- The value the reference returns, of the nine argument arrays. -/
def result (a0 a1 : FVec F S2x512x512 .f32) (a2 : IVec S2x512 32) (a3 a4 : IVec S1303 32) (a5 : FVec F S1024x512 .f32)
    (a6 : FVec F S512 .f32) (a7 : FVec F S512x64000 .f32) (a8 : FVec F S64000 .f32) : FVec F S_ .f32 :=
  weightedMean (takeLabel (logSoftmax (logits (hid (fb a0 a1 a3 a4) a5 a6) a7 a8)) (lbl a2 a3 a4))

end Cert.ReferenceIdeal.RefStages

end
-- ==== Proof.RefValue.lean ====
/-
  The reference program's value read at an index, at the ideal instance (floats are extended reals).

  Each stage of the reference is read entry by entry: a gathered and joined feature entry is an entry of one of the
  two feature arrays, a gathered label is an entry of the label table; a hidden value is the leaky rectifier of a
  row's contraction with a column of the first weight matrix plus the bias; a logit is the contraction of the hidden
  row with a column of the second weight matrix plus the bias, class c of branch br being column 32000·br + c; the
  log-normalisation subtracts the row's maximum and the logarithm of the sum of exponentials; the selection along
  the last axis reads the entry at the label when the label lies in [0, 31999]; the weighted mean is the triple sum
  over rows and branches, divided by 5212. Together: the reference's scalar is the weighted mean of the negated
  two-pass log-softmax at each label.
-/
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.Affine
import proofs.«421797_j22849226015448_2_alg».proof.Proof.RefStages
import proofs.«421797_j22849226015448_2_alg».proof.Proof.Spec
import proofs.«421797_j22849226015448_2_alg».proof.Proof.LseMath

noncomputable section

namespace Cert.ReferenceIdeal.RefValue

open Cert.ReferenceIdeal Idealize.ShloMosaic Idealize.ShloMosaic.ValueIdx
open Facts₀ Facts

variable [Facts]

/-! ## Gathered entries are entries of the operands -/

/-- A gathered, joined feature entry is an entry of one of the two feature arrays. -/
theorem fb_mem (a0 a1 : FVec Ideal S2x512x512 .f32) (a3 a4 : IVec S1303 32) (i : S2x1303x1024.Idx) :
    (∃ j, RefStages.fb a0 a1 a3 a4 i = a0 j) ∨ (∃ j, RefStages.fb a0 a1 a3 a4 i = a1 j) := by
  by_cases h : (i 2).val < 512
  · left
    have e : RefStages.fb a0 a1 a3 a4 i = _ :=
      concatenate_pair_apply_left (s₁ := S2x1303x512) (s₂ := S2x1303x512) (2 : Fin 3) _ _
        concatenates_S2x1303x512_S2x1303x512_S2x1303x1024_d2 i rfl
        (ix3 (i 0) (i 1) (⟨(i 2).val, h⟩ : Fin 512))
        (fun b => match b with | ⟨0, _⟩ => rfl | ⟨1, _⟩ => rfl | ⟨2, _⟩ => rfl)
    exact ⟨_, e⟩
  · right
    have h2 : (i 2).val < 1024 := (i 2).isLt
    have e : RefStages.fb a0 a1 a3 a4 i = _ :=
      concatenate_pair_apply_right (s₁ := S2x1303x512) (s₂ := S2x1303x512) (2 : Fin 3) _ _
        concatenates_S2x1303x512_S2x1303x512_S2x1303x1024_d2 i rfl rfl
        (ix3 (i 0) (i 1) (⟨(i 2).val - 512, by omega⟩ : Fin 512))
        (fun b hb => match b, hb with | ⟨0, _⟩, _ => rfl | ⟨1, _⟩, _ => rfl | ⟨2, _⟩, hb => absurd rfl hb)
        (show (i 2).val - 512 + 512 = (i 2).val by omega)
    exact ⟨_, e⟩

/-- A gathered, joined label is an entry of the label table. -/
theorem lbl_mem (a2 : IVec S2x512 32) (a3 a4 : IVec S1303 32) (i : S2x1303x2.Idx) :
    ∃ j, RefStages.lbl a2 a3 a4 i = a2 j := by
  by_cases h : (i 2).val < 1
  · have e : RefStages.lbl a2 a3 a4 i = _ :=
      concatenate_pair_apply_left (s₁ := S2x1303x1) (s₂ := S2x1303x1) (2 : Fin 3) _ _
        concatenates_S2x1303x1_S2x1303x1_S2x1303x2_d2 i rfl
        (ix3 (i 0) (i 1) (⟨(i 2).val, h⟩ : Fin 1))
        (fun b => match b with | ⟨0, _⟩ => rfl | ⟨1, _⟩ => rfl | ⟨2, _⟩ => rfl)
    exact ⟨_, e⟩
  · have h2 : (i 2).val < 2 := (i 2).isLt
    have e : RefStages.lbl a2 a3 a4 i = _ :=
      concatenate_pair_apply_right (s₁ := S2x1303x1) (s₂ := S2x1303x1) (2 : Fin 3) _ _
        concatenates_S2x1303x1_S2x1303x1_S2x1303x2_d2 i rfl rfl
        (ix3 (i 0) (i 1) (⟨(i 2).val - 1, by omega⟩ : Fin 1))
        (fun b hb => match b, hb with | ⟨0, _⟩, _ => rfl | ⟨1, _⟩, _ => rfl | ⟨2, _⟩, hb => absurd rfl hb)
        (show (i 2).val - 1 + 1 = (i 2).val by omega)
    exact ⟨_, e⟩

/-! ## The first contraction's operand indices, axis by axis -/

theorem lhs1_0 (j : S2x1303x512.Idx) (k : dot_S2x1303x1024_S1024x512_S2x1303x512_2_0_01_1_n_n.contr.Idx) :
    (dot_S2x1303x1024_S1024x512_S2x1303x512_2_0_01_1_n_n.lhsIdx j k 0 : ℕ) = j 0 := by
  simp [DotDims.lhsIdx, dot_S2x1303x1024_S1024x512_S2x1303x512_2_0_01_1_n_n]; rfl
theorem lhs1_1 (j : S2x1303x512.Idx) (k : dot_S2x1303x1024_S1024x512_S2x1303x512_2_0_01_1_n_n.contr.Idx) :
    (dot_S2x1303x1024_S1024x512_S2x1303x512_2_0_01_1_n_n.lhsIdx j k 1 : ℕ) = j 1 := by
  simp [DotDims.lhsIdx, dot_S2x1303x1024_S1024x512_S2x1303x512_2_0_01_1_n_n]; rfl
theorem lhs1_2 (j : S2x1303x512.Idx) (k : dot_S2x1303x1024_S1024x512_S2x1303x512_2_0_01_1_n_n.contr.Idx) :
    (dot_S2x1303x1024_S1024x512_S2x1303x512_2_0_01_1_n_n.lhsIdx j k 2 : ℕ) = k ⟨0, Nat.one_pos⟩ :=
  DotDims.lhsIdx_val_of_single _ rfl j k
theorem rhs1_0 (j : S2x1303x512.Idx) (k : dot_S2x1303x1024_S1024x512_S2x1303x512_2_0_01_1_n_n.contr.Idx) :
    (dot_S2x1303x1024_S1024x512_S2x1303x512_2_0_01_1_n_n.rhsIdx j k 0 : ℕ) = k ⟨0, Nat.one_pos⟩ :=
  DotDims.rhsIdx_val_of_single _ rfl j k
theorem rhs1_1 (j : S2x1303x512.Idx) (k : dot_S2x1303x1024_S1024x512_S2x1303x512_2_0_01_1_n_n.contr.Idx) :
    (dot_S2x1303x1024_S1024x512_S2x1303x512_2_0_01_1_n_n.rhsIdx j k 1 : ℕ) = j 2 := by
  simp [DotDims.rhsIdx, dot_S2x1303x1024_S1024x512_S2x1303x512_2_0_01_1_n_n]; rfl

/-- The first contraction at a row and a column: the sum over the 1024 features. -/
theorem dot1_apply (x : FVec Ideal S2x1303x1024 .f32) (a5 : FVec Ideal S1024x512 .f32) (b : Fin 2) (n : Fin 1303) (d : Fin 512) :
    Host.dotGeneral (F := Ideal) dot_S2x1303x1024_S1024x512_S2x1303x512_2_0_01_1_n_n none x a5 (ix3 b n d)
      = ∑ k : Fin 1024, x (ix3 b n k) * a5 (ix2 k d) := by
  show FloatOps.dotGeneral dot_S2x1303x1024_S1024x512_S2x1303x512_2_0_01_1_n_n none .single x a5 (ix3 b n d) = _
  rw [Ideal.dotGeneral_apply, ← Equiv.sum_comp (contrEquiv1 dot_S2x1303x1024_S1024x512_S2x1303x512_2_0_01_1_n_n 1024 rfl rfl).symm]
  refine Finset.sum_congr rfl fun k _ => ?_
  have hl : dot_S2x1303x1024_S1024x512_S2x1303x512_2_0_01_1_n_n.lhsIdx (ix3 b n d) ((contrEquiv1 dot_S2x1303x1024_S1024x512_S2x1303x512_2_0_01_1_n_n 1024 rfl rfl).symm k) = ix3 b n k := by
    funext a; refine Fin.ext ?_
    match a with
    | ⟨0, _⟩ => exact lhs1_0 _ _
    | ⟨1, _⟩ => exact lhs1_1 _ _
    | ⟨2, _⟩ => exact (lhs1_2 _ _).trans (contrEquiv1_symm_val dot_S2x1303x1024_S1024x512_S2x1303x512_2_0_01_1_n_n 1024 rfl rfl k)
  have hr : dot_S2x1303x1024_S1024x512_S2x1303x512_2_0_01_1_n_n.rhsIdx (ix3 b n d) ((contrEquiv1 dot_S2x1303x1024_S1024x512_S2x1303x512_2_0_01_1_n_n 1024 rfl rfl).symm k) = ix2 k d := by
    funext a; refine Fin.ext ?_
    match a with
    | ⟨0, _⟩ => exact (rhs1_0 _ _).trans (contrEquiv1_symm_val dot_S2x1303x1024_S1024x512_S2x1303x512_2_0_01_1_n_n 1024 rfl rfl k)
    | ⟨1, _⟩ => exact rhs1_1 _ _
  rw [hl, hr]

/-- The first bias, spread over rows, at a row and a column: the bias of the column. -/
theorem bias1_apply (a6 : FVec Ideal S512 .f32) (b : Fin 2) (n : Fin 1303) (d : Fin 512) :
    broadcastInDim S2x1303x512 ![0, 1, 2] bcast_S1x1x512_S2x1303x512_0_1_2
        (broadcastInDim S1x1x512 ![2] bcast_S512_S1x1x512_2 a6) (ix3 b n d) = a6 (ix1 d) := by
  rw [broadcastInDim_apply _ _ _ (ix3 b n d) (ix3 (0 : Fin 1) (0 : Fin 1) d)
    (fun a => match a with | ⟨0, _⟩ => rfl | ⟨1, _⟩ => rfl | ⟨2, _⟩ => rfl)]
  exact broadcastInDim_apply _ _ _ _ (ix1 d) (fun a => match a with | ⟨0, _⟩ => rfl)

/-- A hidden value at a row and a column: the leaky rectifier of the row's contraction with the column of the first
    weight matrix, plus the column's bias. -/
theorem hid_apply (x : FVec Ideal S2x1303x1024 .f32) (a5 : FVec Ideal S1024x512 .f32) (a6 : FVec Ideal S512 .f32)
    (b : Fin 2) (n : Fin 1303) (d : Fin 512) :
    RefStages.hid x a5 a6 (ix3 b n d)
      = Cert.Spec.hidRow (fun k => x (ix3 b n k)) (fun k d => a5 (ix2 k d)) (fun d => a6 (ix1 d)) d := by
  show Cert.Spec.leaky (Host.dotGeneral (F := Ideal) dot_S2x1303x1024_S1024x512_S2x1303x512_2_0_01_1_n_n none x a5 (ix3 b n d)
      + broadcastInDim S2x1303x512 ![0, 1, 2] bcast_S1x1x512_S2x1303x512_0_1_2
          (broadcastInDim S1x1x512 ![2] bcast_S512_S1x1x512_2 a6) (ix3 b n d)) = _
  rw [dot1_apply, bias1_apply]
  rfl

/-! ## The second contraction's operand indices, axis by axis -/

theorem lhs2_0 (j : S2x1303x64000.Idx) (k : dot_S2x1303x512_S512x64000_S2x1303x64000_2_0_01_1_n_n.contr.Idx) :
    (dot_S2x1303x512_S512x64000_S2x1303x64000_2_0_01_1_n_n.lhsIdx j k 0 : ℕ) = j 0 := by
  simp [DotDims.lhsIdx, dot_S2x1303x512_S512x64000_S2x1303x64000_2_0_01_1_n_n]; rfl
theorem lhs2_1 (j : S2x1303x64000.Idx) (k : dot_S2x1303x512_S512x64000_S2x1303x64000_2_0_01_1_n_n.contr.Idx) :
    (dot_S2x1303x512_S512x64000_S2x1303x64000_2_0_01_1_n_n.lhsIdx j k 1 : ℕ) = j 1 := by
  simp [DotDims.lhsIdx, dot_S2x1303x512_S512x64000_S2x1303x64000_2_0_01_1_n_n]; rfl
theorem lhs2_2 (j : S2x1303x64000.Idx) (k : dot_S2x1303x512_S512x64000_S2x1303x64000_2_0_01_1_n_n.contr.Idx) :
    (dot_S2x1303x512_S512x64000_S2x1303x64000_2_0_01_1_n_n.lhsIdx j k 2 : ℕ) = k ⟨0, Nat.one_pos⟩ :=
  DotDims.lhsIdx_val_of_single _ rfl j k
theorem rhs2_0 (j : S2x1303x64000.Idx) (k : dot_S2x1303x512_S512x64000_S2x1303x64000_2_0_01_1_n_n.contr.Idx) :
    (dot_S2x1303x512_S512x64000_S2x1303x64000_2_0_01_1_n_n.rhsIdx j k 0 : ℕ) = k ⟨0, Nat.one_pos⟩ :=
  DotDims.rhsIdx_val_of_single _ rfl j k
theorem rhs2_1 (j : S2x1303x64000.Idx) (k : dot_S2x1303x512_S512x64000_S2x1303x64000_2_0_01_1_n_n.contr.Idx) :
    (dot_S2x1303x512_S512x64000_S2x1303x64000_2_0_01_1_n_n.rhsIdx j k 1 : ℕ) = j 2 := by
  simp [DotDims.rhsIdx, dot_S2x1303x512_S512x64000_S2x1303x64000_2_0_01_1_n_n]; rfl

/-- The second contraction at a row and a column: the sum over the 512 hidden values. -/
theorem dot2_apply (h : FVec Ideal S2x1303x512 .f32) (a7 : FVec Ideal S512x64000 .f32) (b : Fin 2) (n : Fin 1303) (c : Fin 64000) :
    Host.dotGeneral (F := Ideal) dot_S2x1303x512_S512x64000_S2x1303x64000_2_0_01_1_n_n none h a7 (ix3 b n c)
      = ∑ k : Fin 512, h (ix3 b n k) * a7 (ix2 k c) := by
  show FloatOps.dotGeneral dot_S2x1303x512_S512x64000_S2x1303x64000_2_0_01_1_n_n none .single h a7 (ix3 b n c) = _
  rw [Ideal.dotGeneral_apply, ← Equiv.sum_comp (contrEquiv1 dot_S2x1303x512_S512x64000_S2x1303x64000_2_0_01_1_n_n 512 rfl rfl).symm]
  refine Finset.sum_congr rfl fun k _ => ?_
  have hl : dot_S2x1303x512_S512x64000_S2x1303x64000_2_0_01_1_n_n.lhsIdx (ix3 b n c) ((contrEquiv1 dot_S2x1303x512_S512x64000_S2x1303x64000_2_0_01_1_n_n 512 rfl rfl).symm k) = ix3 b n k := by
    funext a; refine Fin.ext ?_
    match a with
    | ⟨0, _⟩ => exact lhs2_0 _ _
    | ⟨1, _⟩ => exact lhs2_1 _ _
    | ⟨2, _⟩ => exact (lhs2_2 _ _).trans (contrEquiv1_symm_val dot_S2x1303x512_S512x64000_S2x1303x64000_2_0_01_1_n_n 512 rfl rfl k)
  have hr : dot_S2x1303x512_S512x64000_S2x1303x64000_2_0_01_1_n_n.rhsIdx (ix3 b n c) ((contrEquiv1 dot_S2x1303x512_S512x64000_S2x1303x64000_2_0_01_1_n_n 512 rfl rfl).symm k) = ix2 k c := by
    funext a; refine Fin.ext ?_
    match a with
    | ⟨0, _⟩ => exact (rhs2_0 _ _).trans (contrEquiv1_symm_val dot_S2x1303x512_S512x64000_S2x1303x64000_2_0_01_1_n_n 512 rfl rfl k)
    | ⟨1, _⟩ => exact rhs2_1 _ _
  rw [hl, hr]

/-- The second bias, spread over rows, at a row and a column: the bias of the column. -/
theorem bias2_apply (a8 : FVec Ideal S64000 .f32) (b : Fin 2) (n : Fin 1303) (c : Fin 64000) :
    broadcastInDim S2x1303x64000 ![0, 1, 2] bcast_S1x1x64000_S2x1303x64000_0_1_2
        (broadcastInDim S1x1x64000 ![2] bcast_S64000_S1x1x64000_2 a8) (ix3 b n c) = a8 (ix1 c) := by
  rw [broadcastInDim_apply _ _ _ (ix3 b n c) (ix3 (0 : Fin 1) (0 : Fin 1) c)
    (fun a => match a with | ⟨0, _⟩ => rfl | ⟨1, _⟩ => rfl | ⟨2, _⟩ => rfl)]
  exact broadcastInDim_apply _ _ _ _ (ix1 c) (fun a => match a with | ⟨0, _⟩ => rfl)

/-- A logit at a row, a branch and a class: the hidden row's contraction with column 32000·br + c of the second weight
    matrix, plus that column's bias. -/
theorem logits_apply (h : FVec Ideal S2x1303x512 .f32) (a7 : FVec Ideal S512x64000 .f32) (a8 : FVec Ideal S64000 .f32)
    (b : Fin 2) (n : Fin 1303) (br : Fin 2) (c : Fin 32000) :
    RefStages.logits h a7 a8 (ix4 b n br c)
      = Cert.Spec.logit (fun k => h (ix3 b n k)) (fun k c => a7 (ix2 k c)) (fun c => a8 (ix1 c))
          ⟨32000 * br.val + c.val, by omega⟩ := by
  have hc : 32000 * br.val + c.val < 64000 := by omega
  show shapeCast S2x1303x2x32000
      (addf (Host.dotGeneral (F := Ideal) dot_S2x1303x512_S512x64000_S2x1303x64000_2_0_01_1_n_n none h a7)
        (broadcastInDim S2x1303x64000 ![0, 1, 2] bcast_S1x1x64000_S2x1303x64000_0_1_2
          (broadcastInDim S1x1x64000 ![2] bcast_S64000_S1x1x64000_2 a8)))
      shapeCasts_S2x1303x64000_S2x1303x2x32000 (ix4 b n br c) = _
  rw [shapeCast_apply _ _ (ix4 b n br c) (ix3 b n (⟨32000 * br.val + c.val, hc⟩ : Fin 64000)) (by
    rw [Shape.rowMajor_val_three, Shape.rowMajor_val_four]
    show (b.val * 1303 + n.val) * 64000 + (32000 * br.val + c.val) = ((b.val * 1303 + n.val) * 2 + br.val) * 32000 + c.val
    omega)]
  rw [addf_apply, dot2_apply, bias2_apply]
  rfl

/-! ## The log-normalisation at an index -/

/-- A value per row and branch, given a trailing axis of length one, reads the row's value. -/
theorem keep3_apply {α : Type} (v : S2x1303x2.Idx → α) (b : Fin 2) (n : Fin 1303) (br : Fin 2) (u : Fin 1) :
    broadcastInDim S2x1303x2x1 ![0, 1, 2] bcast_S2x1303x2_S2x1303x2x1_0_1_2 v (ix4 b n br u) = v (ix3 b n br) :=
  broadcastInDim_apply _ _ _ _ (ix3 b n br) (fun a => match a with | ⟨0, _⟩ => rfl | ⟨1, _⟩ => rfl | ⟨2, _⟩ => rfl)

/-- A column of length one spread along the class axis reads its one entry. -/
theorem spread4_apply {α : Type} (w : S2x1303x2x1.Idx → α) (b : Fin 2) (n : Fin 1303) (br : Fin 2) (c : Fin 32000) :
    broadcastInDim S2x1303x2x32000 ![0, 1, 2, 3] bcast_S2x1303x2x1_S2x1303x2x32000_0_1_2_3 w (ix4 b n br c)
      = w (ix4 b n br (0 : Fin 1)) :=
  broadcastInDim_apply _ _ _ _ (ix4 b n br (0 : Fin 1))
    (fun a => match a with | ⟨0, _⟩ => rfl | ⟨1, _⟩ => rfl | ⟨2, _⟩ => rfl | ⟨3, _⟩ => rfl)

/-- The logarithm and the exponential of an array, read at an index, are those of the entry there. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The word 0xFF800000 is minus infinity. -/
theorem ofBits_neg_inf : Ideal.ofBits .f32 0xFF800000#32 = (⊥ : EReal) := by simp [Ideal.ofBits, Ideal.ieee]

/-- The row index with the class coordinate inserted on the last axis. -/
theorem lift_last (hR : S2x1303x2x32000.Reduces [3] S2x1303x2) (b : Fin 2) (n : Fin 1303) (br : Fin 2) (c : Fin 32000) :
    hR.lift (ix3 b n br) c = ix4 b n br c := by
  funext a; refine Fin.ext ?_
  match a with
  | ⟨0, _⟩ => rfl
  | ⟨1, _⟩ => rfl
  | ⟨2, _⟩ => rfl
  | ⟨3, _⟩ => rfl

/-- The shift of a row: the maximum of minus infinity and the row's maximum from minus infinity. -/
def shift (x : FVec Ideal S2x1303x2x32000 .f32) : FVec Ideal S2x1303x2 .f32 :=
  maximumf (broadcastInDim S2x1303x2 ![] bcast_S_S2x1303x2 (constant (F := Ideal) S_ .f32 0xFF800000#32))
    (Host.reduce FloatOps.maximumf x (constant (F := Ideal) S_ .f32 0xFF800000#32) reducesTo_S2x1303x2x32000_S2x1303x2_d3 h_S_)

/-- The input less its row's shift. -/
def shifted (x : FVec Ideal S2x1303x2x32000 .f32) : FVec Ideal S2x1303x2x32000 .f32 :=
  subf x (broadcastInDim S2x1303x2x32000 ![0, 1, 2, 3] bcast_S2x1303x2x1_S2x1303x2x32000_0_1_2_3
    (broadcastInDim S2x1303x2x1 ![0, 1, 2] bcast_S2x1303x2_S2x1303x2x1_0_1_2 (shift x)))

/-- The log-normalisation is the shifted input less the logarithm of the row sum of its exponentials. -/
theorem logSoftmax_eq (x : FVec Ideal S2x1303x2x32000 .f32) :
    RefStages.logSoftmax x
      = subf (shifted x) (broadcastInDim S2x1303x2x32000 ![0, 1, 2, 3] bcast_S2x1303x2x1_S2x1303x2x32000_0_1_2_3
          (Host.log (broadcastInDim S2x1303x2x1 ![0, 1, 2] bcast_S2x1303x2_S2x1303x2x1_0_1_2
            (Host.reduceAdd (Host.exp (shifted x)) (constant (F := Ideal) S_ .f32 0x00000000#32)
              reducesTo_S2x1303x2x32000_S2x1303x2_d3 h_S_)))) := rfl

/-- The shift of row (b, n), branch br. -/
theorem shift_apply (x : FVec Ideal S2x1303x2x32000 .f32) (b : Fin 2) (n : Fin 1303) (br : Fin 2) :
    shift x (ix3 b n br) = max ⊥ ((Finset.univ : Finset (Fin 32000)).fold max ⊥ (fun c' => x (ix4 b n br c'))) := by
  have hR : S2x1303x2x32000.Reduces [3] S2x1303x2 := by decide
  unfold shift
  rw [maximumf_apply, Host.reduce_eq_fold_single FloatOps.maximumf x _ reducesTo_S2x1303x2x32000_S2x1303x2_d3 hR h_S_]
  show max (Ideal.ofBits .f32 0xFF800000#32)
      ((Finset.univ : Finset (Fin 32000)).fold max (Ideal.ofBits .f32 0xFF800000#32) (x ∘ hR.lift (ix3 b n br))) = _
  rw [ofBits_neg_inf]
  congr 2
  funext c'
  exact congrArg x (lift_last hR b n br c')

/-- The shifted input at an index: the entry less its row's shift. -/
theorem shifted_apply (x : FVec Ideal S2x1303x2x32000 .f32) (b : Fin 2) (n : Fin 1303) (br : Fin 2) (c : Fin 32000) :
    shifted x (ix4 b n br c)
      = x (ix4 b n br c) - max ⊥ ((Finset.univ : Finset (Fin 32000)).fold max ⊥ (fun c' => x (ix4 b n br c'))) := by
  unfold shifted
  rw [subf_apply, spread4_apply, keep3_apply, shift_apply]

/-- A sum over the class axis from zero, at a row and a branch. -/
theorem rowSum_apply (y : FVec Ideal S2x1303x2x32000 .f32) (b : Fin 2) (n : Fin 1303) (br : Fin 2) :
    Host.reduceAdd y (constant (F := Ideal) S_ .f32 0x00000000#32) reducesTo_S2x1303x2x32000_S2x1303x2_d3 h_S_ (ix3 b n br)
      = 0 + ∑ c' : Fin 32000, y (ix4 b n br c') := by
  have hR : S2x1303x2x32000.Reduces [3] S2x1303x2 := by decide
  show Ideal.hostReduceAdd reducesTo_S2x1303x2x32000_S2x1303x2_d3 y (Ideal.ofBits .f32 0x00000000#32) (ix3 b n br) = _
  rw [Ideal.hostReduceAdd_single _ hR, Ideal.ofBits_zero_f32]
  exact congrArg (fun z : EReal => 0 + z) (Finset.sum_congr rfl fun c' _ => congrArg y (lift_last hR b n br c'))

/-- A log-normalised entry: the entry less its row's shift, less the logarithm of the sum from zero of the exponentials
    of the row's shifted entries. -/
theorem logSoftmax_apply (x : FVec Ideal S2x1303x2x32000 .f32) (b : Fin 2) (n : Fin 1303) (br : Fin 2) (c : Fin 32000) :
    RefStages.logSoftmax x (ix4 b n br c)
      = (x (ix4 b n br c) - max ⊥ ((Finset.univ : Finset (Fin 32000)).fold max ⊥ (fun c' => x (ix4 b n br c'))))
        - Ideal.log (0 + ∑ c' : Fin 32000,
            Ideal.exp (x (ix4 b n br c') - max ⊥ ((Finset.univ : Finset (Fin 32000)).fold max ⊥ (fun c' => x (ix4 b n br c'))))) := by
  rw [logSoftmax_eq, subf_apply, shifted_apply, spread4_apply, hostLog_apply, keep3_apply, rowSum_apply]
  have hsum : (∑ c' : Fin 32000, Host.exp (shifted x) (ix4 b n br c'))
      = ∑ c' : Fin 32000, Ideal.exp (x (ix4 b n br c')
          - max ⊥ ((Finset.univ : Finset (Fin 32000)).fold max ⊥ (fun c' => x (ix4 b n br c')))) :=
    Finset.sum_congr rfl fun c' _ => by rw [hostExp_apply, shifted_apply]
  rw [hsum]

/-! ## The selection along the last axis -/

/-- A 32-bit word whose signed reading lies in [0, 32000) reads the same unsigned, below 32000. -/
theorem toNat_lt_of_toInt (v : BitVec 32) (h : 0 ≤ v.toInt ∧ v.toInt < 32000) : v.toNat < 32000 := by
  have e := BitVec.toInt_eq_toNat_cond v
  have hlt := v.isLt
  split at e <;> omega
/-- … and the natural number of its signed reading is its unsigned reading. -/
theorem toInt_toNat_of_toInt (v : BitVec 32) (h : 0 ≤ v.toInt ∧ v.toInt < 32000) : v.toInt.toNat = v.toNat := by
  have e := BitVec.toInt_eq_toNat_cond v
  have hlt := v.isLt
  split at e <;> omega

private theorem mem012_0 : (0 : Fin 4) ∈ ([0, 1, 2] : List (Fin 4)) := by decide
private theorem mem012_1 : (1 : Fin 4) ∈ ([0, 1, 2] : List (Fin 4)) := by decide
private theorem mem012_2 : (2 : Fin 4) ∈ ([0, 1, 2] : List (Fin 4)) := by decide
private theorem notMem012_3 : (3 : Fin 4) ∉ ([0, 1, 2] : List (Fin 4)) := by decide
private theorem mem3_3 : (3 : Fin 4) ∈ ([3] : List (Fin 4)) := by decide
private theorem cover4 : ∀ a : Fin 4, a ∉ ([3] : List (Fin 4)) → a ∉ ([0, 1, 2] : List (Fin 4)) → False := by decide

/-- No operand axis of the selection's gather is an offset axis: each is the collapsed one or a batching one. -/
theorem takeG_offCoord (j : S2x1303x2x1.Idx) (a : Fin 4) :
    gather_S2x1303x2x32000_S2x1303x2x1x1_S2x1303x2x1_n_3_012_012_3_4_1111.offCoord j a = 0 := by
  refine GatherDims.offCoord_eq_zero gather_S2x1303x2x32000_S2x1303x2x1x1_S2x1303x2x1_n_3_012_012_3_4_1111 j a fun h => ?_
  have h' := (GatherDims.mem_sKept gather_S2x1303x2x32000_S2x1303x2x1x1_S2x1303x2x1_n_3_012_012_3_4_1111 a).1 h
  exact cover4 a h'.1 h'.2

/-- On a batching axis the operand coordinate is the result's coordinate on that axis. -/
theorem takeG_coord0 (j : S2x1303x2x1.Idx) (idx : IVec S2x1303x2x1x1 32) :
    (gather_S2x1303x2x32000_S2x1303x2x1x1_S2x1303x2x1_n_3_012_012_3_4_1111.operandIdx j idx 0 : ℕ) = j 0 := by
  show gather_S2x1303x2x32000_S2x1303x2x1x1_S2x1303x2x1_n_3_012_012_3_4_1111.start j idx 0 + gather_S2x1303x2x32000_S2x1303x2x1x1_S2x1303x2x1_n_3_012_012_3_4_1111.batchCoord j 0 + gather_S2x1303x2x32000_S2x1303x2x1x1_S2x1303x2x1_n_3_012_012_3_4_1111.offCoord j 0 = _
  rw [takeG_offCoord, GatherDims.start_batching gather_S2x1303x2x32000_S2x1303x2x1x1_S2x1303x2x1_n_3_012_012_3_4_1111 j idx 0 mem012_0, Nat.zero_add, Nat.add_zero]
  unfold GatherDims.batchCoord
  rw [dif_pos (show (0 : Fin 4) ∈ gather_S2x1303x2x32000_S2x1303x2x1x1_S2x1303x2x1_n_3_012_012_3_4_1111.operandBatchingDims from mem012_0)]
  rfl
theorem takeG_coord1 (j : S2x1303x2x1.Idx) (idx : IVec S2x1303x2x1x1 32) :
    (gather_S2x1303x2x32000_S2x1303x2x1x1_S2x1303x2x1_n_3_012_012_3_4_1111.operandIdx j idx 1 : ℕ) = j 1 := by
  show gather_S2x1303x2x32000_S2x1303x2x1x1_S2x1303x2x1_n_3_012_012_3_4_1111.start j idx 1 + gather_S2x1303x2x32000_S2x1303x2x1x1_S2x1303x2x1_n_3_012_012_3_4_1111.batchCoord j 1 + gather_S2x1303x2x32000_S2x1303x2x1x1_S2x1303x2x1_n_3_012_012_3_4_1111.offCoord j 1 = _
  rw [takeG_offCoord, GatherDims.start_batching gather_S2x1303x2x32000_S2x1303x2x1x1_S2x1303x2x1_n_3_012_012_3_4_1111 j idx 1 mem012_1, Nat.zero_add, Nat.add_zero]
  unfold GatherDims.batchCoord
  rw [dif_pos (show (1 : Fin 4) ∈ gather_S2x1303x2x32000_S2x1303x2x1x1_S2x1303x2x1_n_3_012_012_3_4_1111.operandBatchingDims from mem012_1)]
  rfl
theorem takeG_coord2 (j : S2x1303x2x1.Idx) (idx : IVec S2x1303x2x1x1 32) :
    (gather_S2x1303x2x32000_S2x1303x2x1x1_S2x1303x2x1_n_3_012_012_3_4_1111.operandIdx j idx 2 : ℕ) = j 2 := by
  show gather_S2x1303x2x32000_S2x1303x2x1x1_S2x1303x2x1_n_3_012_012_3_4_1111.start j idx 2 + gather_S2x1303x2x32000_S2x1303x2x1x1_S2x1303x2x1_n_3_012_012_3_4_1111.batchCoord j 2 + gather_S2x1303x2x32000_S2x1303x2x1x1_S2x1303x2x1_n_3_012_012_3_4_1111.offCoord j 2 = _
  rw [takeG_offCoord, GatherDims.start_batching gather_S2x1303x2x32000_S2x1303x2x1x1_S2x1303x2x1_n_3_012_012_3_4_1111 j idx 2 mem012_2, Nat.zero_add, Nat.add_zero]
  unfold GatherDims.batchCoord
  rw [dif_pos (show (2 : Fin 4) ∈ gather_S2x1303x2x32000_S2x1303x2x1x1_S2x1303x2x1_n_3_012_012_3_4_1111.operandBatchingDims from mem012_2)]
  rfl

/-- On the collapsed axis the operand coordinate is the start index, read signed and clamped to [0, 31999]. -/
theorem takeG_coord3 (b : Fin 2) (n : Fin 1303) (br : Fin 2) (u : Fin 1) (idx : IVec S2x1303x2x1x1 32) :
    (gather_S2x1303x2x32000_S2x1303x2x1x1_S2x1303x2x1_n_3_012_012_3_4_1111.operandIdx (ix4 b n br u) idx 3 : ℕ)
      = min (idx (ix5 b n br u (0 : Fin 1))).toInt.toNat 31999 := by
  show gather_S2x1303x2x32000_S2x1303x2x1x1_S2x1303x2x1_n_3_012_012_3_4_1111.start (ix4 b n br u) idx 3 + gather_S2x1303x2x32000_S2x1303x2x1x1_S2x1303x2x1_n_3_012_012_3_4_1111.batchCoord (ix4 b n br u) 3 + gather_S2x1303x2x32000_S2x1303x2x1x1_S2x1303x2x1_n_3_012_012_3_4_1111.offCoord (ix4 b n br u) 3 = _
  rw [takeG_offCoord, GatherDims.batchCoord_eq_zero gather_S2x1303x2x32000_S2x1303x2x1x1_S2x1303x2x1_n_3_012_012_3_4_1111 _ 3 notMem012_3]
  simp only [Nat.add_zero]
  unfold GatherDims.start
  rw [dif_pos (show (3 : Fin 4) ∈ gather_S2x1303x2x32000_S2x1303x2x1x1_S2x1303x2x1_n_3_012_012_3_4_1111.startIndexMap from mem3_3)]
  have hsi : gather_S2x1303x2x32000_S2x1303x2x1x1_S2x1303x2x1_n_3_012_012_3_4_1111.siIdx (ix4 b n br u) ⟨List.idxOf (3 : Fin 4) gather_S2x1303x2x32000_S2x1303x2x1x1_S2x1303x2x1_n_3_012_012_3_4_1111.startIndexMap,
      List.idxOf_lt_length_iff.2 (show (3 : Fin 4) ∈ gather_S2x1303x2x32000_S2x1303x2x1x1_S2x1303x2x1_n_3_012_012_3_4_1111.startIndexMap from mem3_3)⟩ = ix5 b n br u (0 : Fin 1) := by
    funext b'; refine Fin.ext ?_
    match b' with
    | ⟨0, _⟩ => rfl
    | ⟨1, _⟩ => rfl
    | ⟨2, _⟩ => rfl
    | ⟨3, _⟩ => rfl
    | ⟨4, _⟩ => rfl
  rw [hsi]
  rfl

/-- The selection's gather at a row and a branch, for a start index in range: the entry at the start index. -/
theorem takeG_apply (lp : FVec Ideal S2x1303x2x32000 .f32) (idx : IVec S2x1303x2x1x1 32) (b : Fin 2) (n : Fin 1303) (br : Fin 2)
    (v : BitVec 32) (hidx : idx (ix5 b n br (0 : Fin 1) (0 : Fin 1)) = v) (hv : 0 ≤ v.toInt ∧ v.toInt < 32000) :
    Host.gather gather_S2x1303x2x32000_S2x1303x2x1x1_S2x1303x2x1_n_3_012_012_3_4_1111 lp idx (ix4 b n br (0 : Fin 1))
      = lp (ix4 b n br ⟨v.toNat, toNat_lt_of_toInt v hv⟩) := by
  unfold Host.gather
  refine congrArg lp ?_
  funext a; refine Fin.ext ?_
  match a with
  | ⟨0, _⟩ => exact takeG_coord0 _ _
  | ⟨1, _⟩ => exact takeG_coord1 _ _
  | ⟨2, _⟩ => exact takeG_coord2 _ _
  | ⟨3, _⟩ =>
    refine (takeG_coord3 b n br 0 idx).trans ?_
    rw [hidx, toInt_toNat_of_toInt v hv]
    exact Nat.min_eq_left (by have := toNat_lt_of_toInt v hv; omega)

/-- The labels, wrapped where negative and given two trailing axes of length one: the start indices of the selection. -/
def wrapped (l : IVec S2x1303x2 32) : IVec S2x1303x2x1x1 32 :=
  shapeCast S2x1303x2x1x1
    (select (cmpi .slt (broadcastInDim S2x1303x2x1 ![0, 1, 2] bcast_S2x1303x2_S2x1303x2x1_0_1_2 l)
        (broadcastInDim S2x1303x2x1 ![] bcast_S_S2x1303x2x1 (constantI S_ 32 0#32)))
      (addi (broadcastInDim S2x1303x2x1 ![0, 1, 2] bcast_S2x1303x2_S2x1303x2x1_0_1_2 l)
        (broadcastInDim S2x1303x2x1 ![] bcast_S_S2x1303x2x1 (constantI S_ 32 32000#32)))
      (broadcastInDim S2x1303x2x1 ![0, 1, 2] bcast_S2x1303x2_S2x1303x2x1_0_1_2 l))
    shapeCasts_S2x1303x2x1_S2x1303x2x1x1

/-- A label that is not negative is not wrapped. -/
theorem wrapped_apply (l : IVec S2x1303x2 32) (b : Fin 2) (n : Fin 1303) (br : Fin 2)
    (hl : 0 ≤ (l (ix3 b n br)).toInt ∧ (l (ix3 b n br)).toInt < 32000) :
    wrapped l (ix5 b n br (0 : Fin 1) (0 : Fin 1)) = l (ix3 b n br) := by
  unfold wrapped
  rw [shapeCast_apply _ _ (ix5 b n br (0 : Fin 1) (0 : Fin 1)) (ix4 b n br (0 : Fin 1)) (by
    rw [Shape.rowMajor_val_four, Shape.rowMajor_val_five]
    show ((b.val * 1303 + n.val) * 2 + br.val) * 1 + 0 = (((b.val * 1303 + n.val) * 2 + br.val) * 1 + 0) * 1 + 0
    omega)]
  rw [select_apply]
  show Scalar.select (IntOp.cmpi .slt
      (broadcastInDim S2x1303x2x1 ![0, 1, 2] bcast_S2x1303x2_S2x1303x2x1_0_1_2 l (ix4 b n br (0 : Fin 1))) 0#32) _
      (broadcastInDim S2x1303x2x1 ![0, 1, 2] bcast_S2x1303x2_S2x1303x2x1_0_1_2 l (ix4 b n br (0 : Fin 1))) = _
  rw [keep3_apply]
  have h0 : IntOp.cmpi .slt (l (ix3 b n br)) 0#32 = 0#1 := by
    refine eq_zero_of_ne_one fun h => ?_
    rw [IntOp.cmpi_slt, show (0#32 : BitVec 32).toInt = 0 from by decide] at h
    omega
  rw [h0, select_zero]

/-- A fold of the conjunction from 1 over a range of one position is the conjunction of its one entry with 1. -/
theorem fold_andi_fin1 (f : Fin 1 → BitVec 1) :
    (Finset.univ : Finset (Fin 1)).fold IntOp.andi 1#1 f = IntOp.andi (f 0) 1#1 := by
  rw [Finset.univ_unique, Finset.fold_singleton]
  rfl

/-- Whether each wrapped label lies in [0, 31999]. -/
def inRange (l : IVec S2x1303x2 32) : IVec S2x1303x2x1 1 :=
  Host.reduce IntOp.andi
    (andi (cmpi .sge (wrapped l) (broadcastInDim S2x1303x2x1x1 ![] bcast_S_S2x1303x2x1x1 (constantI S_ 32 0#32)))
      (cmpi .sle (wrapped l) (broadcastInDim S2x1303x2x1x1 ![0, 1, 2, 3, 4] bcast_S1x1x1x1x1_S2x1303x2x1x1_0_1_2_3_4
        (broadcastInDim S1x1x1x1x1 ![4] bcast_S1_S1x1x1x1x1_4 (constantI S1 32 31999#32)))))
    (constantI S_ 1 1#1) reducesTo_S2x1303x2x1x1_S2x1303x2x1_d4 h_S_

/-- A label in [0, 31999] is in range. -/
theorem inRange_apply (l : IVec S2x1303x2 32) (b : Fin 2) (n : Fin 1303) (br : Fin 2)
    (hl : 0 ≤ (l (ix3 b n br)).toInt ∧ (l (ix3 b n br)).toInt < 32000) :
    inRange l (ix4 b n br (0 : Fin 1)) = 1#1 := by
  have hR : S2x1303x2x1x1.Reduces [4] S2x1303x2x1 := by decide
  have hlift : hR.lift (ix4 b n br (0 : Fin 1)) (0 : Fin 1) = ix5 b n br (0 : Fin 1) (0 : Fin 1) := by
    funext a; refine Fin.ext ?_
    match a with
    | ⟨0, _⟩ => rfl
    | ⟨1, _⟩ => rfl
    | ⟨2, _⟩ => rfl
    | ⟨3, _⟩ => rfl
    | ⟨4, _⟩ => rfl
  unfold inRange
  rw [Host.reduce_eq_fold_single IntOp.andi _ _ reducesTo_S2x1303x2x1x1_S2x1303x2x1_d4 hR h_S_]
  refine (fold_andi_fin1 _).trans ?_
  rw [IntOp.andi_eq_one]
  refine ⟨?_, rfl⟩
  show IntOp.andi (IntOp.cmpi .sge (wrapped l (hR.lift (ix4 b n br (0 : Fin 1)) (0 : Fin 1))) 0#32)
      (IntOp.cmpi .sle (wrapped l (hR.lift (ix4 b n br (0 : Fin 1)) (0 : Fin 1))) 31999#32) = 1#1
  rw [hlift, wrapped_apply l b n br hl, IntOp.andi_eq_one, IntOp.cmpi_sge, IntOp.cmpi_sle,
    show (0#32 : BitVec 32).toInt = 0 from by decide, show (31999#32 : BitVec 32).toInt = 31999 from by decide]
  omega

/-- The selection: where the label is in range the gathered entry, elsewhere the fill word, the trailing axis dropped. -/
theorem takeLabel_eq (lp : FVec Ideal S2x1303x2x32000 .f32) (l : IVec S2x1303x2 32) :
    RefStages.takeLabel lp l
      = shapeCast S2x1303x2
          (select (inRange l) (Host.gather gather_S2x1303x2x32000_S2x1303x2x1x1_S2x1303x2x1_n_3_012_012_3_4_1111 lp (wrapped l))
            (broadcastInDim S2x1303x2x1 ![] bcast_S_S2x1303x2x1 (constant (F := Ideal) S_ .f32 0x7FC00000#32)))
          shapeCasts_S2x1303x2x1_S2x1303x2 := rfl

/-- At a label in [0, 31999] the selection reads the entry of the last axis at the label: the label is not wrapped, it is
    in range, and the clamp of the read is the identity. -/
theorem takeLabel_apply (lp : FVec Ideal S2x1303x2x32000 .f32) (l : IVec S2x1303x2 32) (b : Fin 2) (n : Fin 1303) (br : Fin 2)
    (hl : 0 ≤ (l (ix3 b n br)).toInt ∧ (l (ix3 b n br)).toInt < 32000) :
    RefStages.takeLabel lp l (ix3 b n br)
      = lp (ix4 b n br ⟨(l (ix3 b n br)).toNat, toNat_lt_of_toInt _ hl⟩) := by
  rw [takeLabel_eq, shapeCast_apply _ _ (ix3 b n br) (ix4 b n br (0 : Fin 1)) (by
    rw [Shape.rowMajor_val_four, Shape.rowMajor_val_three]
    show ((b.val * 1303 + n.val) * 2 + br.val) * 1 + 0 = (b.val * 1303 + n.val) * 2 + br.val
    omega)]
  rw [select_apply, inRange_apply l b n br hl, select_one]
  exact takeG_apply lp (wrapped l) b n br _ (wrapped_apply l b n br hl) hl

/-! ## The weighted mean -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The table of the two weights at a branch is the branch's weight. -/
theorem weights_apply (br : Fin 2) :
    (FloatOps.ofBits (F := Ideal) .f32 (lit0 (S2.rowMajor (ix1 br))) : EReal) = Cert.Spec.wt br := by
  have hrm : S2.rowMajor (ix1 br) = br := Fin.ext (Shape.rowMajor_val_one _)
  rw [hrm]
  unfold Cert.Spec.wt
  match br with
  | ⟨0, _⟩ => exact (if_pos rfl).symm
  | ⟨1, _⟩ => exact (if_neg Nat.one_ne_zero).symm

/-- A value per branch spread over rows reads the branch's value. -/
theorem spreadBr_apply (w : FVec Ideal S2 .f32) (b : Fin 2) (n : Fin 1303) (br : Fin 2) :
    broadcastInDim S2x1303x2 ![0, 1, 2] bcast_S1x1x2_S2x1303x2_0_1_2
        (broadcastInDim S1x1x2 ![2] bcast_S2_S1x1x2_2 w) (ix3 b n br) = w (ix1 br) := by
  rw [broadcastInDim_apply _ _ _ (ix3 b n br) (ix3 (0 : Fin 1) (0 : Fin 1) br)
    (fun a => match a with | ⟨0, _⟩ => rfl | ⟨1, _⟩ => rfl | ⟨2, _⟩ => rfl)]
  exact broadcastInDim_apply _ _ _ _ (ix1 br) (fun a => match a with | ⟨0, _⟩ => rfl)

/-- The negation of an array, read at an index, is the negation of the entry there. -/
theorem hostNegf_apply {s : Shape} (v : FVec Ideal s .f32) (i : s.Idx) : Host.negf v i = -(v i) := rfl

/-- The weighted, negated entries. -/
def weighted (t : FVec Ideal S2x1303x2 .f32) : FVec Ideal S2x1303x2 .f32 :=
  mulf (Host.negf t) (broadcastInDim S2x1303x2 ![0, 1, 2] bcast_S1x1x2_S2x1303x2_0_1_2
    (broadcastInDim S1x1x2 ![2] bcast_S2_S1x1x2_2
      (fun i => FloatOps.ofBits (F := Ideal) .f32 (lit0 (S2.rowMajor i)))))

/-- A weighted, negated entry: the negated entry times its branch's weight. -/
theorem weighted_apply (t : FVec Ideal S2x1303x2 .f32) (b : Fin 2) (n : Fin 1303) (br : Fin 2) :
    weighted t (ix3 b n br) = -(t (ix3 b n br)) * Cert.Spec.wt br := by
  unfold weighted
  rw [mulf_apply, spreadBr_apply, weights_apply, hostNegf_apply]

/-- The weighted mean is the sum from zero of the weighted, negated entries, divided by the word of 5212. -/
theorem weightedMean_eq (t : FVec Ideal S2x1303x2 .f32) :
    RefStages.weightedMean t
      = Host.divf (Host.reduceAdd (weighted t) (constant (F := Ideal) S_ .f32 0x00000000#32) reducesTo_S2x1303x2_S_d0_1_2 h_S_)
          (constant (F := Ideal) S_ .f32 0x45A2E000#32) := rfl

/-- The weighted mean as the triple sum over the two row coordinates and the branch. -/
theorem weightedMean_apply (t : FVec Ideal S2x1303x2 .f32) :
    RefStages.weightedMean t ix0 = Cert.Spec.mean (fun b n br => -(t (ix3 b n br))) := by
  rw [weightedMean_eq]
  show Ideal.div (Ideal.hostReduceAdd reducesTo_S2x1303x2_S_d0_1_2 (weighted t) (Ideal.ofBits .f32 0x00000000#32) ix0)
      (Ideal.ofBits .f32 0x45A2E000#32) = _
  rw [Ideal.hostReduceAdd_total _ (fun b => b.elim0), Ideal.ofBits_zero_f32, sum_idx3]
  unfold Cert.Spec.mean
  refine congrArg (fun z : EReal => Ideal.div (0 + z) (Ideal.ofBits .f32 0x45A2E000#32)) ?_
  exact Finset.sum_congr rfl fun b _ => Finset.sum_congr rfl fun n _ => Finset.sum_congr rfl fun br _ => weighted_apply t b n br

/-! ## The result -/

/-- The logits of the gathered rows: class c of branch br is the branch sequence at c. -/
theorem logits_row (a0 a1 : FVec Ideal S2x512x512 .f32) (a3 a4 : IVec S1303 32) (a5 : FVec Ideal S1024x512 .f32)
    (a6 : FVec Ideal S512 .f32) (a7 : FVec Ideal S512x64000 .f32) (a8 : FVec Ideal S64000 .f32)
    (b : Fin 2) (n : Fin 1303) (br : Fin 2) (c : Fin 32000) :
    RefStages.logits (RefStages.hid (RefStages.fb a0 a1 a3 a4) a5 a6) a7 a8 (ix4 b n br c)
      = Cert.Spec.branch (Cert.Spec.logit (Cert.Spec.hidRow (fun k => RefStages.fb a0 a1 a3 a4 (ix3 b n k))
            (fun k d => a5 (ix2 k d)) (fun d => a6 (ix1 d))) (fun k c => a7 (ix2 k c)) (fun c => a8 (ix1 c))) br c.val := by
  have hh : (fun k : Fin 512 => RefStages.hid (RefStages.fb a0 a1 a3 a4) a5 a6 (ix3 b n k))
      = Cert.Spec.hidRow (fun k => RefStages.fb a0 a1 a3 a4 (ix3 b n k)) (fun k d => a5 (ix2 k d)) (fun d => a6 (ix1 d)) :=
    funext fun k => hid_apply _ a5 a6 b n k
  rw [logits_apply, hh]
  unfold Cert.Spec.branch
  rw [dif_pos c.isLt]

/-- A row of log-normalised entries read at a label, negated, is the two-pass negative log-likelihood of the row's
    sequence: the fold of the maximum over the 32000 classes is the prefix maximum, the sum over them the range sum. -/
theorem nll_of_row (x : FVec Ideal S2x1303x2x32000 .f32) (X : ℕ → EReal) (b : Fin 2) (n : Fin 1303) (br : Fin 2)
    (hx : ∀ c : Fin 32000, x (ix4 b n br c) = X c.val) (l : ℕ) (hl : l < 32000) :
    -((x (ix4 b n br (⟨l, hl⟩ : Fin 32000))
          - max ⊥ ((Finset.univ : Finset (Fin 32000)).fold max ⊥ (fun c' => x (ix4 b n br c'))))
        - Ideal.log (0 + ∑ c' : Fin 32000,
            Ideal.exp (x (ix4 b n br c') - max ⊥ ((Finset.univ : Finset (Fin 32000)).fold max ⊥ (fun c' => x (ix4 b n br c'))))))
      = Cert.Spec.nllRef X l := by
  have hf : (fun c' : Fin 32000 => x (ix4 b n br c')) = fun c' => X c'.val := funext hx
  have hS : ∀ m : EReal, (∑ c' : Fin 32000, Ideal.exp (x (ix4 b n br c') - m))
      = ∑ c ∈ Finset.range 32000, Ideal.exp (X c - m) := fun m =>
    (Finset.sum_congr rfl fun c' _ => by rw [hx c']).trans (Cert.LseMath.sum_fin (fun c => Ideal.exp (X c - m)) 32000)
  have hxl : x (ix4 b n br (⟨l, hl⟩ : Fin 32000)) = X l := hx ⟨l, hl⟩
  unfold Cert.Spec.nllRef
  rw [hf, Cert.LseMath.fold_max_fin, hS, hxl]

/-- The reference's scalar: the weighted mean, over rows and branches, of the two-pass negative log-likelihood of the
    branch's logits at the gathered label. -/
theorem result_eq (a0 a1 : FVec Ideal S2x512x512 .f32) (a2 : IVec S2x512 32) (a3 a4 : IVec S1303 32)
    (a5 : FVec Ideal S1024x512 .f32) (a6 : FVec Ideal S512 .f32) (a7 : FVec Ideal S512x64000 .f32) (a8 : FVec Ideal S64000 .f32)
    (hlbl : ∀ i, 0 ≤ (a2 i).toInt ∧ (a2 i).toInt < 32000) :
    RefStages.result a0 a1 a2 a3 a4 a5 a6 a7 a8 ix0
      = Cert.Spec.mean (fun b n br => Cert.Spec.nllRef
          (Cert.Spec.branch (Cert.Spec.logit (Cert.Spec.hidRow (fun k => RefStages.fb a0 a1 a3 a4 (ix3 b n k))
              (fun k d => a5 (ix2 k d)) (fun d => a6 (ix1 d))) (fun k c => a7 (ix2 k c)) (fun c => a8 (ix1 c))) br)
          (RefStages.lbl a2 a3 a4 (ix3 b n br)).toNat) := by
  unfold RefStages.result
  rw [weightedMean_apply]
  refine congrArg Cert.Spec.mean (funext fun b => funext fun n => funext fun br => ?_)
  obtain ⟨j, hj⟩ := lbl_mem a2 a3 a4 (ix3 b n br)
  have hl : 0 ≤ (RefStages.lbl a2 a3 a4 (ix3 b n br)).toInt ∧ (RefStages.lbl a2 a3 a4 (ix3 b n br)).toInt < 32000 := by
    rw [hj]; exact hlbl j
  rw [takeLabel_apply _ _ b n br hl, logSoftmax_apply]
  exact nll_of_row (RefStages.logits (RefStages.hid (RefStages.fb a0 a1 a3 a4) a5 a6) a7 a8) _ b n br
    (fun c => logits_row a0 a1 a3 a4 a5 a6 a7 a8 b n br c) _ (toNat_lt_of_toInt _ hl)

end Cert.ReferenceIdeal.RefValue

end
-- ==== Proof.PreFacts.lean ====
/-
  What the precondition says of the inputs, element by element: every entry of the six float inputs is a real
  number (neither infinity), and every entry of the label table `seq` is a class index, `0 ≤ seq < 32000`.
-/
import proofs.«421797_j22849226015448_2_alg».proof.Pre_finite_inputs
import Idealize.ShloMosaic.PureOps.Ideal
import Idealize.ShloMosaic.Lib.ReduceAll

noncomputable section

namespace Cert.PreFacts

open Idealize.ShloMosaic Cert.Pre_finite_inputs

variable [Cert.Pre_finite_inputs.Facts]

/-- The scalar shape has exactly one index. -/
instance : Subsingleton S_.Idx := ⟨fun a b => funext fun d => d.elim0⟩

/-- The bit pattern the precondition compares against denotes plus infinity. -/
theorem inf_bits : Ideal.ofBits .f32 0x7F800000#32 = (⊤ : EReal) := by
  simp [Ideal.ofBits, Ideal.ieee]

/-- An extended real whose absolute value, max x (-x), is strictly below plus infinity is a real number:
    at either infinity the absolute value is plus infinity itself, which is not strictly below itself. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    x ≠ ⊥ ∧ x ≠ ⊤ := by
  have hb : FloatOps.ofBits (F := Ideal) .f32 0x7F800000#32 = (⊤ : EReal) := inf_bits
  rw [hb] at h
  change Ideal.cmp .olt (max x (-x)) ⊤ = 1#1 at h
  induction x using EReal.rec with
  | bot => simp [Ideal.cmp] at h
  | coe r => exact ⟨EReal.coe_ne_bot r, EReal.coe_ne_top r⟩
  | top => simp [Ideal.cmp] at h

/-- The precondition read entry by entry. -/
theorem of_pre (a0 a1 : FVec Ideal S2x512x512 .f32) (a2 : IVec S2x512 32) (a3 a4 : IVec S1303 32)
    (a5 : FVec Ideal S1024x512 .f32) (a6 : FVec Ideal S512 .f32) (a7 : FVec Ideal S512x64000 .f32) (a8 : FVec Ideal S64000 .f32)
    (h : Cert.Pre_finite_inputs.fn (F := Ideal) a0 a1 a2 a3 a4 a5 a6 a7 a8 = fun _ => 1#1) :
    (∀ i, (a0 i : EReal) ≠ ⊥ ∧ (a0 i : EReal) ≠ ⊤) ∧ (∀ i, (a1 i : EReal) ≠ ⊥ ∧ (a1 i : EReal) ≠ ⊤)
    ∧ (∀ i, (a5 i : EReal) ≠ ⊥ ∧ (a5 i : EReal) ≠ ⊤) ∧ (∀ i, (a6 i : EReal) ≠ ⊥ ∧ (a6 i : EReal) ≠ ⊤)
    ∧ (∀ i, (a7 i : EReal) ≠ ⊥ ∧ (a7 i : EReal) ≠ ⊤) ∧ (∀ i, (a8 i : EReal) ≠ ⊥ ∧ (a8 i : EReal) ≠ ⊤)
    ∧ (∀ i, 0 ≤ (a2 i).toInt ∧ (a2 i).toInt < 32000) := by
  -- The precondition is a conjunction of eight universally quantified comparisons, each folded by "and" over a
  -- whole array into one word; the word being 1 gives every conjunct, and each conjunct gives its comparison at
  -- every index.
  have e := congrFun h (fun d => d.elim0)
  dsimp only [fn, fn_part1, fn_part2] at e
  simp only [andi, IntOp.andi_eq_one] at e
  obtain ⟨⟨⟨⟨⟨⟨⟨h0, h1⟩, h5⟩, h6⟩, h7⟩, h8⟩, hge⟩, hlt⟩ := e
  refine ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h5 i),
    fun i => real_of_abs_lt _ (Host.reduce_andi_all _ _ _ _ _ h6 i),
    fun i => real_of_abs_lt _ (Host.reduce_andi_all _ _ _ _ _ h7 i),
    fun i => real_of_abs_lt _ (Host.reduce_andi_all _ _ _ _ _ h8 i), fun i => ⟨?_, ?_⟩⟩
  · -- the signed comparison "seq ≥ 0" at index i
    have g : IntOp.cmpi .sge (a2 i) (0#32) = 1#1 := Host.reduce_andi_all _ _ _ _ _ hge i
    have := IntOp.cmpi_sge.1 g
    simpa using this
  · -- the signed comparison "seq < 32000" at index i
    have g : IntOp.cmpi .slt (a2 i) (32000#32) = 1#1 := Host.reduce_andi_all _ _ _ _ _ hlt i
    have := IntOp.cmpi_slt.1 g
    have e32 : (32000#32 : BitVec 32).toInt = 32000 := by decide
    rw [e32] at this
    exact this

end Cert.PreFacts

end
-- ==== Proof.Bridge.lean ====
/-
  The two programs compute one number.

  From the precondition every float input is real and every label is a class index. Both programs then gather the
  same rows and labels from the arguments (the same operations on the same arrays). The kernel program's result is
  the weighted mean of the accumulated negative log-likelihoods; the reference's is the weighted mean of the
  negated two-pass log-softmax at the label. On real logits and a label in range the two forms agree, row by row and
  branch by branch, so the means agree.
-/
import proofs.«421797_j22849226015448_2_alg».proof.Proof.KValue
import proofs.«421797_j22849226015448_2_alg».proof.Proof.RefValue
import proofs.«421797_j22849226015448_2_alg».proof.Proof.PreFacts
import proofs.«421797_j22849226015448_2_alg».proof.Proof.Gen.ReferenceIdeal

set_option maxRecDepth 16384

noncomputable section

namespace Cert.Bridge

open Idealize.ShloMosaic Idealize.ShloMosaic.ValueIdx Idealize.ShloMosaic.TcCoe Idealize.SL.Sem
open Cert.KernelIdeal.KInv

/-- The kernel program's transcription of the gathered rows is the reference's: the same operations. -/
theorem fb_eq (x0 x1 : FVec Ideal Cert.KernelIdeal.S2x512x512 .f32) (x3 x4 : IVec Cert.KernelIdeal.S1303 32) :
    Cert.KernelIdeal.KHost.fb (F := Ideal) x0 x1 x3 x4 = Cert.ReferenceIdeal.RefStages.fb (F := Ideal) x0 x1 x3 x4 := rfl

/-- Likewise the gathered labels. -/
theorem lbl_eq (x2 : IVec Cert.KernelIdeal.S2x512 32) (x3 x4 : IVec Cert.KernelIdeal.S1303 32) :
    Cert.KernelIdeal.KHost.lbl x2 x3 x4 = Cert.ReferenceIdeal.RefStages.lbl x2 x3 x4 := rfl

/-- The specification's mean of the accumulated form, over given arrays: what both programs are shown to return. -/
def value (x0 x1 : FVec Ideal Cert.KernelIdeal.S2x512x512 .f32) (x2 : IVec Cert.KernelIdeal.S2x512 32)
    (x3 x4 : IVec Cert.KernelIdeal.S1303 32) (x5 : FVec Ideal Cert.KernelIdeal.S1024x512 .f32)
    (x6 : FVec Ideal Cert.KernelIdeal.S512 .f32) (x7 : FVec Ideal Cert.KernelIdeal.S512x64000 .f32)
    (x8 : FVec Ideal Cert.KernelIdeal.S64000 .f32) : EReal :=
  Cert.Spec.mean (fun b n br => Cert.Spec.nllKer
    (Cert.Spec.branch (Cert.Spec.logit
      (Cert.Spec.hidRow (fun k => Cert.KernelIdeal.KHost.fb (F := Ideal) x0 x1 x3 x4 (ix3 b n k)) (fun k d => x5 (ix2 k d)) (fun d => x6 (ix1 d)))
      (fun k q => x7 (ix2 k q)) (fun q => x8 (ix1 q))) br)
    (Cert.KernelIdeal.KHost.lbl x2 x3 x4 (ix3 b n br)).toNat)

/-- The reference's stages give the same value, on real inputs and labels in range. -/
theorem ref_value (x0 x1 : FVec Ideal Cert.KernelIdeal.S2x512x512 .f32) (x2 : IVec Cert.KernelIdeal.S2x512 32)
    (x3 x4 : IVec Cert.KernelIdeal.S1303 32) (x5 : FVec Ideal Cert.KernelIdeal.S1024x512 .f32)
    (x6 : FVec Ideal Cert.KernelIdeal.S512 .f32) (x7 : FVec Ideal Cert.KernelIdeal.S512x64000 .f32)
    (x8 : FVec Ideal Cert.KernelIdeal.S64000 .f32)
    (h0 : ∀ i, (x0 i : EReal) ≠ ⊥ ∧ (x0 i : EReal) ≠ ⊤) (h1 : ∀ i, (x1 i : EReal) ≠ ⊥ ∧ (x1 i : EReal) ≠ ⊤)
    (h5 : ∀ i, (x5 i : EReal) ≠ ⊥ ∧ (x5 i : EReal) ≠ ⊤) (h6 : ∀ i, (x6 i : EReal) ≠ ⊥ ∧ (x6 i : EReal) ≠ ⊤)
    (h7 : ∀ i, (x7 i : EReal) ≠ ⊥ ∧ (x7 i : EReal) ≠ ⊤) (h8 : ∀ i, (x8 i : EReal) ≠ ⊥ ∧ (x8 i : EReal) ≠ ⊤)
    (h2 : ∀ i, 0 ≤ (x2 i).toInt ∧ (x2 i).toInt < 32000) :
    Cert.ReferenceIdeal.RefStages.result (F := Ideal) x0 x1 x2 x3 x4 x5 x6 x7 x8 ix0 = value x0 x1 x2 x3 x4 x5 x6 x7 x8 := by
  rw [Cert.ReferenceIdeal.RefValue.result_eq x0 x1 x2 x3 x4 x5 x6 x7 x8 h2]
  unfold value
  refine congrArg Cert.Spec.mean ?_
  funext b n br
  simp only [fb_eq, lbl_eq]
  have hfb : ∀ i, Cert.ReferenceIdeal.RefStages.fb (F := Ideal) x0 x1 x3 x4 i ≠ ⊥ ∧ Cert.ReferenceIdeal.RefStages.fb (F := Ideal) x0 x1 x3 x4 i ≠ ⊤ := by
    intro i
    rcases Cert.ReferenceIdeal.RefValue.fb_mem x0 x1 x3 x4 i with ⟨j, hj⟩ | ⟨j, hj⟩
    · rw [hj]; exact h0 j
    · rw [hj]; exact h1 j
  have hl : (Cert.ReferenceIdeal.RefStages.lbl x2 x3 x4 (ix3 b n br)).toNat < 32000 := by
    obtain ⟨j, hj⟩ := Cert.ReferenceIdeal.RefValue.lbl_mem x2 x3 x4 (ix3 b n br)
    rw [hj]
    exact Cert.KernelIdeal.KValue.toNat_lt_of_toInt _ (h2 j)
  symm
  refine Cert.Spec.nllKer_eq_nllRef _ (fun q => Cert.Spec.branch_fin _ (fun q' => Cert.Spec.logit_fin _ _ _ (fun k => ?_) (fun k q'' => h7 _) (fun q'' => h8 _) q') br q) _ hl
  exact Cert.Spec.hidRow_fin _ _ _ (fun k' => hfb _) (fun k' d => h5 _) (fun d => h6 _) k

section Kernel
open Cert.KernelIdeal Cert.KernelIdeal.Gen

variable [Cert.Pre_finite_inputs.Facts]

/-- The kernel program's result on core `c`, from the precondition. -/
theorem kernel_side (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (a0 m c) (a1 m c) (a2 m c) (a3 m c) (a4 m c) (a5 m c) (a6 m c) (a7 m c) (a8 m c) = fun _ => 1#1) :
    Pipeline.afterTail₀ cfgs (dats m) 0 (V0 m) [hostOps1] c main_v49
      = fun _ => value (a0 m c) (a1 m c) (a2 m c) (a3 m c) (a4 m c) (a5 m c) (a6 m c) (a7 m c) (a8 m c) := by
  obtain ⟨p0, p1, p5, p6, p7, p8, p2⟩ := Cert.PreFacts.of_pre _ _ _ _ _ _ _ _ _ hpre
  have hfb : ∀ i, Cert.KernelIdeal.KHost.fb (F := Ideal) (a0 m c) (a1 m c) (a3 m c) (a4 m c) i ≠ ⊥
      ∧ Cert.KernelIdeal.KHost.fb (F := Ideal) (a0 m c) (a1 m c) (a3 m c) (a4 m c) i ≠ ⊤ := by
    intro i
    rw [fb_eq]
    rcases Cert.ReferenceIdeal.RefValue.fb_mem (a0 m c) (a1 m c) (a3 m c) (a4 m c) i with ⟨j, hj⟩ | ⟨j, hj⟩
    · rw [hj]; exact p0 j
    · rw [hj]; exact p1 j
  have hlbl : ∀ i, 0 ≤ (Cert.KernelIdeal.KHost.lbl (a2 m c) (a3 m c) (a4 m c) i).toInt
      ∧ (Cert.KernelIdeal.KHost.lbl (a2 m c) (a3 m c) (a4 m c) i).toInt < 32000 := by
    intro i
    rw [lbl_eq]
    obtain ⟨j, hj⟩ := Cert.ReferenceIdeal.RefValue.lbl_mem (a2 m c) (a3 m c) (a4 m c) i
    rw [hj]; exact p2 j
  exact Cert.KernelIdeal.KValue.kernel_value m c hfb p5 p6 p7 p8 hlbl

/-- The reference's result on the same arrays, from the same precondition. -/
theorem ref_side (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (a0 m c) (a1 m c) (a2 m c) (a3 m c) (a4 m c) (a5 m c) (a6 m c) (a7 m c) (a8 m c) = fun _ => 1#1) :
    Cert.ReferenceIdeal.RefStages.result (F := Ideal) (a0 m c) (a1 m c) (a2 m c) (a3 m c) (a4 m c) (a5 m c) (a6 m c) (a7 m c) (a8 m c)
      = fun _ => value (a0 m c) (a1 m c) (a2 m c) (a3 m c) (a4 m c) (a5 m c) (a6 m c) (a7 m c) (a8 m c) := by
  obtain ⟨p0, p1, p5, p6, p7, p8, p2⟩ := Cert.PreFacts.of_pre _ _ _ _ _ _ _ _ _ hpre
  funext i
  rw [eq_ix0 i]
  exact ref_value _ _ _ _ _ _ _ _ _ p0 p1 p5 p6 p7 p8 p2

end Kernel

end Cert.Bridge

end
-- ==== Proof.RefRun.lean ====
/-
  The run of the reference program.

  The program is a straight line of 104 array operations once its three calls are replaced by
  the operations of the functions they call (the leaky rectifier, which itself calls a selection;
  the log-normalisation; the selection along the last axis). The line is cut into seven
  consecutive stages. For each stage the array it ends at is a function of the arrays it starts
  from, and every array the stage does not write is unchanged; composing the seven gives the
  returned scalar as `RefStages.result` of the nine argument arrays, which are themselves never
  written.
-/
import proofs.«421797_j22849226015448_2_alg».proof.Proof.Gen.ReferenceIdeal
import proofs.«421797_j22849226015448_2_alg».proof.Proof.RefStages
import Idealize.ShloMosaic.Lib.StableHlo.Run
import Idealize.ShloMosaic.Lib.Pipeline.Frame
import Mathlib.Data.List.Basic

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-! ## A typed reference at a literal array is the array

The functions the program calls are written over references that carry the type of the value
they hold. At a reference whose carried type is the array's own, moving contents to the carried
type and back is the identity, so each operation over such references is the same operation over
the arrays themselves. Stated for an arbitrary function of the contents. -/

section TypedIsPlain

variable {Val : EltTy → Type}

theorem nullary_of (y : Ref sig .tc) (h1 : y.space ≠ .host) (h2 : y.isScoped = false) (v : y.ty.Contents Val)
    (hy : y.space ≠ .host ∧ (y : DevRef τ sig).isScoped = false) :
    (TRef.nullary (Ty := y.ty) ⟨y, rfl, h1, h2⟩ v : HloOp τ sig Val) = StableHlo.nullary y v hy := rfl

theorem unary_of (x y : Ref sig .tc) (x1 : x.space ≠ .host) (x2 : x.isScoped = false) (y1 : y.space ≠ .host)
    (y2 : y.isScoped = false) (f : x.ty.Contents Val → y.ty.Contents Val)
    (hx : x.space ≠ .host ∧ (x : DevRef τ sig).isScoped = false) (hy : y.space ≠ .host ∧ (y : DevRef τ sig).isScoped = false) :
    (TRef.unary (Tx := x.ty) (Ty := y.ty) ⟨x, rfl, x1, x2⟩ ⟨y, rfl, y1, y2⟩ f : HloOp τ sig Val) = StableHlo.unary x y f hx hy := rfl

theorem binary_of (a b y : Ref sig .tc) (a1 : a.space ≠ .host) (a2 : a.isScoped = false) (b1 : b.space ≠ .host)
    (b2 : b.isScoped = false) (y1 : y.space ≠ .host) (y2 : y.isScoped = false)
    (f : a.ty.Contents Val → b.ty.Contents Val → y.ty.Contents Val)
    (ha : a.space ≠ .host ∧ (a : DevRef τ sig).isScoped = false) (hb : b.space ≠ .host ∧ (b : DevRef τ sig).isScoped = false)
    (hy : y.space ≠ .host ∧ (y : DevRef τ sig).isScoped = false) :
    (TRef.binary (Ta := a.ty) (Tb := b.ty) (Ty := y.ty) ⟨a, rfl, a1, a2⟩ ⟨b, rfl, b1, b2⟩ ⟨y, rfl, y1, y2⟩ f : HloOp τ sig Val)
      = StableHlo.binary a b y f ha hb hy := rfl

theorem ternary_of (c a b y : Ref sig .tc) (c1 : c.space ≠ .host) (c2 : c.isScoped = false) (a1 : a.space ≠ .host)
    (a2 : a.isScoped = false) (b1 : b.space ≠ .host) (b2 : b.isScoped = false) (y1 : y.space ≠ .host) (y2 : y.isScoped = false)
    (f : c.ty.Contents Val → a.ty.Contents Val → b.ty.Contents Val → y.ty.Contents Val)
    (hc : c.space ≠ .host ∧ (c : DevRef τ sig).isScoped = false) (ha : a.space ≠ .host ∧ (a : DevRef τ sig).isScoped = false)
    (hb : b.space ≠ .host ∧ (b : DevRef τ sig).isScoped = false) (hy : y.space ≠ .host ∧ (y : DevRef τ sig).isScoped = false) :
    (TRef.ternary (Tc := c.ty) (Ta := a.ty) (Tb := b.ty) (Ty := y.ty) ⟨c, rfl, c1, c2⟩ ⟨a, rfl, a1, a2⟩ ⟨b, rfl, b1, b2⟩
        ⟨y, rfl, y1, y2⟩ f : HloOp τ sig Val)
      = StableHlo.ternary c a b y f hc ha hb hy := rfl

end TypedIsPlain

/-- Two joins of two pieces along the same axis agree when the pieces agree. -/
theorem concat2_congr {α : Type} (t : Shape) (ax : Fin t.rank) (s₁ s₂ : Shape) {a a' : s₁.Idx → α} {b b' : s₂.Idx → α}
    (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

/-! ## The operations, stage by stage -/

/-- The table of the two weights, then values %0 … %14: the two index normalisations, the two picks of feature rows, and their join (20 operations). -/
abbrev opsFb : List (HloOp τ sig (Elt F)) :=
  [
    StableHlo.nullary main_cst (fun i => FloatOps.ofBits .f32 (lit0 (S2.rowMajor i))),
    StableHlo.nullary main_c (constantI S_ 32 0#32),
    StableHlo.unary main_c main_v0 (broadcastInDim S1303 ![] bcast_S_S1303 : (⟨S_, .i32⟩ : BufTy).Contents (Elt F) → (⟨S1303, .i32⟩ : BufTy).Contents (Elt F)),
    StableHlo.binary main_arg3 main_v0 main_v1 (cmpi .slt : (⟨S1303, .i32⟩ : BufTy).Contents (Elt F) → (⟨S1303, .i32⟩ : BufTy).Contents (Elt F) → (⟨S1303, .i1⟩ : BufTy).Contents (Elt F)),
    StableHlo.nullary main_c_0 (constantI S_ 32 512#32),
    StableHlo.unary main_c_0 main_v2 (broadcastInDim S1303 ![] bcast_S_S1303 : (⟨S_, .i32⟩ : BufTy).Contents (Elt F) → (⟨S1303, .i32⟩ : BufTy).Contents (Elt F)),
    StableHlo.binary main_arg3 main_v2 main_v3 (addi : (⟨S1303, .i32⟩ : BufTy).Contents (Elt F) → (⟨S1303, .i32⟩ : BufTy).Contents (Elt F) → (⟨S1303, .i32⟩ : BufTy).Contents (Elt F)),
    StableHlo.ternary main_v1 main_v3 main_arg3 main_v4 (select : (⟨S1303, .i1⟩ : BufTy).Contents (Elt F) → (⟨S1303, .i32⟩ : BufTy).Contents (Elt F) → (⟨S1303, .i32⟩ : BufTy).Contents (Elt F) → (⟨S1303, .i32⟩ : BufTy).Contents (Elt F)),
    StableHlo.unary main_v4 main_v5 (broadcastInDim S1303x1 ![0] bcast_S1303_S1303x1_0 : (⟨S1303, .i32⟩ : BufTy).Contents (Elt F) → (⟨S1303x1, .i32⟩ : BufTy).Contents (Elt F)),
    StableHlo.binary main_arg0 main_v5 main_v6 ((fun x i => Host.gather gather_S2x512x512_S1303x1_S2x1303x512_02_1_n_n_1_1_21512 x i) : (⟨S2x512x512, .f32⟩ : BufTy).Contents (Elt F) → (⟨S1303x1, .i32⟩ : BufTy).Contents (Elt F) → (⟨S2x1303x512, .f32⟩ : BufTy).Contents (Elt F)),
    StableHlo.nullary main_c_1 (constantI S_ 32 0#32),
    StableHlo.unary main_c_1 main_v7 (broadcastInDim S1303 ![] bcast_S_S1303 : (⟨S_, .i32⟩ : BufTy).Contents (Elt F) → (⟨S1303, .i32⟩ : BufTy).Contents (Elt F)),
    StableHlo.binary main_arg4 main_v7 main_v8 (cmpi .slt : (⟨S1303, .i32⟩ : BufTy).Contents (Elt F) → (⟨S1303, .i32⟩ : BufTy).Contents (Elt F) → (⟨S1303, .i1⟩ : BufTy).Contents (Elt F)),
    StableHlo.nullary main_c_2 (constantI S_ 32 512#32),
    StableHlo.unary main_c_2 main_v9 (broadcastInDim S1303 ![] bcast_S_S1303 : (⟨S_, .i32⟩ : BufTy).Contents (Elt F) → (⟨S1303, .i32⟩ : BufTy).Contents (Elt F)),
    StableHlo.binary main_arg4 main_v9 main_v10 (addi : (⟨S1303, .i32⟩ : BufTy).Contents (Elt F) → (⟨S1303, .i32⟩ : BufTy).Contents (Elt F) → (⟨S1303, .i32⟩ : BufTy).Contents (Elt F)),
    StableHlo.ternary main_v8 main_v10 main_arg4 main_v11 (select : (⟨S1303, .i1⟩ : BufTy).Contents (Elt F) → (⟨S1303, .i32⟩ : BufTy).Contents (Elt F) → (⟨S1303, .i32⟩ : BufTy).Contents (Elt F) → (⟨S1303, .i32⟩ : BufTy).Contents (Elt F)),
    StableHlo.unary main_v11 main_v12 (broadcastInDim S1303x1 ![0] bcast_S1303_S1303x1_0 : (⟨S1303, .i32⟩ : BufTy).Contents (Elt F) → (⟨S1303x1, .i32⟩ : BufTy).Contents (Elt F)),
    StableHlo.binary main_arg1 main_v12 main_v13 ((fun x i => Host.gather gather_S2x512x512_S1303x1_S2x1303x512_02_1_n_n_1_1_21512 x i) : (⟨S2x512x512, .f32⟩ : BufTy).Contents (Elt F) → (⟨S1303x1, .i32⟩ : BufTy).Contents (Elt F) → (⟨S2x1303x512, .f32⟩ : BufTy).Contents (Elt F)),
    StableHlo.binary main_v6 main_v13 main_v14 ((fun a b => concatenate S2x1303x1024 2 [⟨S2x1303x512, a⟩, ⟨S2x1303x512, b⟩] concatenates_S2x1303x512_S2x1303x512_S2x1303x1024_d2) : (⟨S2x1303x512, .f32⟩ : BufTy).Contents (Elt F) → (⟨S2x1303x512, .f32⟩ : BufTy).Contents (Elt F) → (⟨S2x1303x1024, .f32⟩ : BufTy).Contents (Elt F)) ]

/-- Values %15 … %19: the first contraction, its bias, and the leaky rectifier's body with the selection it calls (11 operations). -/
abbrev opsHid : List (HloOp τ sig (Elt F)) :=
  [
    StableHlo.binary main_v14 main_arg5 main_v15 ((fun l r => Host.dotGeneral dot_S2x1303x1024_S1024x512_S2x1303x512_2_0_01_1_n_n none l r) : (⟨S2x1303x1024, .f32⟩ : BufTy).Contents (Elt F) → (⟨S1024x512, .f32⟩ : BufTy).Contents (Elt F) → (⟨S2x1303x512, .f32⟩ : BufTy).Contents (Elt F)),
    StableHlo.unary main_arg6 main_v16 (broadcastInDim S1x1x512 ![2] bcast_S512_S1x1x512_2 : (⟨S512, .f32⟩ : BufTy).Contents (Elt F) → (⟨S1x1x512, .f32⟩ : BufTy).Contents (Elt F)),
    StableHlo.unary main_v16 main_v17 (broadcastInDim S2x1303x512 ![0, 1, 2] bcast_S1x1x512_S2x1303x512_0_1_2 : (⟨S1x1x512, .f32⟩ : BufTy).Contents (Elt F) → (⟨S2x1303x512, .f32⟩ : BufTy).Contents (Elt F)),
    StableHlo.binary main_v15 main_v17 main_v18 (addf : (⟨S2x1303x512, .f32⟩ : BufTy).Contents (Elt F) → (⟨S2x1303x512, .f32⟩ : BufTy).Contents (Elt F) → (⟨S2x1303x512, .f32⟩ : BufTy).Contents (Elt F)),
    StableHlo.nullary main_call0_cst ((constant S_ .f32 0x00000000#32) : (⟨S_, .f32⟩ : BufTy).Contents (Elt F)),
    StableHlo.unary main_call0_cst main_call0_v0 ((broadcastInDim S2x1303x512 ![] bcast_S_S2x1303x512) : (⟨S_, .f32⟩ : BufTy).Contents (Elt F) → (⟨S2x1303x512, .f32⟩ : BufTy).Contents (Elt F)),
    StableHlo.binary main_v18 main_call0_v0 main_call0_v1 ((cmpf .oge) : (⟨S2x1303x512, .f32⟩ : BufTy).Contents (Elt F) → (⟨S2x1303x512, .f32⟩ : BufTy).Contents (Elt F) → (⟨S2x1303x512, .i1⟩ : BufTy).Contents (Elt F)),
    StableHlo.nullary main_call0_cst_0 ((constant S_ .f32 0x3C23D70A#32) : (⟨S_, .f32⟩ : BufTy).Contents (Elt F)),
    StableHlo.unary main_call0_cst_0 main_call0_v2 ((broadcastInDim S2x1303x512 ![] bcast_S_S2x1303x512) : (⟨S_, .f32⟩ : BufTy).Contents (Elt F) → (⟨S2x1303x512, .f32⟩ : BufTy).Contents (Elt F)),
    StableHlo.binary main_call0_v2 main_v18 main_call0_v3 ((mulf) : (⟨S2x1303x512, .f32⟩ : BufTy).Contents (Elt F) → (⟨S2x1303x512, .f32⟩ : BufTy).Contents (Elt F) → (⟨S2x1303x512, .f32⟩ : BufTy).Contents (Elt F)),
    StableHlo.ternary main_call0_v1 main_v18 main_call0_v3 main_v19 ((select) : (⟨S2x1303x512, .i1⟩ : BufTy).Contents (Elt F) → (⟨S2x1303x512, .f32⟩ : BufTy).Contents (Elt F) → (⟨S2x1303x512, .f32⟩ : BufTy).Contents (Elt F) → (⟨S2x1303x512, .f32⟩ : BufTy).Contents (Elt F)) ]

/-- Stage `opsHid` as the program writes it, over the typed references of the call it inlines. -/
abbrev opsHidT : List (HloOp τ sig (Elt F)) :=
  [
    StableHlo.binary main_v14 main_arg5 main_v15 ((fun l r => Host.dotGeneral dot_S2x1303x1024_S1024x512_S2x1303x512_2_0_01_1_n_n none l r) : (⟨S2x1303x1024, .f32⟩ : BufTy).Contents (Elt F) → (⟨S1024x512, .f32⟩ : BufTy).Contents (Elt F) → (⟨S2x1303x512, .f32⟩ : BufTy).Contents (Elt F)),
    StableHlo.unary main_arg6 main_v16 (broadcastInDim S1x1x512 ![2] bcast_S512_S1x1x512_2 : (⟨S512, .f32⟩ : BufTy).Contents (Elt F) → (⟨S1x1x512, .f32⟩ : BufTy).Contents (Elt F)),
    StableHlo.unary main_v16 main_v17 (broadcastInDim S2x1303x512 ![0, 1, 2] bcast_S1x1x512_S2x1303x512_0_1_2 : (⟨S1x1x512, .f32⟩ : BufTy).Contents (Elt F) → (⟨S2x1303x512, .f32⟩ : BufTy).Contents (Elt F)),
    StableHlo.binary main_v15 main_v17 main_v18 (addf : (⟨S2x1303x512, .f32⟩ : BufTy).Contents (Elt F) → (⟨S2x1303x512, .f32⟩ : BufTy).Contents (Elt F) → (⟨S2x1303x512, .f32⟩ : BufTy).Contents (Elt F)),
    StableHlo.TRef.nullary main_call0.cst (constant S_ .f32 0x00000000#32),
    StableHlo.TRef.unary main_call0.cst main_call0.v0 (broadcastInDim S2x1303x512 ![] bcast_S_S2x1303x512),
    StableHlo.TRef.binary (.of main_v18 : StableHlo.TRef sig ⟨S2x1303x512, .f32⟩) main_call0.v0 main_call0.v1 (cmpf .oge),
    StableHlo.TRef.nullary main_call0.cst_0 (constant S_ .f32 0x3C23D70A#32),
    StableHlo.TRef.unary main_call0.cst_0 main_call0.v2 (broadcastInDim S2x1303x512 ![] bcast_S_S2x1303x512),
    StableHlo.TRef.binary main_call0.v2 (.of main_v18 : StableHlo.TRef sig ⟨S2x1303x512, .f32⟩) main_call0.v3 mulf,
    StableHlo.TRef.ternary main_call0.v1 (.of main_v18 : StableHlo.TRef sig ⟨S2x1303x512, .f32⟩) main_call0.v3 main_call0.call0.v0 select ]

theorem opsHidT_eq : (opsHidT (F := F)) = opsHid :=
  congrArg₂ List.cons (rfl)
    (congrArg₂ List.cons (rfl)
    (congrArg₂ List.cons (rfl)
    (congrArg₂ List.cons (rfl)
    (congrArg₂ List.cons (nullary_of main_call0_cst _ _ _ _)
    (congrArg₂ List.cons (unary_of main_call0_cst main_call0_v0 _ _ _ _ _ _ _)
    (congrArg₂ List.cons (binary_of main_v18 main_call0_v0 main_call0_v1 _ _ _ _ _ _ _ _ _ _)
    (congrArg₂ List.cons (nullary_of main_call0_cst_0 _ _ _ _)
    (congrArg₂ List.cons (unary_of main_call0_cst_0 main_call0_v2 _ _ _ _ _ _ _)
    (congrArg₂ List.cons (binary_of main_call0_v2 main_v18 main_call0_v3 _ _ _ _ _ _ _ _ _ _)
    (congrArg₂ List.cons (ternary_of main_call0_v1 main_v18 main_call0_v3 main_v19 _ _ _ _ _ _ _ _ _ _ _ _ _)
    (rfl)))))))))))

/-- Values %20 … %24: the second contraction, its bias, and the reading as two groups (5 operations). -/
abbrev opsLogits : List (HloOp τ sig (Elt F)) :=
  [
    StableHlo.binary main_v19 main_arg7 main_v20 ((fun l r => Host.dotGeneral dot_S2x1303x512_S512x64000_S2x1303x64000_2_0_01_1_n_n none l r) : (⟨S2x1303x512, .f32⟩ : BufTy).Contents (Elt F) → (⟨S512x64000, .f32⟩ : BufTy).Contents (Elt F) → (⟨S2x1303x64000, .f32⟩ : BufTy).Contents (Elt F)),
    StableHlo.unary main_arg8 main_v21 (broadcastInDim S1x1x64000 ![2] bcast_S64000_S1x1x64000_2 : (⟨S64000, .f32⟩ : BufTy).Contents (Elt F) → (⟨S1x1x64000, .f32⟩ : BufTy).Contents (Elt F)),
    StableHlo.unary main_v21 main_v22 (broadcastInDim S2x1303x64000 ![0, 1, 2] bcast_S1x1x64000_S2x1303x64000_0_1_2 : (⟨S1x1x64000, .f32⟩ : BufTy).Contents (Elt F) → (⟨S2x1303x64000, .f32⟩ : BufTy).Contents (Elt F)),
    StableHlo.binary main_v20 main_v22 main_v23 (addf : (⟨S2x1303x64000, .f32⟩ : BufTy).Contents (Elt F) → (⟨S2x1303x64000, .f32⟩ : BufTy).Contents (Elt F) → (⟨S2x1303x64000, .f32⟩ : BufTy).Contents (Elt F)),
    StableHlo.reshape main_v23 main_v24 rfl shapeCasts_S2x1303x64000_S2x1303x2x32000 ]

/-- The log-normalisation's body, its values %0 … %11, ending at value %25 (15 operations). -/
abbrev opsLsm : List (HloOp τ sig (Elt F)) :=
  [
    StableHlo.nullary main_call1_cst ((constant S_ .f32 0xFF800000#32) : (⟨S_, .f32⟩ : BufTy).Contents (Elt F)),
    StableHlo.binary main_v24 main_call1_cst main_call1_v0 ((fun x v => Host.reduce FloatOps.maximumf x v reducesTo_S2x1303x2x32000_S2x1303x2_d3 h_S_) : (⟨S2x1303x2x32000, .f32⟩ : BufTy).Contents (Elt F) → (⟨S_, .f32⟩ : BufTy).Contents (Elt F) → (⟨S2x1303x2, .f32⟩ : BufTy).Contents (Elt F)),
    StableHlo.nullary main_call1_cst_0 ((constant S_ .f32 0xFF800000#32) : (⟨S_, .f32⟩ : BufTy).Contents (Elt F)),
    StableHlo.unary main_call1_cst_0 main_call1_v1 ((broadcastInDim S2x1303x2 ![] bcast_S_S2x1303x2) : (⟨S_, .f32⟩ : BufTy).Contents (Elt F) → (⟨S2x1303x2, .f32⟩ : BufTy).Contents (Elt F)),
    StableHlo.binary main_call1_v1 main_call1_v0 main_call1_v2 ((maximumf) : (⟨S2x1303x2, .f32⟩ : BufTy).Contents (Elt F) → (⟨S2x1303x2, .f32⟩ : BufTy).Contents (Elt F) → (⟨S2x1303x2, .f32⟩ : BufTy).Contents (Elt F)),
    StableHlo.unary main_call1_v2 main_call1_v3 ((broadcastInDim S2x1303x2x1 ![0, 1, 2] bcast_S2x1303x2_S2x1303x2x1_0_1_2) : (⟨S2x1303x2, .f32⟩ : BufTy).Contents (Elt F) → (⟨S2x1303x2x1, .f32⟩ : BufTy).Contents (Elt F)),
    StableHlo.unary main_call1_v3 main_call1_v4 ((broadcastInDim S2x1303x2x32000 ![0, 1, 2, 3] bcast_S2x1303x2x1_S2x1303x2x32000_0_1_2_3) : (⟨S2x1303x2x1, .f32⟩ : BufTy).Contents (Elt F) → (⟨S2x1303x2x32000, .f32⟩ : BufTy).Contents (Elt F)),
    StableHlo.binary main_v24 main_call1_v4 main_call1_v5 ((subf) : (⟨S2x1303x2x32000, .f32⟩ : BufTy).Contents (Elt F) → (⟨S2x1303x2x32000, .f32⟩ : BufTy).Contents (Elt F) → (⟨S2x1303x2x32000, .f32⟩ : BufTy).Contents (Elt F)),
    StableHlo.unary main_call1_v5 main_call1_v6 ((Host.exp) : (⟨S2x1303x2x32000, .f32⟩ : BufTy).Contents (Elt F) → (⟨S2x1303x2x32000, .f32⟩ : BufTy).Contents (Elt F)),
    StableHlo.nullary main_call1_cst_1 ((constant S_ .f32 0x00000000#32) : (⟨S_, .f32⟩ : BufTy).Contents (Elt F)),
    StableHlo.binary main_call1_v6 main_call1_cst_1 main_call1_v7 ((fun x v => Host.reduceAdd x v reducesTo_S2x1303x2x32000_S2x1303x2_d3 h_S_) : (⟨S2x1303x2x32000, .f32⟩ : BufTy).Contents (Elt F) → (⟨S_, .f32⟩ : BufTy).Contents (Elt F) → (⟨S2x1303x2, .f32⟩ : BufTy).Contents (Elt F)),
    StableHlo.unary main_call1_v7 main_call1_v8 ((broadcastInDim S2x1303x2x1 ![0, 1, 2] bcast_S2x1303x2_S2x1303x2x1_0_1_2) : (⟨S2x1303x2, .f32⟩ : BufTy).Contents (Elt F) → (⟨S2x1303x2x1, .f32⟩ : BufTy).Contents (Elt F)),
    StableHlo.unary main_call1_v8 main_call1_v9 ((Host.log) : (⟨S2x1303x2x1, .f32⟩ : BufTy).Contents (Elt F) → (⟨S2x1303x2x1, .f32⟩ : BufTy).Contents (Elt F)),
    StableHlo.unary main_call1_v9 main_call1_v10 ((broadcastInDim S2x1303x2x32000 ![0, 1, 2, 3] bcast_S2x1303x2x1_S2x1303x2x32000_0_1_2_3) : (⟨S2x1303x2x1, .f32⟩ : BufTy).Contents (Elt F) → (⟨S2x1303x2x32000, .f32⟩ : BufTy).Contents (Elt F)),
    StableHlo.binary main_call1_v5 main_call1_v10 main_v25 ((subf) : (⟨S2x1303x2x32000, .f32⟩ : BufTy).Contents (Elt F) → (⟨S2x1303x2x32000, .f32⟩ : BufTy).Contents (Elt F) → (⟨S2x1303x2x32000, .f32⟩ : BufTy).Contents (Elt F)) ]

/-- Stage `opsLsm` as the program writes it, over the typed references of the call it inlines. -/
abbrev opsLsmT : List (HloOp τ sig (Elt F)) :=
  [
    StableHlo.TRef.nullary main_call1.cst (constant S_ .f32 0xFF800000#32),
    StableHlo.TRef.binary (.of main_v24 : StableHlo.TRef sig ⟨S2x1303x2x32000, .f32⟩) main_call1.cst main_call1.v0 (fun x v => Host.reduce FloatOps.maximumf x v reducesTo_S2x1303x2x32000_S2x1303x2_d3 h_S_),
    StableHlo.TRef.nullary main_call1.cst_0 (constant S_ .f32 0xFF800000#32),
    StableHlo.TRef.unary main_call1.cst_0 main_call1.v1 (broadcastInDim S2x1303x2 ![] bcast_S_S2x1303x2),
    StableHlo.TRef.binary main_call1.v1 main_call1.v0 main_call1.v2 maximumf,
    StableHlo.TRef.unary main_call1.v2 main_call1.v3 (broadcastInDim S2x1303x2x1 ![0, 1, 2] bcast_S2x1303x2_S2x1303x2x1_0_1_2),
    StableHlo.TRef.unary main_call1.v3 main_call1.v4 (broadcastInDim S2x1303x2x32000 ![0, 1, 2, 3] bcast_S2x1303x2x1_S2x1303x2x32000_0_1_2_3),
    StableHlo.TRef.binary (.of main_v24 : StableHlo.TRef sig ⟨S2x1303x2x32000, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S2x1303x2x32000_S2x1303x2_d3 h_S_),
    StableHlo.TRef.unary main_call1.v7 main_call1.v8 (broadcastInDim S2x1303x2x1 ![0, 1, 2] bcast_S2x1303x2_S2x1303x2x1_0_1_2),
    StableHlo.TRef.unary main_call1.v8 main_call1.v9 Host.log,
    StableHlo.TRef.unary main_call1.v9 main_call1.v10 (broadcastInDim S2x1303x2x32000 ![0, 1, 2, 3] bcast_S2x1303x2x1_S2x1303x2x32000_0_1_2_3),
    StableHlo.TRef.binary main_call1.v5 main_call1.v10 main_call1.v11 subf ]

theorem opsLsmT_eq : (opsLsmT (F := F)) = opsLsm :=
  congrArg₂ List.cons (nullary_of main_call1_cst _ _ _ _)
    (congrArg₂ List.cons (binary_of main_v24 main_call1_cst main_call1_v0 _ _ _ _ _ _ _ _ _ _)
    (congrArg₂ List.cons (nullary_of main_call1_cst_0 _ _ _ _)
    (congrArg₂ List.cons (unary_of main_call1_cst_0 main_call1_v1 _ _ _ _ _ _ _)
    (congrArg₂ List.cons (binary_of main_call1_v1 main_call1_v0 main_call1_v2 _ _ _ _ _ _ _ _ _ _)
    (congrArg₂ List.cons (unary_of main_call1_v2 main_call1_v3 _ _ _ _ _ _ _)
    (congrArg₂ List.cons (unary_of main_call1_v3 main_call1_v4 _ _ _ _ _ _ _)
    (congrArg₂ List.cons (binary_of main_v24 main_call1_v4 main_call1_v5 _ _ _ _ _ _ _ _ _ _)
    (congrArg₂ List.cons (unary_of main_call1_v5 main_call1_v6 _ _ _ _ _ _ _)
    (congrArg₂ List.cons (nullary_of main_call1_cst_1 _ _ _ _)
    (congrArg₂ List.cons (binary_of main_call1_v6 main_call1_cst_1 main_call1_v7 _ _ _ _ _ _ _ _ _ _)
    (congrArg₂ List.cons (unary_of main_call1_v7 main_call1_v8 _ _ _ _ _ _ _)
    (congrArg₂ List.cons (unary_of main_call1_v8 main_call1_v9 _ _ _ _ _ _ _)
    (congrArg₂ List.cons (unary_of main_call1_v9 main_call1_v10 _ _ _ _ _ _ _)
    (congrArg₂ List.cons (binary_of main_call1_v5 main_call1_v10 main_v25 _ _ _ _ _ _ _ _ _ _)
    (rfl)))))))))))))))

/-- Values %26 … %42: the two index normalisations again, the two picks of label columns, and their join (21 operations). -/
abbrev opsLbl : List (HloOp τ sig (Elt F)) :=
  [
    StableHlo.nullary main_c_3 (constantI S_ 32 0#32),
    StableHlo.unary main_c_3 main_v26 (broadcastInDim S1303 ![] bcast_S_S1303 : (⟨S_, .i32⟩ : BufTy).Contents (Elt F) → (⟨S1303, .i32⟩ : BufTy).Contents (Elt F)),
    StableHlo.binary main_arg3 main_v26 main_v27 (cmpi .slt : (⟨S1303, .i32⟩ : BufTy).Contents (Elt F) → (⟨S1303, .i32⟩ : BufTy).Contents (Elt F) → (⟨S1303, .i1⟩ : BufTy).Contents (Elt F)),
    StableHlo.nullary main_c_4 (constantI S_ 32 512#32),
    StableHlo.unary main_c_4 main_v28 (broadcastInDim S1303 ![] bcast_S_S1303 : (⟨S_, .i32⟩ : BufTy).Contents (Elt F) → (⟨S1303, .i32⟩ : BufTy).Contents (Elt F)),
    StableHlo.binary main_arg3 main_v28 main_v29 (addi : (⟨S1303, .i32⟩ : BufTy).Contents (Elt F) → (⟨S1303, .i32⟩ : BufTy).Contents (Elt F) → (⟨S1303, .i32⟩ : BufTy).Contents (Elt F)),
    StableHlo.ternary main_v27 main_v29 main_arg3 main_v30 (select : (⟨S1303, .i1⟩ : BufTy).Contents (Elt F) → (⟨S1303, .i32⟩ : BufTy).Contents (Elt F) → (⟨S1303, .i32⟩ : BufTy).Contents (Elt F) → (⟨S1303, .i32⟩ : BufTy).Contents (Elt F)),
    StableHlo.unary main_v30 main_v31 (broadcastInDim S1303x1 ![0] bcast_S1303_S1303x1_0 : (⟨S1303, .i32⟩ : BufTy).Contents (Elt F) → (⟨S1303x1, .i32⟩ : BufTy).Contents (Elt F)),
    StableHlo.binary main_arg2 main_v31 main_v32 ((fun x i => Host.gather gather_S2x512_S1303x1_S2x1303_0_1_n_n_1_1_21 x i) : (⟨S2x512, .i32⟩ : BufTy).Contents (Elt F) → (⟨S1303x1, .i32⟩ : BufTy).Contents (Elt F) → (⟨S2x1303, .i32⟩ : BufTy).Contents (Elt F)),
    StableHlo.nullary main_c_5 (constantI S_ 32 0#32),
    StableHlo.unary main_c_5 main_v33 (broadcastInDim S1303 ![] bcast_S_S1303 : (⟨S_, .i32⟩ : BufTy).Contents (Elt F) → (⟨S1303, .i32⟩ : BufTy).Contents (Elt F)),
    StableHlo.binary main_arg4 main_v33 main_v34 (cmpi .slt : (⟨S1303, .i32⟩ : BufTy).Contents (Elt F) → (⟨S1303, .i32⟩ : BufTy).Contents (Elt F) → (⟨S1303, .i1⟩ : BufTy).Contents (Elt F)),
    StableHlo.nullary main_c_6 (constantI S_ 32 512#32),
    StableHlo.unary main_c_6 main_v35 (broadcastInDim S1303 ![] bcast_S_S1303 : (⟨S_, .i32⟩ : BufTy).Contents (Elt F) → (⟨S1303, .i32⟩ : BufTy).Contents (Elt F)),
    StableHlo.binary main_arg4 main_v35 main_v36 (addi : (⟨S1303, .i32⟩ : BufTy).Contents (Elt F) → (⟨S1303, .i32⟩ : BufTy).Contents (Elt F) → (⟨S1303, .i32⟩ : BufTy).Contents (Elt F)),
    StableHlo.ternary main_v34 main_v36 main_arg4 main_v37 (select : (⟨S1303, .i1⟩ : BufTy).Contents (Elt F) → (⟨S1303, .i32⟩ : BufTy).Contents (Elt F) → (⟨S1303, .i32⟩ : BufTy).Contents (Elt F) → (⟨S1303, .i32⟩ : BufTy).Contents (Elt F)),
    StableHlo.unary main_v37 main_v38 (broadcastInDim S1303x1 ![0] bcast_S1303_S1303x1_0 : (⟨S1303, .i32⟩ : BufTy).Contents (Elt F) → (⟨S1303x1, .i32⟩ : BufTy).Contents (Elt F)),
    StableHlo.binary main_arg2 main_v38 main_v39 ((fun x i => Host.gather gather_S2x512_S1303x1_S2x1303_0_1_n_n_1_1_21 x i) : (⟨S2x512, .i32⟩ : BufTy).Contents (Elt F) → (⟨S1303x1, .i32⟩ : BufTy).Contents (Elt F) → (⟨S2x1303, .i32⟩ : BufTy).Contents (Elt F)),
    StableHlo.unary main_v32 main_v40 (broadcastInDim S2x1303x1 ![0, 1] bcast_S2x1303_S2x1303x1_0_1 : (⟨S2x1303, .i32⟩ : BufTy).Contents (Elt F) → (⟨S2x1303x1, .i32⟩ : BufTy).Contents (Elt F)),
    StableHlo.unary main_v39 main_v41 (broadcastInDim S2x1303x1 ![0, 1] bcast_S2x1303_S2x1303x1_0_1 : (⟨S2x1303, .i32⟩ : BufTy).Contents (Elt F) → (⟨S2x1303x1, .i32⟩ : BufTy).Contents (Elt F)),
    StableHlo.binary main_v40 main_v41 main_v42 ((fun a b => concatenate S2x1303x2 2 [⟨S2x1303x1, a⟩, ⟨S2x1303x1, b⟩] concatenates_S2x1303x1_S2x1303x1_S2x1303x2_d2) : (⟨S2x1303x1, .i32⟩ : BufTy).Contents (Elt F) → (⟨S2x1303x1, .i32⟩ : BufTy).Contents (Elt F) → (⟨S2x1303x2, .i32⟩ : BufTy).Contents (Elt F)) ]

/-- Value %43, the body of the selection along the last axis ending at value %44, and value %45 (24 operations). -/
abbrev opsTake : List (HloOp τ sig (Elt F)) :=
  [
    StableHlo.unary main_v42 main_v43 (broadcastInDim S2x1303x2x1 ![0, 1, 2] bcast_S2x1303x2_S2x1303x2x1_0_1_2 : (⟨S2x1303x2, .i32⟩ : BufTy).Contents (Elt F) → (⟨S2x1303x2x1, .i32⟩ : BufTy).Contents (Elt F)),
    StableHlo.nullary main_call2_c ((constantI S_ 32 0#32) : (⟨S_, .i32⟩ : BufTy).Contents (Elt F)),
    StableHlo.unary main_call2_c main_call2_v0 ((broadcastInDim S2x1303x2x1 ![] bcast_S_S2x1303x2x1) : (⟨S_, .i32⟩ : BufTy).Contents (Elt F) → (⟨S2x1303x2x1, .i32⟩ : BufTy).Contents (Elt F)),
    StableHlo.binary main_v43 main_call2_v0 main_call2_v1 ((cmpi .slt) : (⟨S2x1303x2x1, .i32⟩ : BufTy).Contents (Elt F) → (⟨S2x1303x2x1, .i32⟩ : BufTy).Contents (Elt F) → (⟨S2x1303x2x1, .i1⟩ : BufTy).Contents (Elt F)),
    StableHlo.nullary main_call2_c_0 ((constantI S_ 32 32000#32) : (⟨S_, .i32⟩ : BufTy).Contents (Elt F)),
    StableHlo.unary main_call2_c_0 main_call2_v2 ((broadcastInDim S2x1303x2x1 ![] bcast_S_S2x1303x2x1) : (⟨S_, .i32⟩ : BufTy).Contents (Elt F) → (⟨S2x1303x2x1, .i32⟩ : BufTy).Contents (Elt F)),
    StableHlo.binary main_v43 main_call2_v2 main_call2_v3 ((addi) : (⟨S2x1303x2x1, .i32⟩ : BufTy).Contents (Elt F) → (⟨S2x1303x2x1, .i32⟩ : BufTy).Contents (Elt F) → (⟨S2x1303x2x1, .i32⟩ : BufTy).Contents (Elt F)),
    StableHlo.ternary main_call2_v1 main_call2_v3 main_v43 main_call2_v4 ((select) : (⟨S2x1303x2x1, .i1⟩ : BufTy).Contents (Elt F) → (⟨S2x1303x2x1, .i32⟩ : BufTy).Contents (Elt F) → (⟨S2x1303x2x1, .i32⟩ : BufTy).Contents (Elt F) → (⟨S2x1303x2x1, .i32⟩ : BufTy).Contents (Elt F)),
    StableHlo.reshape main_call2_v4 main_call2_v5 rfl shapeCasts_S2x1303x2x1_S2x1303x2x1x1,
    StableHlo.nullary main_call2_c_1 ((constantI S1 32 31999#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S2x1303x2x1x1 ![] bcast_S_S2x1303x2x1x1) : (⟨S_, .i32⟩ : BufTy).Contents (Elt F) → (⟨S2x1303x2x1x1, .i32⟩ : BufTy).Contents (Elt F)),
    StableHlo.binary main_call2_v5 main_call2_v6 main_call2_v7 ((cmpi .sge) : (⟨S2x1303x2x1x1, .i32⟩ : BufTy).Contents (Elt F) → (⟨S2x1303x2x1x1, .i32⟩ : BufTy).Contents (Elt F) → (⟨S2x1303x2x1x1, .i1⟩ : BufTy).Contents (Elt F)),
    StableHlo.unary main_call2_c_1 main_call2_v8 ((broadcastInDim S1x1x1x1x1 ![4] bcast_S1_S1x1x1x1x1_4) : (⟨S1, .i32⟩ : BufTy).Contents (Elt F) → (⟨S1x1x1x1x1, .i32⟩ : BufTy).Contents (Elt F)),
    StableHlo.unary main_call2_v8 main_call2_v9 ((broadcastInDim S2x1303x2x1x1 ![0, 1, 2, 3, 4] bcast_S1x1x1x1x1_S2x1303x2x1x1_0_1_2_3_4) : (⟨S1x1x1x1x1, .i32⟩ : BufTy).Contents (Elt F) → (⟨S2x1303x2x1x1, .i32⟩ : BufTy).Contents (Elt F)),
    StableHlo.binary main_call2_v5 main_call2_v9 main_call2_v10 ((cmpi .sle) : (⟨S2x1303x2x1x1, .i32⟩ : BufTy).Contents (Elt F) → (⟨S2x1303x2x1x1, .i32⟩ : BufTy).Contents (Elt F) → (⟨S2x1303x2x1x1, .i1⟩ : BufTy).Contents (Elt F)),
    StableHlo.binary main_call2_v7 main_call2_v10 main_call2_v11 ((andi) : (⟨S2x1303x2x1x1, .i1⟩ : BufTy).Contents (Elt F) → (⟨S2x1303x2x1x1, .i1⟩ : BufTy).Contents (Elt F) → (⟨S2x1303x2x1x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S2x1303x2x1x1_S2x1303x2x1_d4 h_S_) : (⟨S2x1303x2x1x1, .i1⟩ : BufTy).Contents (Elt F) → (⟨S_, .i1⟩ : BufTy).Contents (Elt F) → (⟨S2x1303x2x1, .i1⟩ : BufTy).Contents (Elt F)),
    StableHlo.binary main_v25 main_call2_v5 main_call2_v13 ((fun x i => Host.gather gather_S2x1303x2x32000_S2x1303x2x1x1_S2x1303x2x1_n_3_012_012_3_4_1111 x i) : (⟨S2x1303x2x32000, .f32⟩ : BufTy).Contents (Elt F) → (⟨S2x1303x2x1x1, .i32⟩ : BufTy).Contents (Elt F) → (⟨S2x1303x2x1, .f32⟩ : BufTy).Contents (Elt F)),
    StableHlo.nullary main_call2_cst ((constant S_ .f32 0x7FC00000#32) : (⟨S_, .f32⟩ : BufTy).Contents (Elt F)),
    StableHlo.unary main_call2_cst main_call2_v14 ((broadcastInDim S2x1303x2x1 ![] bcast_S_S2x1303x2x1) : (⟨S_, .f32⟩ : BufTy).Contents (Elt F) → (⟨S2x1303x2x1, .f32⟩ : BufTy).Contents (Elt F)),
    StableHlo.ternary main_call2_v12 main_call2_v13 main_call2_v14 main_v44 ((select) : (⟨S2x1303x2x1, .i1⟩ : BufTy).Contents (Elt F) → (⟨S2x1303x2x1, .f32⟩ : BufTy).Contents (Elt F) → (⟨S2x1303x2x1, .f32⟩ : BufTy).Contents (Elt F) → (⟨S2x1303x2x1, .f32⟩ : BufTy).Contents (Elt F)),
    StableHlo.reshape main_v44 main_v45 rfl shapeCasts_S2x1303x2x1_S2x1303x2 ]

/-- Stage `opsTake` as the program writes it, over the typed references of the call it inlines. -/
abbrev opsTakeT : List (HloOp τ sig (Elt F)) :=
  [
    StableHlo.unary main_v42 main_v43 (broadcastInDim S2x1303x2x1 ![0, 1, 2] bcast_S2x1303x2_S2x1303x2x1_0_1_2 : (⟨S2x1303x2, .i32⟩ : BufTy).Contents (Elt F) → (⟨S2x1303x2x1, .i32⟩ : BufTy).Contents (Elt F)),
    StableHlo.TRef.nullary main_call2.c (constantI S_ 32 0#32),
    StableHlo.TRef.unary main_call2.c main_call2.v0 (broadcastInDim S2x1303x2x1 ![] bcast_S_S2x1303x2x1),
    StableHlo.TRef.binary (.of main_v43 : StableHlo.TRef sig ⟨S2x1303x2x1, .i32⟩) main_call2.v0 main_call2.v1 (cmpi .slt),
    StableHlo.TRef.nullary main_call2.c_0 (constantI S_ 32 32000#32),
    StableHlo.TRef.unary main_call2.c_0 main_call2.v2 (broadcastInDim S2x1303x2x1 ![] bcast_S_S2x1303x2x1),
    StableHlo.TRef.binary (.of main_v43 : StableHlo.TRef sig ⟨S2x1303x2x1, .i32⟩) main_call2.v2 main_call2.v3 addi,
    StableHlo.TRef.ternary main_call2.v1 main_call2.v3 (.of main_v43 : StableHlo.TRef sig ⟨S2x1303x2x1, .i32⟩) main_call2.v4 select,
    StableHlo.TRef.reshape main_call2.v4 main_call2.v5 rfl shapeCasts_S2x1303x2x1_S2x1303x2x1x1,
    StableHlo.TRef.nullary main_call2.c_1 (constantI S1 32 31999#32),
    StableHlo.TRef.nullary main_call2.c_2 (constantI S_ 32 0#32),
    StableHlo.TRef.unary main_call2.c_2 main_call2.v6 (broadcastInDim S2x1303x2x1x1 ![] bcast_S_S2x1303x2x1x1),
    StableHlo.TRef.binary main_call2.v5 main_call2.v6 main_call2.v7 (cmpi .sge),
    StableHlo.TRef.unary main_call2.c_1 main_call2.v8 (broadcastInDim S1x1x1x1x1 ![4] bcast_S1_S1x1x1x1x1_4),
    StableHlo.TRef.unary main_call2.v8 main_call2.v9 (broadcastInDim S2x1303x2x1x1 ![0, 1, 2, 3, 4] bcast_S1x1x1x1x1_S2x1303x2x1x1_0_1_2_3_4),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S2x1303x2x1x1_S2x1303x2x1_d4 h_S_),
    StableHlo.TRef.binary (.of main_v25 : StableHlo.TRef sig ⟨S2x1303x2x32000, .f32⟩) main_call2.v5 main_call2.v13 (fun x i => Host.gather gather_S2x1303x2x32000_S2x1303x2x1x1_S2x1303x2x1_n_3_012_012_3_4_1111 x i),
    StableHlo.TRef.nullary main_call2.cst (constant S_ .f32 0x7FC00000#32),
    StableHlo.TRef.unary main_call2.cst main_call2.v14 (broadcastInDim S2x1303x2x1 ![] bcast_S_S2x1303x2x1),
    StableHlo.TRef.ternary main_call2.v12 main_call2.v13 main_call2.v14 main_call2.v15 select,
    StableHlo.reshape main_v44 main_v45 rfl shapeCasts_S2x1303x2x1_S2x1303x2 ]

theorem opsTakeT_eq : (opsTakeT (F := F)) = opsTake :=
  congrArg₂ List.cons (rfl)
    (congrArg₂ List.cons (nullary_of main_call2_c _ _ _ _)
    (congrArg₂ List.cons (unary_of main_call2_c main_call2_v0 _ _ _ _ _ _ _)
    (congrArg₂ List.cons (binary_of main_v43 main_call2_v0 main_call2_v1 _ _ _ _ _ _ _ _ _ _)
    (congrArg₂ List.cons (nullary_of main_call2_c_0 _ _ _ _)
    (congrArg₂ List.cons (unary_of main_call2_c_0 main_call2_v2 _ _ _ _ _ _ _)
    (congrArg₂ List.cons (binary_of main_v43 main_call2_v2 main_call2_v3 _ _ _ _ _ _ _ _ _ _)
    (congrArg₂ List.cons (ternary_of main_call2_v1 main_call2_v3 main_v43 main_call2_v4 _ _ _ _ _ _ _ _ _ _ _ _ _)
    (congrArg₂ List.cons (rfl)
    (congrArg₂ List.cons (nullary_of main_call2_c_1 _ _ _ _)
    (congrArg₂ List.cons (nullary_of main_call2_c_2 _ _ _ _)
    (congrArg₂ List.cons (unary_of main_call2_c_2 main_call2_v6 _ _ _ _ _ _ _)
    (congrArg₂ List.cons (binary_of main_call2_v5 main_call2_v6 main_call2_v7 _ _ _ _ _ _ _ _ _ _)
    (congrArg₂ List.cons (unary_of main_call2_c_1 main_call2_v8 _ _ _ _ _ _ _)
    (congrArg₂ List.cons (unary_of main_call2_v8 main_call2_v9 _ _ _ _ _ _ _)
    (congrArg₂ List.cons (binary_of main_call2_v5 main_call2_v9 main_call2_v10 _ _ _ _ _ _ _ _ _ _)
    (congrArg₂ List.cons (binary_of main_call2_v7 main_call2_v10 main_call2_v11 _ _ _ _ _ _ _ _ _ _)
    (congrArg₂ List.cons (nullary_of main_call2_c_3 _ _ _ _)
    (congrArg₂ List.cons (binary_of main_call2_v11 main_call2_c_3 main_call2_v12 _ _ _ _ _ _ _ _ _ _)
    (congrArg₂ List.cons (binary_of main_v25 main_call2_v5 main_call2_v13 _ _ _ _ _ _ _ _ _ _)
    (congrArg₂ List.cons (nullary_of main_call2_cst _ _ _ _)
    (congrArg₂ List.cons (unary_of main_call2_cst main_call2_v14 _ _ _ _ _ _ _)
    (congrArg₂ List.cons (ternary_of main_call2_v12 main_call2_v13 main_call2_v14 main_v44 _ _ _ _ _ _ _ _ _ _ _ _ _)
    (congrArg₂ List.cons (rfl)
    (rfl))))))))))))))))))))))))

/-- Values %46 … %51: negation, weights, product, total, quotient (8 operations). -/
abbrev opsWm : List (HloOp τ sig (Elt F)) :=
  [
    StableHlo.unary main_v45 main_v46 (Host.negf : (⟨S2x1303x2, .f32⟩ : BufTy).Contents (Elt F) → (⟨S2x1303x2, .f32⟩ : BufTy).Contents (Elt F)),
    StableHlo.unary main_cst main_v47 (broadcastInDim S1x1x2 ![2] bcast_S2_S1x1x2_2 : (⟨S2, .f32⟩ : BufTy).Contents (Elt F) → (⟨S1x1x2, .f32⟩ : BufTy).Contents (Elt F)),
    StableHlo.unary main_v47 main_v48 (broadcastInDim S2x1303x2 ![0, 1, 2] bcast_S1x1x2_S2x1303x2_0_1_2 : (⟨S1x1x2, .f32⟩ : BufTy).Contents (Elt F) → (⟨S2x1303x2, .f32⟩ : BufTy).Contents (Elt F)),
    StableHlo.binary main_v46 main_v48 main_v49 (mulf : (⟨S2x1303x2, .f32⟩ : BufTy).Contents (Elt F) → (⟨S2x1303x2, .f32⟩ : BufTy).Contents (Elt F) → (⟨S2x1303x2, .f32⟩ : BufTy).Contents (Elt F)),
    StableHlo.nullary main_cst_7 (constant S_ .f32 0x00000000#32),
    StableHlo.binary main_v49 main_cst_7 main_v50 ((fun x v => Host.reduceAdd x v reducesTo_S2x1303x2_S_d0_1_2 h_S_) : (⟨S2x1303x2, .f32⟩ : BufTy).Contents (Elt F) → (⟨S_, .f32⟩ : BufTy).Contents (Elt F) → (⟨S_, .f32⟩ : BufTy).Contents (Elt F)),
    StableHlo.nullary main_cst_8 (constant S_ .f32 0x45A2E000#32),
    StableHlo.binary main_v50 main_cst_8 main_v51 (Host.divf : (⟨S_, .f32⟩ : BufTy).Contents (Elt F) → (⟨S_, .f32⟩ : BufTy).Contents (Elt F) → (⟨S_, .f32⟩ : BufTy).Contents (Elt F)) ]

/-- The whole line: the seven stages in order. -/
abbrev ops : List (HloOp τ sig (Elt F)) :=
  opsFb ++ (opsHid ++ (opsLogits ++ (opsLsm ++ (opsLbl ++ (opsTake ++ opsWm)))))

/-- The whole line as the program writes it. -/
abbrev opsT : List (HloOp τ sig (Elt F)) :=
  opsFb ++ (opsHidT ++ (opsLogits ++ (opsLsmT ++ (opsLbl ++ (opsTakeT ++ opsWm)))))

theorem opsT_eq : (opsT (F := F)) = ops := by
  show opsFb ++ (opsHidT ++ (opsLogits ++ (opsLsmT ++ (opsLbl ++ (opsTakeT ++ opsWm))))) = opsFb ++ (opsHid ++ (opsLogits ++ (opsLsm ++ (opsLbl ++ (opsTake ++ opsWm)))))
  rw [opsHidT_eq, opsLsmT_eq, opsTakeT_eq]

/-! ## The program is that line -/

set_option maxRecDepth 16384 in
set_option maxHeartbeats 4000000 in
/-- The program's two windows and the three called bodies, unfolded and with their sequencing
    reassociated, are one chain of the 104 operations. -/
theorem main_eqT (c : Dev nD) : main (F := F) c = seq opsT := by
  simp only [main, main_part0, main_part1, fn_leaky_relu.body, fn_where.body, fn_log_softmax.body, fn_take_along_axis.body,
    opsT, seq_append, opsFb, opsHidT, opsLogits, opsLsmT, opsLbl, opsTakeT, opsWm, seq, bind_assoc, pure_bind]

theorem main_eq (c : Dev nD) : main (F := F) c = seq ops :=
  (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

/-! ## Which arrays each stage writes, and what it leaves alone -/

/-- A one-element set of arrays lies in the set of a list that has the element. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset := by
  rw [Finset.singleton_subset_iff, List.mem_toFinset]
  exact List.mem_map.mpr ⟨y, h, rfl⟩

/-- The arrays stage `opsFb` writes, in order. -/
abbrev writesFb : List (Ref sig .tc) :=
  [
    main_cst, main_c, main_v0, main_v1, main_c_0, main_v2, main_v3, main_v4,
    main_v5, main_v6, main_c_1, main_v7, main_v8, main_c_2, main_v9, main_v10,
    main_v11, main_v12, main_v13, main_v14 ]

theorem opsFb_writes :
    (opsFb (F := F)).Forall fun op => op.writes ⊆ (writesFb.map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

theorem opsFb_sub : (opsFb (F := F)).Forall fun op => op.bufs ⊆ tcRefs τ sig :=
  ⟨
    nullary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub ..⟩

theorem opsFb_fresh : ∀ op ∈ (opsFb (F := F)), op.fresh = ∅ := by
  intro _ h; (repeat (cases h with | head => rfl | tail _ h => ?_)); exact nomatch h

/-- An array the stage does not write holds after it what it held before. -/
theorem frameFb (V : Valuation τ sig (Elt F)) {r : Ref sig .tc} (hr : r ∉ writesFb) :
    after opsFb V (r : DevRef τ sig) = V (r : DevRef τ sig) :=
  after_of_writes_sub opsFb V opsFb_writes hr

/-- The arrays stage `opsHid` writes, in order. -/
abbrev writesHid : List (Ref sig .tc) :=
  [
    main_v15, main_v16, main_v17, main_v18, main_call0_cst, main_call0_v0, main_call0_v1, main_call0_cst_0,
    main_call0_v2, main_call0_v3, main_v19 ]

theorem opsHid_writes :
    (opsHid (F := F)).Forall fun op => op.writes ⊆ (writesHid.map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

theorem opsHid_sub : (opsHid (F := F)).Forall fun op => op.bufs ⊆ tcRefs τ sig :=
  ⟨
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub ..⟩

theorem opsHid_fresh : ∀ op ∈ (opsHid (F := F)), op.fresh = ∅ := by
  intro _ h; (repeat (cases h with | head => rfl | tail _ h => ?_)); exact nomatch h

/-- An array the stage does not write holds after it what it held before. -/
theorem frameHid (V : Valuation τ sig (Elt F)) {r : Ref sig .tc} (hr : r ∉ writesHid) :
    after opsHid V (r : DevRef τ sig) = V (r : DevRef τ sig) :=
  after_of_writes_sub opsHid V opsHid_writes hr

/-- The arrays stage `opsLogits` writes, in order. -/
abbrev writesLogits : List (Ref sig .tc) :=
  [
    main_v20, main_v21, main_v22, main_v23, main_v24 ]

theorem opsLogits_writes :
    (opsLogits (F := F)).Forall fun op => op.writes ⊆ (writesLogits.map (Proc.devRef (τ := τ) .tc)).toFinset :=
  ⟨
    writes_sub_of_mem (by decide), writes_sub_of_mem (by decide), writes_sub_of_mem (by decide), writes_sub_of_mem (by decide),
    writes_sub_of_mem (by decide)⟩

theorem opsLogits_sub : (opsLogits (F := F)).Forall fun op => op.bufs ⊆ tcRefs τ sig :=
  ⟨
    binary_bufs_sub .., unary_bufs_sub .., unary_bufs_sub .., binary_bufs_sub .., reshape_bufs_sub ..⟩

theorem opsLogits_fresh : ∀ op ∈ (opsLogits (F := F)), op.fresh = ∅ := by
  intro _ h; (repeat (cases h with | head => rfl | tail _ h => ?_)); exact nomatch h

/-- An array the stage does not write holds after it what it held before. -/
theorem frameLogits (V : Valuation τ sig (Elt F)) {r : Ref sig .tc} (hr : r ∉ writesLogits) :
    after opsLogits V (r : DevRef τ sig) = V (r : DevRef τ sig) :=
  after_of_writes_sub opsLogits V opsLogits_writes hr

/-- The arrays stage `opsLsm` writes, in order. -/
abbrev writesLsm : List (Ref sig .tc) :=
  [
    main_call1_cst, main_call1_v0, main_call1_cst_0, main_call1_v1, main_call1_v2, main_call1_v3, main_call1_v4, main_call1_v5,
    main_call1_v6, main_call1_cst_1, main_call1_v7, main_call1_v8, main_call1_v9, main_call1_v10, main_v25 ]

theorem opsLsm_writes :
    (opsLsm (F := F)).Forall fun op => op.writes ⊆ (writesLsm.map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide)⟩

theorem opsLsm_sub : (opsLsm (F := F)).Forall fun op => op.bufs ⊆ tcRefs τ sig :=
  ⟨
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem opsLsm_fresh : ∀ op ∈ (opsLsm (F := F)), op.fresh = ∅ := by
  intro _ h; (repeat (cases h with | head => rfl | tail _ h => ?_)); exact nomatch h

/-- An array the stage does not write holds after it what it held before. -/
theorem frameLsm (V : Valuation τ sig (Elt F)) {r : Ref sig .tc} (hr : r ∉ writesLsm) :
    after opsLsm V (r : DevRef τ sig) = V (r : DevRef τ sig) :=
  after_of_writes_sub opsLsm V opsLsm_writes hr

/-- The arrays stage `opsLbl` writes, in order. -/
abbrev writesLbl : List (Ref sig .tc) :=
  [
    main_c_3, main_v26, main_v27, main_c_4, main_v28, main_v29, main_v30, main_v31,
    main_v32, main_c_5, main_v33, main_v34, main_c_6, main_v35, main_v36, main_v37,
    main_v38, main_v39, main_v40, main_v41, main_v42 ]

theorem opsLbl_writes :
    (opsLbl (F := F)).Forall fun op => op.writes ⊆ (writesLbl.map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide)⟩

theorem opsLbl_sub : (opsLbl (F := F)).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub ..⟩

theorem opsLbl_fresh : ∀ op ∈ (opsLbl (F := F)), op.fresh = ∅ := by
  intro _ h; (repeat (cases h with | head => rfl | tail _ h => ?_)); exact nomatch h

/-- An array the stage does not write holds after it what it held before. -/
theorem frameLbl (V : Valuation τ sig (Elt F)) {r : Ref sig .tc} (hr : r ∉ writesLbl) :
    after opsLbl V (r : DevRef τ sig) = V (r : DevRef τ sig) :=
  after_of_writes_sub opsLbl V opsLbl_writes hr

/-- The arrays stage `opsTake` writes, in order. -/
abbrev writesTake : List (Ref sig .tc) :=
  [
    main_v43, main_call2_c, main_call2_v0, main_call2_v1, main_call2_c_0, main_call2_v2, main_call2_v3, main_call2_v4,
    main_call2_v5, main_call2_c_1, main_call2_c_2, main_call2_v6, main_call2_v7, main_call2_v8, main_call2_v9, main_call2_v10,
    main_call2_v11, main_call2_c_3, main_call2_v12, main_call2_v13, main_call2_cst, main_call2_v14, main_v44, main_v45 ]

theorem opsTake_writes :
    (opsTake (F := F)).Forall fun op => op.writes ⊆ (writesTake.map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

theorem opsTake_sub : (opsTake (F := F)).Forall fun op => op.bufs ⊆ tcRefs τ sig :=
  ⟨
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..⟩

theorem opsTake_fresh : ∀ op ∈ (opsTake (F := F)), op.fresh = ∅ := by
  intro _ h; (repeat (cases h with | head => rfl | tail _ h => ?_)); exact nomatch h

/-- An array the stage does not write holds after it what it held before. -/
theorem frameTake (V : Valuation τ sig (Elt F)) {r : Ref sig .tc} (hr : r ∉ writesTake) :
    after opsTake V (r : DevRef τ sig) = V (r : DevRef τ sig) :=
  after_of_writes_sub opsTake V opsTake_writes hr

/-- The arrays stage `opsWm` writes, in order. -/
abbrev writesWm : List (Ref sig .tc) :=
  [
    main_v46, main_v47, main_v48, main_v49, main_cst_7, main_v50, main_cst_8, main_v51 ]

theorem opsWm_writes :
    (opsWm (F := F)).Forall fun op => op.writes ⊆ (writesWm.map (Proc.devRef (τ := τ) .tc)).toFinset :=
  ⟨
    writes_sub_of_mem (by decide), writes_sub_of_mem (by decide), writes_sub_of_mem (by decide), writes_sub_of_mem (by decide),
    writes_sub_of_mem (by decide), writes_sub_of_mem (by decide), writes_sub_of_mem (by decide), writes_sub_of_mem (by decide)⟩

theorem opsWm_sub : (opsWm (F := F)).Forall fun op => op.bufs ⊆ tcRefs τ sig :=
  ⟨
    unary_bufs_sub .., unary_bufs_sub .., unary_bufs_sub .., binary_bufs_sub .., nullary_bufs_sub .., binary_bufs_sub ..,
    nullary_bufs_sub .., binary_bufs_sub ..⟩

theorem opsWm_fresh : ∀ op ∈ (opsWm (F := F)), op.fresh = ∅ := by
  intro _ h; (repeat (cases h with | head => rfl | tail _ h => ?_)); exact nomatch h

/-- An array the stage does not write holds after it what it held before. -/
theorem frameWm (V : Valuation τ sig (Elt F)) {r : Ref sig .tc} (hr : r ∉ writesWm) :
    after opsWm V (r : DevRef τ sig) = V (r : DevRef τ sig) :=
  after_of_writes_sub opsWm V opsWm_writes hr

theorem ops_sub : (ops (F := F)).Forall fun op => op.bufs ⊆ tcRefs τ sig := by
  simp only [ops, List.forall_append]
  exact ⟨opsFb_sub, opsHid_sub, opsLogits_sub, opsLsm_sub, opsLbl_sub, opsTake_sub, opsWm_sub⟩

theorem ops_fresh : ∀ op ∈ (ops (F := F)), op.fresh = ∅ := by
  intro op h
  simp only [ops, List.mem_append] at h
  rcases h with h | h | h | h | h | h | h
  exacts [opsFb_fresh op h, opsHid_fresh op h, opsLogits_fresh op h, opsLsm_fresh op h, opsLbl_fresh op h,
    opsTake_fresh op h, opsWm_fresh op h]

/-- An array no stage writes holds after the whole line what it held before. -/
theorem frame_all (V : Valuation τ sig (Elt F)) {r : Ref sig .tc} (h1 : r ∉ writesFb) (h2 : r ∉ writesHid)
    (h3 : r ∉ writesLogits) (h4 : r ∉ writesLsm) (h5 : r ∉ writesLbl) (h6 : r ∉ writesTake) (h7 : r ∉ writesWm) :
    after ops V (r : DevRef τ sig) = V (r : DevRef τ sig) := by
  simp only [ops, after_append]
  rw [frameWm _ h7, frameTake _ h6, frameLbl _ h5, frameLsm _ h4, frameLogits _ h3, frameHid _ h2, frameFb _ h1]

/-! ## What each stage computes -/

attribute [local irreducible] Host.gather concatenate Host.reduce Host.reduceAdd shapeCast broadcastInDim in
/-- After the first stage the joined features are `RefStages.fb` of the two feature arrays and the two index vectors. -/
theorem fb_result (V : Valuation τ sig (Elt F)) :
    after opsFb V (main_v14 : DevRef τ sig) = RefStages.fb (V (main_arg0 : DevRef τ sig)) (V (main_arg1 : DevRef τ sig)) (V (main_arg3 : DevRef τ sig)) (V (main_arg4 : DevRef τ sig)) := by
  after_results_simp
  simp only [RefStages.fb]
  exact concat2_congr _ _ _ _ _ (by after_results_simp <;> rfl) (by after_results_simp <;> rfl)

/-- The first stage also leaves the table of the two weights in its array. -/
theorem cst_result (V : Valuation τ sig (Elt F)) :
    after opsFb V (main_cst : DevRef τ sig) = (fun i => FloatOps.ofBits .f32 (lit0 (S2.rowMajor i)) : FVec F S2 .f32) := by
  after_results_simp
  rfl

attribute [local irreducible] Host.gather concatenate Host.reduce Host.reduceAdd shapeCast broadcastInDim in
theorem hid_result (V : Valuation τ sig (Elt F)) :
    after opsHid V (main_v19 : DevRef τ sig) = RefStages.hid (V (main_v14 : DevRef τ sig)) (V (main_arg5 : DevRef τ sig)) (V (main_arg6 : DevRef τ sig)) := by
  after_results_simp
  rfl

attribute [local irreducible] Host.gather concatenate Host.reduce Host.reduceAdd shapeCast broadcastInDim in
theorem logits_result (V : Valuation τ sig (Elt F)) :
    after opsLogits V (main_v24 : DevRef τ sig) = RefStages.logits (V (main_v19 : DevRef τ sig)) (V (main_arg7 : DevRef τ sig)) (V (main_arg8 : DevRef τ sig)) := by
  after_results_simp
  rfl

attribute [local irreducible] Host.gather concatenate Host.reduce Host.reduceAdd shapeCast broadcastInDim in
theorem lsm_result (V : Valuation τ sig (Elt F)) :
    after opsLsm V (main_v25 : DevRef τ sig) = RefStages.logSoftmax (V (main_v24 : DevRef τ sig)) := by
  after_results_simp
  rfl

attribute [local irreducible] Host.gather concatenate Host.reduce Host.reduceAdd shapeCast broadcastInDim in
theorem lbl_result (V : Valuation τ sig (Elt F)) :
    after opsLbl V (main_v42 : DevRef τ sig) = RefStages.lbl (V (main_arg2 : DevRef τ sig)) (V (main_arg3 : DevRef τ sig)) (V (main_arg4 : DevRef τ sig)) := by
  after_results_simp
  simp only [RefStages.lbl]
  exact concat2_congr _ _ _ _ _ (by after_results_simp <;> rfl) (by after_results_simp <;> rfl)

attribute [local irreducible] Host.gather concatenate Host.reduce Host.reduceAdd shapeCast broadcastInDim in
theorem take_result (V : Valuation τ sig (Elt F)) :
    after opsTake V (main_v45 : DevRef τ sig) = RefStages.takeLabel (V (main_v25 : DevRef τ sig)) (V (main_v42 : DevRef τ sig)) := by
  after_results_simp
  rfl

attribute [local irreducible] Host.gather concatenate Host.reduce Host.reduceAdd shapeCast broadcastInDim in
/-- The last stage, from a state whose table array holds the two weights. -/
theorem wm_result (V : Valuation τ sig (Elt F))
    (hc : V (main_cst : DevRef τ sig) = (fun i => FloatOps.ofBits .f32 (lit0 (S2.rowMajor i)) : FVec F S2 .f32)) :
    after opsWm V (main_v51 : DevRef τ sig) = RefStages.weightedMean (V (main_v45 : DevRef τ sig)) := by
  after_results_simp
  rw [hc]
  rfl

/-! ## The stages composed -/

theorem upto_hid (V : Valuation τ sig (Elt F)) :
    after opsHid (after opsFb V) (main_v19 : DevRef τ sig) = RefStages.hid (RefStages.fb (V (main_arg0 : DevRef τ sig)) (V (main_arg1 : DevRef τ sig)) (V (main_arg3 : DevRef τ sig)) (V (main_arg4 : DevRef τ sig))) (V (main_arg5 : DevRef τ sig)) (V (main_arg6 : DevRef τ sig)) := by
  rw [hid_result, fb_result, frameFb V (r := main_arg5) (by decide), frameFb V (r := main_arg6) (by decide)]

theorem upto_logits (V : Valuation τ sig (Elt F)) :
    after opsLogits (after opsHid (after opsFb V)) (main_v24 : DevRef τ sig) = RefStages.logits (RefStages.hid (RefStages.fb (V (main_arg0 : DevRef τ sig)) (V (main_arg1 : DevRef τ sig)) (V (main_arg3 : DevRef τ sig)) (V (main_arg4 : DevRef τ sig))) (V (main_arg5 : DevRef τ sig)) (V (main_arg6 : DevRef τ sig))) (V (main_arg7 : DevRef τ sig)) (V (main_arg8 : DevRef τ sig)) := by
  rw [logits_result, upto_hid, frameHid _ (r := main_arg7) (by decide), frameFb V (r := main_arg7) (by decide),
    frameHid _ (r := main_arg8) (by decide), frameFb V (r := main_arg8) (by decide)]

theorem upto_lsm (V : Valuation τ sig (Elt F)) :
    after opsLsm (after opsLogits (after opsHid (after opsFb V))) (main_v25 : DevRef τ sig) = RefStages.logSoftmax (RefStages.logits (RefStages.hid (RefStages.fb (V (main_arg0 : DevRef τ sig)) (V (main_arg1 : DevRef τ sig)) (V (main_arg3 : DevRef τ sig)) (V (main_arg4 : DevRef τ sig))) (V (main_arg5 : DevRef τ sig)) (V (main_arg6 : DevRef τ sig))) (V (main_arg7 : DevRef τ sig)) (V (main_arg8 : DevRef τ sig))) := by
  rw [lsm_result, upto_logits]

/-- An array the first four stages do not write holds after them what it held before. -/
theorem frame4 (V : Valuation τ sig (Elt F)) {r : Ref sig .tc} (h1 : r ∉ writesFb) (h2 : r ∉ writesHid)
    (h3 : r ∉ writesLogits) (h4 : r ∉ writesLsm) :
    after opsLsm (after opsLogits (after opsHid (after opsFb V))) (r : DevRef τ sig) = V (r : DevRef τ sig) := by
  rw [frameLsm _ h4, frameLogits _ h3, frameHid _ h2, frameFb _ h1]

theorem upto_lbl (V : Valuation τ sig (Elt F)) :
    after opsLbl (after opsLsm (after opsLogits (after opsHid (after opsFb V)))) (main_v42 : DevRef τ sig) = RefStages.lbl (V (main_arg2 : DevRef τ sig)) (V (main_arg3 : DevRef τ sig)) (V (main_arg4 : DevRef τ sig)) := by
  rw [lbl_result, frame4 V (r := main_arg2) (by decide) (by decide) (by decide) (by decide), frame4 V (r := main_arg3) (by decide) (by decide) (by decide) (by decide),
    frame4 V (r := main_arg4) (by decide) (by decide) (by decide) (by decide)]

theorem upto_lbl_v25 (V : Valuation τ sig (Elt F)) :
    after opsLbl (after opsLsm (after opsLogits (after opsHid (after opsFb V)))) (main_v25 : DevRef τ sig) = RefStages.logSoftmax (RefStages.logits (RefStages.hid (RefStages.fb (V (main_arg0 : DevRef τ sig)) (V (main_arg1 : DevRef τ sig)) (V (main_arg3 : DevRef τ sig)) (V (main_arg4 : DevRef τ sig))) (V (main_arg5 : DevRef τ sig)) (V (main_arg6 : DevRef τ sig))) (V (main_arg7 : DevRef τ sig)) (V (main_arg8 : DevRef τ sig))) := by
  rw [frameLbl _ (r := main_v25) (by decide), upto_lsm]

theorem upto_take (V : Valuation τ sig (Elt F)) :
    after opsTake (after opsLbl (after opsLsm (after opsLogits (after opsHid (after opsFb V))))) (main_v45 : DevRef τ sig) = RefStages.takeLabel (RefStages.logSoftmax (RefStages.logits (RefStages.hid (RefStages.fb (V (main_arg0 : DevRef τ sig)) (V (main_arg1 : DevRef τ sig)) (V (main_arg3 : DevRef τ sig)) (V (main_arg4 : DevRef τ sig))) (V (main_arg5 : DevRef τ sig)) (V (main_arg6 : DevRef τ sig))) (V (main_arg7 : DevRef τ sig)) (V (main_arg8 : DevRef τ sig)))) (RefStages.lbl (V (main_arg2 : DevRef τ sig)) (V (main_arg3 : DevRef τ sig)) (V (main_arg4 : DevRef τ sig))) := by
  rw [take_result, upto_lbl_v25, upto_lbl]

/-- The table of the two weights, written by the first stage, is still in its array before the last. -/
theorem upto_take_cst (V : Valuation τ sig (Elt F)) :
    after opsTake (after opsLbl (after opsLsm (after opsLogits (after opsHid (after opsFb V))))) (main_cst : DevRef τ sig) = (fun i => FloatOps.ofBits .f32 (lit0 (S2.rowMajor i)) : FVec F S2 .f32) := by
  rw [frameTake _ (r := main_cst) (by decide), frameLbl _ (r := main_cst) (by decide), frameLsm _ (r := main_cst) (by decide),
    frameLogits _ (r := main_cst) (by decide), frameHid _ (r := main_cst) (by decide), cst_result]

/-- After the whole line the returned scalar is `RefStages.result` of the nine argument arrays. -/
theorem result_eq (V : Valuation τ sig (Elt F)) :
    after ops V (main_v51 : DevRef τ sig)
      = RefStages.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp only [ops, after_append]
  rw [wm_result _ (upto_take_cst V), upto_take]
  rfl

/-- No operation writes an argument array. -/
theorem arg_eq (V : Valuation τ sig (Elt F)) {r : Ref sig .tc} (h1 : r ∉ writesFb) (h2 : r ∉ writesHid)
    (h3 : r ∉ writesLogits) (h4 : r ∉ writesLsm) (h5 : r ∉ writesLbl) (h6 : r ∉ writesTake) (h7 : r ∉ writesWm) :
    after ops V (r : DevRef τ sig) = V (r : DevRef τ sig) := frame_all V h1 h2 h3 h4 h5 h6 h7

/-! ## The run -/

/-- On every device, for any float values, from any memory with zero counters: every weakly fair
    execution of the program terminates with the returned scalar at `RefStages.result` of the nine
    argument arrays' launch contents, and with each argument array unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v51)
        = RefStages.result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v51).trans (result_eq _),
      (h c main_arg0).trans (arg_eq _ (by decide) (by decide) (by decide) (by decide) (by decide) (by decide) (by decide)),
      (h c main_arg1).trans (arg_eq _ (by decide) (by decide) (by decide) (by decide) (by decide) (by decide) (by decide)),
      (h c main_arg2).trans (arg_eq _ (by decide) (by decide) (by decide) (by decide) (by decide) (by decide) (by decide)),
      (h c main_arg3).trans (arg_eq _ (by decide) (by decide) (by decide) (by decide) (by decide) (by decide) (by decide)),
      (h c main_arg4).trans (arg_eq _ (by decide) (by decide) (by decide) (by decide) (by decide) (by decide) (by decide)),
      (h c main_arg5).trans (arg_eq _ (by decide) (by decide) (by decide) (by decide) (by decide) (by decide) (by decide)),
      (h c main_arg6).trans (arg_eq _ (by decide) (by decide) (by decide) (by decide) (by decide) (by decide) (by decide)),
      (h c main_arg7).trans (arg_eq _ (by decide) (by decide) (by decide) (by decide) (by decide) (by decide) (by decide)),
      (h c main_arg8).trans (arg_eq _ (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.lean ====
/-
  The certificate: a fused kernel for the negative log-likelihood of a two-branch classifier head against its
  plain reference.

  Both programs gather, for 2 × 1303 positions, a row of 1024 embedding entries and two labels; push the row
  through a linear layer, a leaky rectifier and a second linear layer to 64000 logits, read as two branches of 32000
  classes; take per branch the negative log-likelihood of the label; and return the mean of these weighted `1` and
  `1/4`. The reference normalises each branch in two passes. The kernel visits the classes in 50 tiles of 640 per
  branch, keeping a running maximum, a running sum of exponentials rescaled whenever the maximum grows, and a sum
  masked to the label's class, and finishes with `log l + m - t`. Over the extended reals, on finite inputs and labels
  that are class indices (the precondition), the two are the same number: the running quantities are the closed
  forms over the classes seen so far (`exp a · exp b = exp (a + b)` on the reals), and the closed form at the end is
  the two-pass one rearranged.

  The word-level kernel program and its idealization both run to completion leaving the arguments unchanged (their
  frames); the idealization rewrote no operation, so it is the program's own text read over the extended reals.
-/
import proofs.«421797_j22849226015448_2_alg».proof.Defs
import proofs.«421797_j22849226015448_2_alg».proof.Proof.Gen.Kernel.Frame
import proofs.«421797_j22849226015448_2_alg».proof.Proof.Gen.KernelIdeal.Frame
import proofs.«421797_j22849226015448_2_alg».proof.Proof.Gen.ReferenceIdeal
import proofs.«421797_j22849226015448_2_alg».proof.Proof.Gen.Pre_finite_inputs
import proofs.«421797_j22849226015448_2_alg».proof.Proof.Bridge
import proofs.«421797_j22849226015448_2_alg».proof.Proof.RefRun

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments, both idealized programs end with the specification's value. -/
theorem algebraic : Cert.algebraic_KernelIdeal_ReferenceIdeal := by
  intro m ρ m' ρ' hpre hagree
  refine ⟨fun c _ => Cert.Bridge.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.Bridge.kernel_side m c (hpre c)), (h c).2⟩)
      (Cert.KernelIdeal.KTail.run_value m ρ)
  · refine (θ_run (Cert.ReferenceIdeal.defs (F := Ideal)) _ _).mono (fun r h c => ⟨(h c).1.trans ?_, (h c).2⟩)
      (Cert.ReferenceIdeal.RefRun.run (F := Ideal) m' ρ')
    obtain ⟨e0, e1, e2, e3, e4, e5, e6, e7, e8⟩ := hagree c
    rw [e0, e1, e2, e3, e4, e5, e6, e7, e8]
    exact Cert.Bridge.ref_side m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
